-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bitsLt_bf16_f32 : FTy.bits .bf16 < FTy.bits .f32
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .bf16) (main_arg1 : FVec F S2x16x2048x64 .bf16) (main_arg2 : FVec F S2x16x2048x64 .bf16) : IVec S_ 1 :=
  let main_v0 : FVec F S2x16x2048x64 .f32 := (extf .f32 · bitsLt_bf16_f32) main_arg0
  let main_v1 : FVec F S2x16x2048x64 .f32 := Host.absf main_v0
  let main_cst : FVec F S_ .f32 := constant S_ .f32 0x7F800000#32
  let main_v2 : FVec F S2x16x2048x64 .f32 := broadcastInDim S2x16x2048x64 ![] bcast_S_S2x16x2048x64 main_cst
  let main_v3 : IVec S2x16x2048x64 1 := cmpf .olt main_v1 main_v2
  let main_c : IVec S_ 1 := constantI S_ 1 1#1
  let main_v4 : IVec S_ 1 := (fun x v => Host.reduce IntOp.andi x v reducesTo_S2x16x2048x64_S_d0_1_2_3 h_S_) main_v3 main_c
  let main_v5 : FVec F S2x16x2048x64 .f32 := (extf .f32 · bitsLt_bf16_f32) main_arg1
  let main_v6 : FVec F S2x16x2048x64 .f32 := Host.absf main_v5
  let main_cst_0 : FVec F S_ .f32 := constant S_ .f32 0x7F800000#32
  let main_v7 : FVec F S2x16x2048x64 .f32 := broadcastInDim S2x16x2048x64 ![] bcast_S_S2x16x2048x64 main_cst_0
  let main_v8 : IVec S2x16x2048x64 1 := cmpf .olt main_v6 main_v7
  let main_c_1 : IVec S_ 1 := constantI S_ 1 1#1
  let main_v9 : IVec S_ 1 := (fun x v => Host.reduce IntOp.andi x v reducesTo_S2x16x2048x64_S_d0_1_2_3 h_S_) main_v8 main_c_1
  let main_v10 : IVec S_ 1 := andi main_v4 main_v9
  let main_v11 : FVec F S2x16x2048x64 .f32 := (extf .f32 · bitsLt_bf16_f32) main_arg2
  let main_v12 : FVec F S2x16x2048x64 .f32 := Host.absf main_v11
  let main_cst_2 : FVec F S_ .f32 := constant S_ .f32 0x7F800000#32
  let main_v13 : FVec F S2x16x2048x64 .f32 := broadcastInDim S2x16x2048x64 ![] bcast_S_S2x16x2048x64 main_cst_2
  let main_v14 : IVec S2x16x2048x64 1 := cmpf .olt main_v12 main_v13
  let main_c_3 : IVec S_ 1 := constantI S_ 1 1#1
  let main_v15 : IVec S_ 1 := (fun x v => Host.reduce IntOp.andi x v reducesTo_S2x16x2048x64_S_d0_1_2_3 h_S_) main_v14 main_c_3
  let main_v16 : IVec S_ 1 := andi main_v10 main_v15
  main_v16
-- ==== Kernel.lean ====
abbrev S2x16x2048x64 : Shape := ⟨4, ![2, 16, 2048, 64]⟩
abbrev S6 : Shape := ⟨1, ![6]⟩
abbrev S32x2048x64 : Shape := ⟨3, ![32, 2048, 64]⟩
abbrev S1x1024x64 : Shape := ⟨3, ![1, 1024, 64]⟩
abbrev S1 : Shape := ⟨1, ![1]⟩
abbrev S1x512x64 : Shape := ⟨3, ![1, 512, 64]⟩
abbrev S1024x64 : Shape := ⟨2, ![1024, 64]⟩
abbrev S1024x1 : Shape := ⟨2, ![1024, 1]⟩
abbrev S512x64 : Shape := ⟨2, ![512, 64]⟩
abbrev S64x512 : Shape := ⟨2, ![64, 512]⟩
abbrev S1024x512 : Shape := ⟨2, ![1024, 512]⟩
abbrev S1024 : Shape := ⟨1, ![1024]⟩

abbrev nBuf : Space → Nat
  | .hbm => 8
  | .vmem => 10
  | .smem => 4
  | _ => 0

abbrev bufTy : (tb : Table) → Fin (tcTables nBuf tb) → BufTy
  | .hbm, ⟨0, _⟩ => ⟨S2x16x2048x64, .bf16⟩
  | .hbm, ⟨1, _⟩ => ⟨S2x16x2048x64, .bf16⟩
  | .hbm, ⟨2, _⟩ => ⟨S2x16x2048x64, .bf16⟩
  | .hbm, ⟨3, _⟩ => ⟨S32x2048x64, .bf16⟩
  | .hbm, ⟨4, _⟩ => ⟨S32x2048x64, .bf16⟩
  | .hbm, ⟨5, _⟩ => ⟨S32x2048x64, .bf16⟩
  | .hbm, ⟨6, _⟩ => ⟨S32x2048x64, .bf16⟩
  | .hbm, ⟨7, _⟩ => ⟨S2x16x2048x64, .bf16⟩
  | .local _ .vmem, ⟨0, _⟩ => ⟨S1x1024x64, .bf16⟩
  | .local _ .vmem, ⟨1, _⟩ => ⟨S1x1024x64, .bf16⟩
  | .local _ .vmem, ⟨2, _⟩ => ⟨S1x512x64, .bf16⟩
  | .local _ .vmem, ⟨3, _⟩ => ⟨S1x512x64, .bf16⟩
  | .local _ .vmem, ⟨4, _⟩ => ⟨S1x512x64, .bf16⟩
  | .local _ .vmem, ⟨5, _⟩ => ⟨S1x512x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1024x64, .f32⟩
  | .local _ .vmem, ⟨9, _⟩ => ⟨S1024x1, .f32⟩
  | .local _ .smem, ⟨0, _⟩ => ⟨S6, .i32⟩
  | .local _ .smem, ⟨1, _⟩ => ⟨S6, .i32⟩
  | .local _ .smem, ⟨2, _⟩ => ⟨S6, .i32⟩
  | .local _ .smem, ⟨3, _⟩ => ⟨S6, .i32⟩
  | _, _ => ⟨S2x16x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 6], ![false, false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v7 : BitVec 32) : BitVec 1 :=
  let c0_i32_13 : BitVec 32 := 0#32
  let v31 : BitVec 1 := Scalar.cmpi .ne v7 c0_i32_13
  let v32 : BitVec 32 := Scalar.extui v31
  let c0_i32_14 : BitVec 32 := 0#32
  let v33 : BitVec 1 := Scalar.cmpi .ne v32 c0_i32_14
  v33

def cc0_transform_0 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S6) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S6) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x64_S32x2048x64 : S2x16x2048x64.ShapeCasts S32x2048x64
  numel1_S1 : S1.numel = 1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  bitsLt_bf16_f32 : FTy.bits .bf16 < FTy.bits .f32
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S32x2048x64_S2x16x2048x64 : S32x2048x64.ShapeCasts S2x16x2048x64
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  k0_off1_inb : ∀ i : grid0.Coords, ∀ a, (k0_off1 i) a + S1.size a ≤ S6.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev spec0_0 : Pipeline.WinSpec sig grid0.rank :=
  Pipeline.WinSpec.ofSpec (Memref.whole main_v0) S1x1024x64.size reads0_0 false false 2 stage0_0 sem0_0 nbuf0_0 hstage0_0

abbrev spec0_1 : Pipeline.WinSpec sig grid0.rank :=
  Pipeline.WinSpec.ofSpec (Memref.whole main_v1) S1x512x64.size reads0_1 false false 2 stage0_1 sem0_1 nbuf0_1 hstage0_1

abbrev spec0_2 : Pipeline.WinSpec sig grid0.rank :=
  Pipeline.WinSpec.ofSpec (Memref.whole main_v2) S1x512x64.size reads0_2 false false 2 stage0_2 sem0_2 nbuf0_2 hstage0_2

abbrev spec0_3 : Pipeline.WinSpec sig grid0.rank :=
  Pipeline.WinSpec.ofSpec (Memref.whole main_v3) S1x1024x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1024x64.size a ≤ S32x2048x64.size a), EltTy.bits .bf16 = 32 ∨ (Rect.block (s := S32x2048x64) S1x1024x64.size (cc0_transform_0 k0_off1_inb numel1_S1 pf i) h).WholeWords (EltTy.packing .bf16)) ∧
  (∀ i : grid0.Coords, ∃ h : (∀ a, (cc0_transform_1 k0_off1_inb numel1_S1 pf i a + 1) * S1x512x64.size a ≤ S32x2048x64.size a), EltTy.bits .bf16 = 32 ∨ (Rect.block (s := S32x2048x64) S1x512x64.size (cc0_transform_1 k0_off1_inb numel1_S1 pf i) h).WholeWords (EltTy.packing .bf16)) ∧
  (∀ i : grid0.Coords, ∃ h : (∀ a, (cc0_transform_2 k0_off1_inb numel1_S1 pf i a + 1) * S1x512x64.size a ≤ S32x2048x64.size a), EltTy.bits .bf16 = 32 ∨ (Rect.block (s := S32x2048x64) S1x512x64.size (cc0_transform_2 k0_off1_inb numel1_S1 pf i) h).WholeWords (EltTy.packing .bf16)) ∧
  (∀ i : grid0.Coords, ∃ h : (∀ a, (cc0_transform_3 k0_off1_inb numel1_S1 pf i a + 1) * S1x1024x64.size a ≤ S32x2048x64.size a), EltTy.bits .bf16 = 32 ∨ (Rect.block (s := S32x2048x64) S1x1024x64.size (cc0_transform_3 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle0 (pf : pre0.Contents (Elt F)) : Fin 4 → grid0.Coords → Bool := fun | 0 => fun _ => false | 1 => fun _ => false | 2 => fun _ => false | 3 => fun i => !(k0_cond4 (pf.atD 3 (k0_off1 i)) == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2048x2048 : Shape := ⟨2, ![2048, 2048]⟩
abbrev S2x16x2048 : Shape := ⟨3, ![2, 16, 2048]⟩
abbrev S2x16x2048x1 : Shape := ⟨4, ![2, 16, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2x16x2048x64, .bf16⟩
  | .hbm, ⟨1, _⟩ => ⟨S2x16x2048x64, .bf16⟩
  | .hbm, ⟨2, _⟩ => ⟨S2x16x2048x64, .bf16⟩
  | .hbm, ⟨3, _⟩ => ⟨S2x16x2048x64, .f32⟩
  | .hbm, ⟨4, _⟩ => ⟨S_, .f32⟩
  | .hbm, ⟨5, _⟩ => ⟨S2x16x2048x64, .f32⟩
  | .hbm, ⟨6, _⟩ => ⟨S2x16x2048x64, .f32⟩
  | .hbm, ⟨7, _⟩ => ⟨S2x16x2048x64, .f32⟩
  | .hbm, ⟨8, _⟩ => ⟨S2x16x2048x2048, .f32⟩
  | .hbm, ⟨9, _⟩ => ⟨S_, .i1⟩
  | .hbm, ⟨10, _⟩ => ⟨S2048x2048, .i1⟩
  | .hbm, ⟨11, _⟩ => ⟨S2048x2048, .i32⟩
  | .hbm, ⟨12, _⟩ => ⟨S_, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .i1⟩
  | .hbm, ⟨18, _⟩ => ⟨S2048x2048, .i1⟩
  | .hbm, ⟨19, _⟩ => ⟨S2048x2048, .i1⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S_, .f32⟩
  | .hbm, ⟨30, _⟩ => ⟨S2x16x2048x2048, .i1⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S2x16x2048x2048, .bf16⟩
  | .hbm, ⟨36, _⟩ => ⟨S2x16x2048x2048, .f32⟩
  | .hbm, ⟨37, _⟩ => ⟨S2x16x2048x64, .f32⟩
  | .hbm, ⟨38, _⟩ => ⟨S2x16x2048x64, .f32⟩
  | .hbm, ⟨39, _⟩ => ⟨S2x16x2048x1, .f32⟩
  | .hbm, ⟨40, _⟩ => ⟨S_, .f32⟩
  | .hbm, ⟨41, _⟩ => ⟨S2x16x2048x1, .f32⟩
  | .hbm, ⟨42, _⟩ => ⟨S2x16x2048x1, .f32⟩
  | .hbm, ⟨43, _⟩ => ⟨S2x16x2048x64, .f32⟩
  | .hbm, ⟨44, _⟩ => ⟨S2x16x2048x64, .f32⟩
  | .hbm, ⟨45, _⟩ => ⟨S2x16x2048x64, .bf16⟩
  | _, _ => ⟨S2x16x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]

class Facts₀ : Prop where
  bitsLt_bf16_f32 : FTy.bits .bf16 < FTy.bits .f32
  bcast_S_S2x16x2048x64 : S_.BroadcastsInDim S2x16x2048x64 (![] : Fin 0 → Fin S2x16x2048x64.rank)
  bcast_S_S2048x2048 : S_.BroadcastsInDim S2048x2048 (![] : Fin 0 → Fin S2048x2048.rank)
  bcast_S_S2x16x2048x2048 : S_.BroadcastsInDim S2x16x2048x2048 (![] : Fin 0 → Fin S2x16x2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x64_0_1_2_3 : S2x16x2048x1.BroadcastsInDim S2x16x2048x64 (![0, 1, 2, 3] : Fin 4 → Fin S2x16x2048x64.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.K.Base.lean ====
/-
  What the frame of the attention kernel's program is stated over: the buffers' contents when the region is
  entered (after the four schedule tables are written and the three arguments reshaped to [32, 2048, 64]), the tables
  themselves (six entries each: the q-tile, the k-tile, whether the tile straddles the diagonal, whether it is the
  last k-tile of its q-row), the scratch accumulators as views,
  and the four conditions the body branches on, as functions of the table words it loads.
-/
import proofs.«420449_j45973329936664_3_alg».proof.Proof.Gen.Kernel.Launch
import proofs.«420449_j45973329936664_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffers when the region is entered: after the seven host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the reshape after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The reshape after the region touches the result array and the final buffer only, no table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The tables -/

/-- The four tables' contents when the region is entered. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl

/-- Each table holds its six literal words. -/
theorem tbl_0 : tbl m 0 = fun i => lit0 (S6.rowMajor i) := by
  show V m 0 main_c = _
  dsimp only [V, V0]; simp only [hostOps0, List.flatten_cons, List.flatten_nil, List.append_nil]
  after_results; rfl
theorem tbl_1 : tbl m 1 = fun i => lit1 (S6.rowMajor i) := by
  show V m 0 main_c_0 = _
  dsimp only [V, V0]; simp only [hostOps0, List.flatten_cons, List.flatten_nil, List.append_nil]
  after_results; rfl
theorem tbl_2 : tbl m 2 = fun i => lit2 (S6.rowMajor i) := by
  show V m 0 main_c_1 = _
  dsimp only [V, V0]; simp only [hostOps0, List.flatten_cons, List.flatten_nil, List.append_nil]
  after_results; rfl
theorem tbl_3 : tbl m 3 = fun i => lit3 (S6.rowMajor i) := by
  show V m 0 main_c_2 = _
  dsimp only [V, V0]; simp only [hostOps0, List.flatten_cons, List.flatten_nil, List.append_nil]
  after_results; rfl

/-- The literal tables as one family. -/
def litTbl : pre0.Contents (Elt F) := fun j => match j with
  | ⟨0, _⟩ => fun i => lit0 (S6.rowMajor i)
  | ⟨1, _⟩ => fun i => lit1 (S6.rowMajor i)
  | ⟨2, _⟩ => fun i => lit2 (S6.rowMajor i)
  | ⟨3, _⟩ => fun i => lit3 (S6.rowMajor i)

theorem tbl_eq : tbl m = litTbl (F := F) := by
  funext j
  fin_cases j
  · exact tbl_0 m
  · exact tbl_1 m
  · exact tbl_2 m
  · exact tbl_3 m

/-- Each table as the body is handed it. -/
abbrev tbM0_0 : Memref sig .tc .smem S6 .i32 := Memref.whole main_c
abbrev htbM0_0 : tbM0_0.IsWhole := Memref.isWhole_whole _
abbrev tbM0_1 : Memref sig .tc .smem S6 .i32 := Memref.whole main_c_0
abbrev htbM0_1 : tbM0_1.IsWhole := Memref.isWhole_whole _
abbrev tbM0_2 : Memref sig .tc .smem S6 .i32 := Memref.whole main_c_1
abbrev htbM0_2 : tbM0_2.IsWhole := Memref.isWhole_whole _
abbrev tbM0_3 : Memref sig .tc .smem S6 .i32 := Memref.whole main_c_2
abbrev htbM0_3 : tbM0_3.IsWhole := Memref.isWhole_whole _

/-- A table's buffer on core `c`, and the half of it the region lends the body. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (pf : pre0.Contents (Elt F)) (c : Dev nD) : (Pipeline.ΦT pre0 pf c : sProp 𝕄) = iprop(tbPt0 c tbM0_0 (pf 0) ∗ tbPt0 c tbM0_1 (pf 1) ∗ tbPt0 c tbM0_2 (pf 2) ∗ tbPt0 c tbM0_3 (pf 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The memrefs the body is called with -/

abbrev VO0_3 : View sig .tc .vmem S1x1024x64 .bf16 := (Memref.whole cc0_stg3_0 : Memref sig .tc .vmem S1x1024x64 .bf16).view
/-- The two accumulators: the [1024, 64] numerator and the [1024, 1] normalizer, carried from point to point. -/
abbrev scM0_0 : Memref sig .tc .vmem S1024x64 .f32 := Memref.whole cc0_scratch0
abbrev scM0_1 : Memref sig .tc .vmem S1024x1 .f32 := Memref.whole cc0_scratch1
abbrev VS0_0 : View sig .tc .vmem S1024x64 .f32 := scM0_0.view
abbrev VS0_1 : View sig .tc .vmem S1024x1 .f32 := scM0_1.view

/-- The body at point `t`, as the pipeline calls it. -/
abbrev bodyAt0 (a : (pcfg0 (F := F)).Adm) (t : Fin (cfg0 a).N) : Prog (TpuEff nD τ sig (Elt F) Λ₀ .tc) PUnit :=
  cc0__attn_kernel (grid0.coords t) (Memref.whole main_c) (Memref.isWhole_whole _) (Memref.whole main_c_0) (Memref.isWhole_whole _) (Memref.whole main_c_1) (Memref.isWhole_whole _) (Memref.whole main_c_2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The body's four conditions, over the table words it loads -/

/-- The word the body loads from a table at point `i`: entry `i 1` of the table. -/
abbrev word (c : Dev nD) (i : grid0.Coords) (M : Memref sig .tc .smem S6 .i32) (xt : TbBuf0 (F := F) c M) : BitVec 32 :=
  M.view.readAt (Elt F) (Rect.unit (s := S6) (k0_off1 i) S1.size (k0_off1_inb i)).toLoadRect xt (Shape.Idx.first (numel1_S1.symm ▸ Nat.one_pos))

/-- The k-tile is the first of its q-row: the accumulators are reset. -/
abbrev cond0_0 (v3 : BitVec 32) : Prop := (Scalar.cmpi .ne (Scalar.extui (Scalar.cmpi .eq v3 0#32)) 0#32) = 1#1
/-- The tile straddles the diagonal: the causal mask is applied. -/
abbrev cond0_1 (v5 : BitVec 32) : Prop := (Scalar.cmpi .ne (Scalar.extui (Scalar.cmpi .ne v5 0#32)) 0#32) = 1#1
/-- The tile lies wholly below the diagonal: no mask. -/
abbrev cond0_2 (v5 : BitVec 32) : Prop := (Scalar.cmpi .ne (Scalar.extui (Scalar.cmpi .eq v5 0#32)) 0#32) = 1#1
/-- The k-tile is the last of its q-row: the quotient is stored. -/
abbrev cond0_3 (v7 : BitVec 32) : Prop := k0_cond4 v7 = 1#1

end Cert.Kernel.Fr

end
-- ==== Proof.K.RunA.lean ====
/-
  The body of the attention kernel run once in case A: which of its four conditional blocks execute is fixed by
  hypotheses on the table words it loads, and the run returns the pieces its stores leave.
-/
import proofs.«420449_j45973329936664_3_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point where the accumulators are reset, the tile is masked and the quotient is not stored:
    what its stores leave in the accumulators, as pieces the run finds. -/
noncomputable def kernelRun0_A (c : Dev nD) (i : grid0.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .bf16) (harg9 : arg9.IsWhole) (arg10 : Memref sig .tc .vmem S1024x64 .f32) (harg10 : arg10.IsWhole) (arg11 : Memref sig .tc .vmem S1024x1 .f32) (harg11 : arg11.IsWhole)
    (x0 : Vec F S1x1024x64 .bf16) (x1 : Vec F S1x512x64 .bf16) (x2 : Vec F S1x512x64 .bf16) (xt0 : TbBuf0 (F := F) c tbM0_0) (xt1 : TbBuf0 (F := F) c tbM0_1) (xt2 : TbBuf0 (F := F) c tbM0_2) (xt3 : TbBuf0 (F := F) c tbM0_3)
    (hc0 : cond0_0 (word c i tbM0_1 xt1)) (hc1 : cond0_1 (word c i tbM0_2 xt2)) (hc2 : ¬cond0_2 (word c i tbM0_2 xt2)) (hc3 : ¬cond0_3 (word c i tbM0_3 xt3)) :
    Σ' (LS0 : List (View.Piece (Elt F) S1024x64 .f32)), { LS1 : List (View.Piece (Elt F) S1024x1 .f32) //
      ∀ (xi3 : Vec F S1x1024x64 .bf16) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3 ∗ (∃ d, owns (c : Thread nD τ) arg10 fullShare d) ∗ (∃ d, owns (c : Thread nD τ) arg11 fullShare d)
            ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__attn_kernel i tbM0_0 htbM0_0 tbM0_1 htbM0_1 tbM0_2 htbM0_2 tbM0_3 htbM0_3 arg6 harg6 arg7 harg7 arg8 harg8 arg9 harg9 arg10 harg10 arg11 harg11) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, HT0, HT1, HT2, HT3, Hk⟩
    obtain rfl := harg6.eq_unread hf0; obtain rfl := harg7.eq_unread hf1; obtain rfl := harg8.eq_unread hf2; obtain rfl := harg9.eq_unread hf3
    sl_exec (disch := first | sl_exact hc0 | sl_exact hc1 | sl_exact hc2 | sl_exact hc3)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HT0]; · iexact HT0
    isplitl [HT1]; · iexact HT1
    isplitl [HT2]; · iexact HT2
    iexact HT3

end Cert.Kernel.Fr

end
-- ==== Proof.K.RunB.lean ====
/-
  The body of the attention kernel run once in case B: which of its four conditional blocks execute is fixed by
  hypotheses on the table words it loads, and the run returns the pieces its stores leave.
-/
import proofs.«420449_j45973329936664_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point where the accumulators are carried, the tile is masked and the quotient is stored:
    what its stores leave in the accumulators and in the output block, as pieces the run finds. -/
noncomputable def kernelRun0_B (c : Dev nD) (i : grid0.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .bf16) (harg9 : arg9.IsWhole) (arg10 : Memref sig .tc .vmem S1024x64 .f32) (harg10 : arg10.IsWhole) (arg11 : Memref sig .tc .vmem S1024x1 .f32) (harg11 : arg11.IsWhole)
    (x0 : Vec F S1x1024x64 .bf16) (x1 : Vec F S1x512x64 .bf16) (x2 : Vec F S1x512x64 .bf16) (xs0 : Vec F S1024x64 .f32) (xs1 : Vec F S1024x1 .f32) (xt0 : TbBuf0 (F := F) c tbM0_0) (xt1 : TbBuf0 (F := F) c tbM0_1) (xt2 : TbBuf0 (F := F) c tbM0_2) (xt3 : TbBuf0 (F := F) c tbM0_3)
    (hc0 : ¬cond0_0 (word c i tbM0_1 xt1)) (hc1 : cond0_1 (word c i tbM0_2 xt2)) (hc2 : ¬cond0_2 (word c i tbM0_2 xt2)) (hc3 : cond0_3 (word c i tbM0_3 xt3)) :
    Σ' (L3 : List (View.Piece (Elt F) S1x1024x64 .bf16)) (LS0 : List (View.Piece (Elt F) S1024x64 .f32)), { LS1 : List (View.Piece (Elt F) S1024x1 .f32) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ (∃ d, owns (c : Thread nD τ) arg9 fullShare d) ∗ owns (c : Thread nD τ) arg10 fullShare xs0 ∗ owns (c : Thread nD τ) arg11 fullShare xs1
            ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ (∃ f, arg9.view.loc (c : Thread nD τ) ↦[arg9.view.set]{fullShare} arg9.view.writes (Elt F) f L3)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__attn_kernel i tbM0_0 htbM0_0 tbM0_1 htbM0_1 tbM0_2 htbM0_2 tbM0_3 htbM0_3 arg6 harg6 arg7 harg7 arg8 harg8 arg9 harg9 arg10 harg10 arg11 harg11) K } := by
  refine ⟨?_, ?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT1, HT2, HT3, Hk⟩
    obtain rfl := harg6.eq_unread hf0; obtain rfl := harg7.eq_unread hf1; obtain rfl := harg8.eq_unread hf2; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]; · iexists _; iexact H3
    isplitl [HS0]; · iexists _; iexact HS0
    isplitl [HS1]; · iexists _; iexact HS1
    isplitl [HT0]; · iexact HT0
    isplitl [HT1]; · iexact HT1
    isplitl [HT2]; · iexact HT2
    iexact HT3

end Cert.Kernel.Fr

end
-- ==== Proof.K.RunC.lean ====
/-
  The body of the attention kernel run once in case C: which of its four conditional blocks execute is fixed by
  hypotheses on the table words it loads, and the run returns the pieces its stores leave.
-/
import proofs.«420449_j45973329936664_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point where the accumulators are reset, the tile is not masked and the quotient is not stored:
    what its stores leave in the accumulators, as pieces the run finds. -/
noncomputable def kernelRun0_C (c : Dev nD) (i : grid0.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .bf16) (harg9 : arg9.IsWhole) (arg10 : Memref sig .tc .vmem S1024x64 .f32) (harg10 : arg10.IsWhole) (arg11 : Memref sig .tc .vmem S1024x1 .f32) (harg11 : arg11.IsWhole)
    (x0 : Vec F S1x1024x64 .bf16) (x1 : Vec F S1x512x64 .bf16) (x2 : Vec F S1x512x64 .bf16) (xt0 : TbBuf0 (F := F) c tbM0_0) (xt1 : TbBuf0 (F := F) c tbM0_1) (xt2 : TbBuf0 (F := F) c tbM0_2) (xt3 : TbBuf0 (F := F) c tbM0_3)
    (hc0 : cond0_0 (word c i tbM0_1 xt1)) (hc1 : ¬cond0_1 (word c i tbM0_2 xt2)) (hc2 : cond0_2 (word c i tbM0_2 xt2)) (hc3 : ¬cond0_3 (word c i tbM0_3 xt3)) :
    Σ' (LS0 : List (View.Piece (Elt F) S1024x64 .f32)), { LS1 : List (View.Piece (Elt F) S1024x1 .f32) //
      ∀ (xi3 : Vec F S1x1024x64 .bf16) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3 ∗ (∃ d, owns (c : Thread nD τ) arg10 fullShare d) ∗ (∃ d, owns (c : Thread nD τ) arg11 fullShare d)
            ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__attn_kernel i tbM0_0 htbM0_0 tbM0_1 htbM0_1 tbM0_2 htbM0_2 tbM0_3 htbM0_3 arg6 harg6 arg7 harg7 arg8 harg8 arg9 harg9 arg10 harg10 arg11 harg11) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, HT0, HT1, HT2, HT3, Hk⟩
    obtain rfl := harg6.eq_unread hf0; obtain rfl := harg7.eq_unread hf1; obtain rfl := harg8.eq_unread hf2; obtain rfl := harg9.eq_unread hf3
    sl_exec (disch := first | sl_exact hc0 | sl_exact hc1 | sl_exact hc2 | sl_exact hc3)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HT0]; · iexact HT0
    isplitl [HT1]; · iexact HT1
    isplitl [HT2]; · iexact HT2
    iexact HT3

end Cert.Kernel.Fr

end
-- ==== Proof.K.RunD.lean ====
/-
  The body of the attention kernel run once in case D: which of its four conditional blocks execute is fixed by
  hypotheses on the table words it loads, and the run returns the pieces its stores leave.
-/
import proofs.«420449_j45973329936664_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point where the accumulators are carried, the tile is not masked and the quotient is not stored:
    what its stores leave in the accumulators, as pieces the run finds. -/
noncomputable def kernelRun0_D (c : Dev nD) (i : grid0.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .bf16) (harg9 : arg9.IsWhole) (arg10 : Memref sig .tc .vmem S1024x64 .f32) (harg10 : arg10.IsWhole) (arg11 : Memref sig .tc .vmem S1024x1 .f32) (harg11 : arg11.IsWhole)
    (x0 : Vec F S1x1024x64 .bf16) (x1 : Vec F S1x512x64 .bf16) (x2 : Vec F S1x512x64 .bf16) (xs0 : Vec F S1024x64 .f32) (xs1 : Vec F S1024x1 .f32) (xt0 : TbBuf0 (F := F) c tbM0_0) (xt1 : TbBuf0 (F := F) c tbM0_1) (xt2 : TbBuf0 (F := F) c tbM0_2) (xt3 : TbBuf0 (F := F) c tbM0_3)
    (hc0 : ¬cond0_0 (word c i tbM0_1 xt1)) (hc1 : ¬cond0_1 (word c i tbM0_2 xt2)) (hc2 : cond0_2 (word c i tbM0_2 xt2)) (hc3 : ¬cond0_3 (word c i tbM0_3 xt3)) :
    Σ' (LS0 : List (View.Piece (Elt F) S1024x64 .f32)), { LS1 : List (View.Piece (Elt F) S1024x1 .f32) //
      ∀ (xi3 : Vec F S1x1024x64 .bf16) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3 ∗ owns (c : Thread nD τ) arg10 fullShare xs0 ∗ owns (c : Thread nD τ) arg11 fullShare xs1
            ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__attn_kernel i tbM0_0 htbM0_0 tbM0_1 htbM0_1 tbM0_2 htbM0_2 tbM0_3 htbM0_3 arg6 harg6 arg7 harg7 arg8 harg8 arg9 harg9 arg10 harg10 arg11 harg11) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HT0]; · iexact HT0
    isplitl [HT1]; · iexact HT1
    isplitl [HT2]; · iexact HT2
    iexact HT3

end Cert.Kernel.Fr

end
-- ==== Proof.K.RunE.lean ====
/-
  The body of the attention kernel run once in case E: which of its four conditional blocks execute is fixed by
  hypotheses on the table words it loads, and the run returns the pieces its stores leave.
-/
import proofs.«420449_j45973329936664_3_alg».proof.Proof.K.RunD

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point where the accumulators are carried, the tile is masked and the quotient is not stored:
    what its stores leave in the accumulators, as pieces the run finds. -/
noncomputable def kernelRun0_E (c : Dev nD) (i : grid0.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .bf16) (harg9 : arg9.IsWhole) (arg10 : Memref sig .tc .vmem S1024x64 .f32) (harg10 : arg10.IsWhole) (arg11 : Memref sig .tc .vmem S1024x1 .f32) (harg11 : arg11.IsWhole)
    (x0 : Vec F S1x1024x64 .bf16) (x1 : Vec F S1x512x64 .bf16) (x2 : Vec F S1x512x64 .bf16) (xs0 : Vec F S1024x64 .f32) (xs1 : Vec F S1024x1 .f32) (xt0 : TbBuf0 (F := F) c tbM0_0) (xt1 : TbBuf0 (F := F) c tbM0_1) (xt2 : TbBuf0 (F := F) c tbM0_2) (xt3 : TbBuf0 (F := F) c tbM0_3)
    (hc0 : ¬cond0_0 (word c i tbM0_1 xt1)) (hc1 : cond0_1 (word c i tbM0_2 xt2)) (hc2 : ¬cond0_2 (word c i tbM0_2 xt2)) (hc3 : ¬cond0_3 (word c i tbM0_3 xt3)) :
    Σ' (LS0 : List (View.Piece (Elt F) S1024x64 .f32)), { LS1 : List (View.Piece (Elt F) S1024x1 .f32) //
      ∀ (xi3 : Vec F S1x1024x64 .bf16) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3 ∗ owns (c : Thread nD τ) arg10 fullShare xs0 ∗ owns (c : Thread nD τ) arg11 fullShare xs1
            ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__attn_kernel i tbM0_0 htbM0_0 tbM0_1 htbM0_1 tbM0_2 htbM0_2 tbM0_3 htbM0_3 arg6 harg6 arg7 harg7 arg8 harg8 arg9 harg9 arg10 harg10 arg11 harg11) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HT0]; · iexact HT0
    isplitl [HT1]; · iexact HT1
    isplitl [HT2]; · iexact HT2
    iexact HT3

end Cert.Kernel.Fr

end
-- ==== Proof.K.Adm.lean ====
/-
  The pipeline of the attention kernel at its literal schedule tables: the side condition decided, the words the
  body loads at each of the 192 points (point t = 6·bh + j reads entry j of each table), the four conditions in
  closed form over j, and where the output window is idle and where it is written back (at j = 1 and j = 5, the
  last k-tile of each q-row).
-/
import proofs.«420449_j45973329936664_3_alg».proof.Proof.K.Base
import Idealize.ShloMosaic.PureOps.BitExact

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Bits

local notation "𝕄" => MT nD τ sig Unit (Elt 𝔽) ℕ (UR sig nD τ) ℕ

variable (m : (ℓ : Loc nD τ sig) → Buf (Elt 𝔽) ℓ) (ρ : Dev nD → PrngReg)

/-- At the literal tables every block lies inside its array and ends on whole words. -/
theorem ok_lit : ok0 (F := 𝔽) (litTbl (F := 𝔽)) := by
  decide +kernel

/-- The literal tables as admissible contents, and the pipeline at them. -/
def admL : (pcfg0 (F := 𝔽)).Adm := ⟨litTbl, ok_lit⟩
abbrev cfgL : Pipeline.Cfg sig Λ₀ := cfg0 (F := 𝔽) admL

/-- When the region is entered the tables hold those contents. -/
theorem V_preL (c : Dev nD) (k : Fin 4) : V m c (pre0.ref k) = (admL).1 k :=
  (V_pre m c k).trans (congrFun (tbl_eq m) k)

theorem N_L : cfgL.N = 192 := N_0

/-! ## The words the body loads -/

/-- The table entry the body's loads read at point `i`. -/
def widx (i : grid0.Coords) : S6.Idx :=
  (Rect.unit (s := S6) (k0_off1 i) S1.size (k0_off1_inb i)).idx (Shape.Idx.first (numel1_S1.symm ▸ Nat.one_pos))

theorem word_lit0 (c : Dev nD) (i : grid0.Coords) : word (F := 𝔽) c i tbM0_0 (litTbl 0) = lit0 (S6.rowMajor (widx i)) := rfl
theorem word_lit1 (c : Dev nD) (i : grid0.Coords) : word (F := 𝔽) c i tbM0_1 (litTbl 1) = lit1 (S6.rowMajor (widx i)) := rfl
theorem word_lit2 (c : Dev nD) (i : grid0.Coords) : word (F := 𝔽) c i tbM0_2 (litTbl 2) = lit2 (S6.rowMajor (widx i)) := rfl
theorem word_lit3 (c : Dev nD) (i : grid0.Coords) : word (F := 𝔽) c i tbM0_3 (litTbl 3) = lit3 (S6.rowMajor (widx i)) := rfl

/-! ## The conditions in closed form -/

theorem hcond0_0 (c : Dev nD) (t : Fin cfgL.N) : cond0_0 (word (F := 𝔽) c (grid0.coords t) tbM0_1 (litTbl 1)) ↔ (t.val % 6 = 0 ∨ t.val % 6 = 2) := by
  rw [word_lit1]
  exact (by decide +kernel : ∀ t : Fin grid0.N, cond0_0 (lit1 (S6.rowMajor (widx (grid0.coords t)))) ↔ (t.val % 6 = 0 ∨ t.val % 6 = 2)) t
theorem hcond0_1 (c : Dev nD) (t : Fin cfgL.N) : cond0_1 (word (F := 𝔽) c (grid0.coords t) tbM0_2 (litTbl 2)) ↔ ¬(t.val % 6 = 2 ∨ t.val % 6 = 3) := by
  rw [word_lit2]
  exact (by decide +kernel : ∀ t : Fin grid0.N, cond0_1 (lit2 (S6.rowMajor (widx (grid0.coords t)))) ↔ ¬(t.val % 6 = 2 ∨ t.val % 6 = 3)) t
theorem hcond0_2 (c : Dev nD) (t : Fin cfgL.N) : cond0_2 (word (F := 𝔽) c (grid0.coords t) tbM0_2 (litTbl 2)) ↔ (t.val % 6 = 2 ∨ t.val % 6 = 3) := by
  rw [word_lit2]
  exact (by decide +kernel : ∀ t : Fin grid0.N, cond0_2 (lit2 (S6.rowMajor (widx (grid0.coords t)))) ↔ (t.val % 6 = 2 ∨ t.val % 6 = 3)) t
theorem hcond0_3 (c : Dev nD) (t : Fin cfgL.N) : cond0_3 (word (F := 𝔽) c (grid0.coords t) tbM0_3 (litTbl 3)) ↔ (t.val % 6 = 1 ∨ t.val % 6 = 5) := by
  rw [word_lit3]
  exact (by decide +kernel : ∀ t : Fin grid0.N, cond0_3 (lit3 (S6.rowMajor (widx (grid0.coords t)))) ↔ (t.val % 6 = 1 ∨ t.val % 6 = 5)) t

/-! ## Where the windows are idle, and where the output is written back -/

theorem liveAt0_0 : ∀ t : Fin cfgL.N, cfgL.idle 0 (grid0.coords t) = false := by decide +kernel
theorem liveAt0_1 : ∀ t : Fin cfgL.N, cfgL.idle 1 (grid0.coords t) = false := by decide +kernel
theorem liveAt0_2 : ∀ t : Fin cfgL.N, cfgL.idle 2 (grid0.coords t) = false := by decide +kernel
/-- The output window is idle exactly where the quotient is not stored. -/
theorem idleAt0_3 : ∀ t : Fin cfgL.N, ¬(t.val % 6 = 1 ∨ t.val % 6 = 5) → cfgL.idle 3 (grid0.coords t) = true := by decide +kernel
theorem liveAt0_3 : ∀ t : Fin cfgL.N, (t.val % 6 = 1 ∨ t.val % 6 = 5) → cfgL.idle 3 (grid0.coords t) = false := by decide +kernel
/-- And it is written back exactly there: the next point's q-tile, or batch-head, is another. -/
theorem flush0_3 : ∀ t : Fin cfgL.N, (cfgL.win 3).flush t = true ↔ (t.val % 6 = 1 ∨ t.val % 6 = 5) := by decide +kernel
theorem noFlush0_3 : ∀ t : Fin cfgL.N, ¬(t.val % 6 = 1 ∨ t.val % 6 = 5) → (cfgL.win 3).flush t = false := by decide +kernel

end Cert.Kernel.Fr

end
-- ==== Proof.K.Frame.lean ====
/-
  The frame of the attention kernel's program: what the two accumulators and the output block hold after each of
  the 192 grid points, case by case of the body's four conditions, the region's invariant carrying the accumulators from
  point to point, the body's obligation at every point, and the run of the whole program around the region.
  Point t = 6·bh + j is in one of five cases by j: j = 0 resets and masks; j = 1 and j = 5 mask and store the quotient;
  j = 2 resets without mask; j = 3 accumulates without mask; j = 4 masks without storing.
-/
import proofs.«420449_j45973329936664_3_alg».proof.Proof.K.RunE
import proofs.«420449_j45973329936664_3_alg».proof.Proof.K.Adm

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Bits

local notation "𝕄" => MT nD τ sig Unit (Elt 𝔽) ℕ (UR sig nD τ) ℕ

variable (m : (ℓ : Loc nD τ sig) → Buf (Elt 𝔽) ℓ) (ρ : Dev nD → PrngReg)

/-! ## The windows' blocks and staging memrefs -/

/-- Window `w`'s block at point `t`, read off its array as the region finds it. -/
def iblk (c : Dev nD) (w : Fin cfgL.W) (t : Fin cfgL.N) : ((cfgL.win w).xblock (cfgL.grid.coords t)).Idx → Elt 𝔽 (cfgL.win w).elt :=
  ((cfgL.win w).blk t).view.read (Elt 𝔽) (V m c (Pipeline.arrRef spec0 w))

theorem before0_0_of {c : Dev nD} (dat : Dat τ (Elt 𝔽) Unit ℕ (UR sig nD τ) ℕ cfgL c) (hA : dat.A 0 = V m c (Pipeline.arrRef spec0 0))
    (hafter : ∀ t, dat.after 0 t = iblk m c 0 t) (t : Fin cfgL.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt 𝔽) Unit ℕ (UR sig nD τ) ℕ cfgL c) (hA : dat.A 1 = V m c (Pipeline.arrRef spec0 1))
    (hafter : ∀ t, dat.after 1 t = iblk m c 1 t) (t : Fin cfgL.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt 𝔽) Unit ℕ (UR sig nD τ) ℕ cfgL c) (hA : dat.A 2 = V m c (Pipeline.arrRef spec0 2))
    (hafter : ∀ t, dat.after 2 t = iblk m c 2 t) (t : Fin cfgL.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfgL.N) : Memref sig .tc .vmem S1x1024x64 .bf16 := spec0_0.stage (cfgL.slots t 0)
abbrev hs0_0 (t : Fin cfgL.N) : (ms0_0 t).IsWhole := hstage0_0 ((cfgL.slots t 0).cast nbuf0_0)
abbrev ms0_1 (t : Fin cfgL.N) : Memref sig .tc .vmem S1x512x64 .bf16 := spec0_1.stage (cfgL.slots t 1)
abbrev hs0_1 (t : Fin cfgL.N) : (ms0_1 t).IsWhole := hstage0_1 ((cfgL.slots t 1).cast nbuf0_1)
abbrev ms0_2 (t : Fin cfgL.N) : Memref sig .tc .vmem S1x512x64 .bf16 := spec0_2.stage (cfgL.slots t 2)
abbrev hs0_2 (t : Fin cfgL.N) : (ms0_2 t).IsWhole := hstage0_2 ((cfgL.slots t 2).cast nbuf0_2)
abbrev ms0_3 (t : Fin cfgL.N) : Memref sig .tc .vmem S1x1024x64 .bf16 := spec0_3.stage (cfgL.slots t 3)
abbrev hs0_3 (t : Fin cfgL.N) : (ms0_3 t).IsWhole := hstage0_3 ((cfgL.slots t 3).cast nbuf0_3)

/-! ## The case hypotheses at a point, from its position modulo six -/
theorem hcA0 (c : Dev nD) (t : Fin cfgL.N) (h : t.val % 6 = 0) : cond0_0 (word (F := 𝔽) c (grid0.coords t) tbM0_1 (litTbl 1)) := (hcond0_0 c t).mpr (Or.inl h)
theorem hcA1 (c : Dev nD) (t : Fin cfgL.N) (h : t.val % 6 = 0) : cond0_1 (word (F := 𝔽) c (grid0.coords t) tbM0_2 (litTbl 2)) := (hcond0_1 c t).mpr (by omega)
theorem hcA2 (c : Dev nD) (t : Fin cfgL.N) (h : t.val % 6 = 0) : ¬cond0_2 (word (F := 𝔽) c (grid0.coords t) tbM0_2 (litTbl 2)) := fun h' => absurd ((hcond0_2 c t).mp h') (by omega)
theorem hcA3 (c : Dev nD) (t : Fin cfgL.N) (h : t.val % 6 = 0) : ¬cond0_3 (word (F := 𝔽) c (grid0.coords t) tbM0_3 (litTbl 3)) := fun h' => absurd ((hcond0_3 c t).mp h') (by omega)
theorem hcB0 (c : Dev nD) (t : Fin cfgL.N) (h : (t.val % 6 = 1 ∨ t.val % 6 = 5)) : ¬cond0_0 (word (F := 𝔽) c (grid0.coords t) tbM0_1 (litTbl 1)) := fun h' => absurd ((hcond0_0 c t).mp h') (by omega)
theorem hcB1 (c : Dev nD) (t : Fin cfgL.N) (h : (t.val % 6 = 1 ∨ t.val % 6 = 5)) : cond0_1 (word (F := 𝔽) c (grid0.coords t) tbM0_2 (litTbl 2)) := (hcond0_1 c t).mpr (by omega)
theorem hcB2 (c : Dev nD) (t : Fin cfgL.N) (h : (t.val % 6 = 1 ∨ t.val % 6 = 5)) : ¬cond0_2 (word (F := 𝔽) c (grid0.coords t) tbM0_2 (litTbl 2)) := fun h' => absurd ((hcond0_2 c t).mp h') (by omega)
theorem hcB3 (c : Dev nD) (t : Fin cfgL.N) (h : (t.val % 6 = 1 ∨ t.val % 6 = 5)) : cond0_3 (word (F := 𝔽) c (grid0.coords t) tbM0_3 (litTbl 3)) := (hcond0_3 c t).mpr h
theorem hcC0 (c : Dev nD) (t : Fin cfgL.N) (h : t.val % 6 = 2) : cond0_0 (word (F := 𝔽) c (grid0.coords t) tbM0_1 (litTbl 1)) := (hcond0_0 c t).mpr (Or.inr h)
theorem hcC1 (c : Dev nD) (t : Fin cfgL.N) (h : t.val % 6 = 2) : ¬cond0_1 (word (F := 𝔽) c (grid0.coords t) tbM0_2 (litTbl 2)) := fun h' => absurd ((hcond0_1 c t).mp h') (by omega)
theorem hcC2 (c : Dev nD) (t : Fin cfgL.N) (h : t.val % 6 = 2) : cond0_2 (word (F := 𝔽) c (grid0.coords t) tbM0_2 (litTbl 2)) := (hcond0_2 c t).mpr (Or.inl h)
theorem hcC3 (c : Dev nD) (t : Fin cfgL.N) (h : t.val % 6 = 2) : ¬cond0_3 (word (F := 𝔽) c (grid0.coords t) tbM0_3 (litTbl 3)) := fun h' => absurd ((hcond0_3 c t).mp h') (by omega)
theorem hcD0 (c : Dev nD) (t : Fin cfgL.N) (h : t.val % 6 = 3) : ¬cond0_0 (word (F := 𝔽) c (grid0.coords t) tbM0_1 (litTbl 1)) := fun h' => absurd ((hcond0_0 c t).mp h') (by omega)
theorem hcD1 (c : Dev nD) (t : Fin cfgL.N) (h : t.val % 6 = 3) : ¬cond0_1 (word (F := 𝔽) c (grid0.coords t) tbM0_2 (litTbl 2)) := fun h' => absurd ((hcond0_1 c t).mp h') (by omega)
theorem hcD2 (c : Dev nD) (t : Fin cfgL.N) (h : t.val % 6 = 3) : cond0_2 (word (F := 𝔽) c (grid0.coords t) tbM0_2 (litTbl 2)) := (hcond0_2 c t).mpr (Or.inr h)
theorem hcD3 (c : Dev nD) (t : Fin cfgL.N) (h : t.val % 6 = 3) : ¬cond0_3 (word (F := 𝔽) c (grid0.coords t) tbM0_3 (litTbl 3)) := fun h' => absurd ((hcond0_3 c t).mp h') (by omega)
theorem hcE0 (c : Dev nD) (t : Fin cfgL.N) (h : t.val % 6 = 4) : ¬cond0_0 (word (F := 𝔽) c (grid0.coords t) tbM0_1 (litTbl 1)) := fun h' => absurd ((hcond0_0 c t).mp h') (by omega)
theorem hcE1 (c : Dev nD) (t : Fin cfgL.N) (h : t.val % 6 = 4) : cond0_1 (word (F := 𝔽) c (grid0.coords t) tbM0_2 (litTbl 2)) := (hcond0_1 c t).mpr (by omega)
theorem hcE2 (c : Dev nD) (t : Fin cfgL.N) (h : t.val % 6 = 4) : ¬cond0_2 (word (F := 𝔽) c (grid0.coords t) tbM0_2 (litTbl 2)) := fun h' => absurd ((hcond0_2 c t).mp h') (by omega)
theorem hcE3 (c : Dev nD) (t : Fin cfgL.N) (h : t.val % 6 = 4) : ¬cond0_3 (word (F := 𝔽) c (grid0.coords t) tbM0_3 (litTbl 3)) := fun h' => absurd ((hcond0_3 c t).mp h') (by omega)

/-! ## What each case leaves: the run's pieces read back -/

/-- The body's run at a point of case A. -/
abbrev runA (c : Dev nD) (t : Fin cfgL.N) (h : t.val % 6 = 0) := kernelRun0_A (F := 𝔽) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (litTbl 0) (litTbl 1) (litTbl 2) (litTbl 3) (hcA0 c t h) (hcA1 c t h) (hcA2 c t h) (hcA3 c t h)

/-- Its stores into each accumulator cover it. -/
theorem scover0_A_0 (c : Dev nD) (t : Fin cfgL.N) (h : t.val % 6 = 0) (y : S1024x64.Idx) :
    ∃ pc ∈ (runA m c t h).1, y ∈ pc.1.set :=
  View.cover_of_tiledL (runA m c t h).1 S1024x64.size (by sl_kernel_rfl) y
theorem scover0_A_1 (c : Dev nD) (t : Fin cfgL.N) (h : t.val % 6 = 0) (y : S1024x1.Idx) :
    ∃ pc ∈ (runA m c t h).2.1, y ∈ pc.1.set :=
  View.cover_of_tiledL (runA m c t h).2.1 S1024x1.size (by sl_kernel_rfl) y
/-- What case A leaves in the numerator accumulator and in the normalizer accumulator. -/
def sout0_A_0 (c : Dev nD) (t : Fin cfgL.N) (h : t.val % 6 = 0) : Vec 𝔽 S1024x64 .f32 :=
  VS0_0.read (Elt 𝔽) (VS0_0.writes (Elt 𝔽) VS0_0.junk (runA m c t h).1)
def sout0_A_1 (c : Dev nD) (t : Fin cfgL.N) (h : t.val % 6 = 0) : Vec 𝔽 S1024x1 .f32 :=
  VS0_1.read (Elt 𝔽) (VS0_1.writes (Elt 𝔽) VS0_1.junk (runA m c t h).2.1)

/-- The body's run at a point of case B. -/
abbrev runB (c : Dev nD) (t : Fin cfgL.N) (h : (t.val % 6 = 1 ∨ t.val % 6 = 5)) (xs0 : Vec 𝔽 S1024x64 .f32) (xs1 : Vec 𝔽 S1024x1 .f32) := kernelRun0_B (F := 𝔽) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) xs0 xs1 (litTbl 0) (litTbl 1) (litTbl 2) (litTbl 3) (hcB0 c t h) (hcB1 c t h) (hcB2 c t h) (hcB3 c t h)

/-- Its stores into each accumulator cover it. -/
theorem scover0_B_0 (c : Dev nD) (t : Fin cfgL.N) (h : (t.val % 6 = 1 ∨ t.val % 6 = 5)) (xs0 : Vec 𝔽 S1024x64 .f32) (xs1 : Vec 𝔽 S1024x1 .f32) (y : S1024x64.Idx) :
    ∃ pc ∈ (runB m c t h xs0 xs1).2.1, y ∈ pc.1.set :=
  View.cover_of_tiledL (runB m c t h xs0 xs1).2.1 S1024x64.size (by sl_kernel_rfl) y
theorem scover0_B_1 (c : Dev nD) (t : Fin cfgL.N) (h : (t.val % 6 = 1 ∨ t.val % 6 = 5)) (xs0 : Vec 𝔽 S1024x64 .f32) (xs1 : Vec 𝔽 S1024x1 .f32) (y : S1024x1.Idx) :
    ∃ pc ∈ (runB m c t h xs0 xs1).2.2.1, y ∈ pc.1.set :=
  View.cover_of_tiledL (runB m c t h xs0 xs1).2.2.1 S1024x1.size (by sl_kernel_rfl) y
/-- What case B leaves in the numerator accumulator and in the normalizer accumulator. -/
def sout0_B_0 (c : Dev nD) (t : Fin cfgL.N) (h : (t.val % 6 = 1 ∨ t.val % 6 = 5)) (xs0 : Vec 𝔽 S1024x64 .f32) (xs1 : Vec 𝔽 S1024x1 .f32) : Vec 𝔽 S1024x64 .f32 :=
  VS0_0.read (Elt 𝔽) (VS0_0.writes (Elt 𝔽) VS0_0.junk (runB m c t h xs0 xs1).2.1)
def sout0_B_1 (c : Dev nD) (t : Fin cfgL.N) (h : (t.val % 6 = 1 ∨ t.val % 6 = 5)) (xs0 : Vec 𝔽 S1024x64 .f32) (xs1 : Vec 𝔽 S1024x1 .f32) : Vec 𝔽 S1024x1 .f32 :=
  VS0_1.read (Elt 𝔽) (VS0_1.writes (Elt 𝔽) VS0_1.junk (runB m c t h xs0 xs1).2.2.1)
/-- Its store into the output block covers it, and what it leaves there. -/
theorem cover0_B_3 (c : Dev nD) (t : Fin cfgL.N) (h : (t.val % 6 = 1 ∨ t.val % 6 = 5)) (xs0 : Vec 𝔽 S1024x64 .f32) (xs1 : Vec 𝔽 S1024x1 .f32) (y : S1x1024x64.Idx) :
    ∃ pc ∈ (runB m c t h xs0 xs1).1, y ∈ pc.1.set :=
  View.cover_of_tiledL (runB m c t h xs0 xs1).1 S1x1024x64.size (by sl_kernel_rfl) y
def out0_B_3 (c : Dev nD) (t : Fin cfgL.N) (h : (t.val % 6 = 1 ∨ t.val % 6 = 5)) (xs0 : Vec 𝔽 S1024x64 .f32) (xs1 : Vec 𝔽 S1024x1 .f32) : Vec 𝔽 S1x1024x64 .bf16 :=
  VO0_3.read (Elt 𝔽) (VO0_3.writes (Elt 𝔽) VO0_3.junk (runB m c t h xs0 xs1).1)

/-- The body's run at a point of case C. -/
abbrev runC (c : Dev nD) (t : Fin cfgL.N) (h : t.val % 6 = 2) := kernelRun0_C (F := 𝔽) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (litTbl 0) (litTbl 1) (litTbl 2) (litTbl 3) (hcC0 c t h) (hcC1 c t h) (hcC2 c t h) (hcC3 c t h)

/-- Its stores into each accumulator cover it. -/
theorem scover0_C_0 (c : Dev nD) (t : Fin cfgL.N) (h : t.val % 6 = 2) (y : S1024x64.Idx) :
    ∃ pc ∈ (runC m c t h).1, y ∈ pc.1.set :=
  View.cover_of_tiledL (runC m c t h).1 S1024x64.size (by sl_kernel_rfl) y
theorem scover0_C_1 (c : Dev nD) (t : Fin cfgL.N) (h : t.val % 6 = 2) (y : S1024x1.Idx) :
    ∃ pc ∈ (runC m c t h).2.1, y ∈ pc.1.set :=
  View.cover_of_tiledL (runC m c t h).2.1 S1024x1.size (by sl_kernel_rfl) y
/-- What case C leaves in the numerator accumulator and in the normalizer accumulator. -/
def sout0_C_0 (c : Dev nD) (t : Fin cfgL.N) (h : t.val % 6 = 2) : Vec 𝔽 S1024x64 .f32 :=
  VS0_0.read (Elt 𝔽) (VS0_0.writes (Elt 𝔽) VS0_0.junk (runC m c t h).1)
def sout0_C_1 (c : Dev nD) (t : Fin cfgL.N) (h : t.val % 6 = 2) : Vec 𝔽 S1024x1 .f32 :=
  VS0_1.read (Elt 𝔽) (VS0_1.writes (Elt 𝔽) VS0_1.junk (runC m c t h).2.1)

/-- The body's run at a point of case D. -/
abbrev runD (c : Dev nD) (t : Fin cfgL.N) (h : t.val % 6 = 3) (xs0 : Vec 𝔽 S1024x64 .f32) (xs1 : Vec 𝔽 S1024x1 .f32) := kernelRun0_D (F := 𝔽) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) xs0 xs1 (litTbl 0) (litTbl 1) (litTbl 2) (litTbl 3) (hcD0 c t h) (hcD1 c t h) (hcD2 c t h) (hcD3 c t h)

/-- Its stores into each accumulator cover it. -/
theorem scover0_D_0 (c : Dev nD) (t : Fin cfgL.N) (h : t.val % 6 = 3) (xs0 : Vec 𝔽 S1024x64 .f32) (xs1 : Vec 𝔽 S1024x1 .f32) (y : S1024x64.Idx) :
    ∃ pc ∈ (runD m c t h xs0 xs1).1, y ∈ pc.1.set :=
  View.cover_of_tiledL (runD m c t h xs0 xs1).1 S1024x64.size (by sl_kernel_rfl) y
theorem scover0_D_1 (c : Dev nD) (t : Fin cfgL.N) (h : t.val % 6 = 3) (xs0 : Vec 𝔽 S1024x64 .f32) (xs1 : Vec 𝔽 S1024x1 .f32) (y : S1024x1.Idx) :
    ∃ pc ∈ (runD m c t h xs0 xs1).2.1, y ∈ pc.1.set :=
  View.cover_of_tiledL (runD m c t h xs0 xs1).2.1 S1024x1.size (by sl_kernel_rfl) y
/-- What case D leaves in the numerator accumulator and in the normalizer accumulator. -/
def sout0_D_0 (c : Dev nD) (t : Fin cfgL.N) (h : t.val % 6 = 3) (xs0 : Vec 𝔽 S1024x64 .f32) (xs1 : Vec 𝔽 S1024x1 .f32) : Vec 𝔽 S1024x64 .f32 :=
  VS0_0.read (Elt 𝔽) (VS0_0.writes (Elt 𝔽) VS0_0.junk (runD m c t h xs0 xs1).1)
def sout0_D_1 (c : Dev nD) (t : Fin cfgL.N) (h : t.val % 6 = 3) (xs0 : Vec 𝔽 S1024x64 .f32) (xs1 : Vec 𝔽 S1024x1 .f32) : Vec 𝔽 S1024x1 .f32 :=
  VS0_1.read (Elt 𝔽) (VS0_1.writes (Elt 𝔽) VS0_1.junk (runD m c t h xs0 xs1).2.1)

/-- The body's run at a point of case E. -/
abbrev runE (c : Dev nD) (t : Fin cfgL.N) (h : t.val % 6 = 4) (xs0 : Vec 𝔽 S1024x64 .f32) (xs1 : Vec 𝔽 S1024x1 .f32) := kernelRun0_E (F := 𝔽) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) xs0 xs1 (litTbl 0) (litTbl 1) (litTbl 2) (litTbl 3) (hcE0 c t h) (hcE1 c t h) (hcE2 c t h) (hcE3 c t h)

/-- Its stores into each accumulator cover it. -/
theorem scover0_E_0 (c : Dev nD) (t : Fin cfgL.N) (h : t.val % 6 = 4) (xs0 : Vec 𝔽 S1024x64 .f32) (xs1 : Vec 𝔽 S1024x1 .f32) (y : S1024x64.Idx) :
    ∃ pc ∈ (runE m c t h xs0 xs1).1, y ∈ pc.1.set :=
  View.cover_of_tiledL (runE m c t h xs0 xs1).1 S1024x64.size (by sl_kernel_rfl) y
theorem scover0_E_1 (c : Dev nD) (t : Fin cfgL.N) (h : t.val % 6 = 4) (xs0 : Vec 𝔽 S1024x64 .f32) (xs1 : Vec 𝔽 S1024x1 .f32) (y : S1024x1.Idx) :
    ∃ pc ∈ (runE m c t h xs0 xs1).2.1, y ∈ pc.1.set :=
  View.cover_of_tiledL (runE m c t h xs0 xs1).2.1 S1024x1.size (by sl_kernel_rfl) y
/-- What case E leaves in the numerator accumulator and in the normalizer accumulator. -/
def sout0_E_0 (c : Dev nD) (t : Fin cfgL.N) (h : t.val % 6 = 4) (xs0 : Vec 𝔽 S1024x64 .f32) (xs1 : Vec 𝔽 S1024x1 .f32) : Vec 𝔽 S1024x64 .f32 :=
  VS0_0.read (Elt 𝔽) (VS0_0.writes (Elt 𝔽) VS0_0.junk (runE m c t h xs0 xs1).1)
def sout0_E_1 (c : Dev nD) (t : Fin cfgL.N) (h : t.val % 6 = 4) (xs0 : Vec 𝔽 S1024x64 .f32) (xs1 : Vec 𝔽 S1024x1 .f32) : Vec 𝔽 S1024x1 .f32 :=
  VS0_1.read (Elt 𝔽) (VS0_1.writes (Elt 𝔽) VS0_1.junk (runE m c t h xs0 xs1).2.1)

/-! ## What the buffers hold after each point -/

/-- After point `n`: the output block (meaningful where the quotient was stored; a placeholder elsewhere, where the
    window is idle and not written back), the numerator accumulator, the normalizer accumulator. A reset case
    starts afresh; the others continue from what the point before left. -/
def outsAt0 (c : Dev nD) : (n : ℕ) → n < cfgL.N → Vec 𝔽 S1x1024x64 .bf16 × Vec 𝔽 S1024x64 .f32 × Vec 𝔽 S1024x1 .f32
  | 0, hn => (VO0_3.junk, sout0_A_0 m c ⟨0, hn⟩ (Nat.zero_mod _), sout0_A_1 m c ⟨0, hn⟩ (Nat.zero_mod _))
  | n + 1, hn =>
    if hA : (n + 1) % 6 = 0 then (VO0_3.junk, sout0_A_0 m c ⟨n + 1, hn⟩ hA, sout0_A_1 m c ⟨n + 1, hn⟩ hA)
    else if hC : (n + 1) % 6 = 2 then (VO0_3.junk, sout0_C_0 m c ⟨n + 1, hn⟩ hC, sout0_C_1 m c ⟨n + 1, hn⟩ hC)
    else if hB : ((n + 1) % 6 = 1 ∨ (n + 1) % 6 = 5) then
      (out0_B_3 m c ⟨n + 1, hn⟩ hB (outsAt0 c n (Nat.lt_of_succ_lt hn)).2.1 (outsAt0 c n (Nat.lt_of_succ_lt hn)).2.2,
        sout0_B_0 m c ⟨n + 1, hn⟩ hB (outsAt0 c n (Nat.lt_of_succ_lt hn)).2.1 (outsAt0 c n (Nat.lt_of_succ_lt hn)).2.2,
        sout0_B_1 m c ⟨n + 1, hn⟩ hB (outsAt0 c n (Nat.lt_of_succ_lt hn)).2.1 (outsAt0 c n (Nat.lt_of_succ_lt hn)).2.2)
    else if hD : (n + 1) % 6 = 3 then
      (VO0_3.junk,
        sout0_D_0 m c ⟨n + 1, hn⟩ hD (outsAt0 c n (Nat.lt_of_succ_lt hn)).2.1 (outsAt0 c n (Nat.lt_of_succ_lt hn)).2.2,
        sout0_D_1 m c ⟨n + 1, hn⟩ hD (outsAt0 c n (Nat.lt_of_succ_lt hn)).2.1 (outsAt0 c n (Nat.lt_of_succ_lt hn)).2.2)
    else
      (VO0_3.junk,
        sout0_E_0 m c ⟨n + 1, hn⟩ (show (n + 1) % 6 = 4 by omega) (outsAt0 c n (Nat.lt_of_succ_lt hn)).2.1 (outsAt0 c n (Nat.lt_of_succ_lt hn)).2.2,
        sout0_E_1 m c ⟨n + 1, hn⟩ (show (n + 1) % 6 = 4 by omega) (outsAt0 c n (Nat.lt_of_succ_lt hn)).2.1 (outsAt0 c n (Nat.lt_of_succ_lt hn)).2.2)

/-- What the point before `t` left in the accumulators. -/
abbrev prev0 (c : Dev nD) (t : Fin cfgL.N) : Vec 𝔽 S1024x64 .f32 := (outsAt0 m c (t.val - 1) (Nat.lt_of_le_of_lt (Nat.sub_le _ _) t.isLt)).2.1
abbrev prev1 (c : Dev nD) (t : Fin cfgL.N) : Vec 𝔽 S1024x1 .f32 := (outsAt0 m c (t.val - 1) (Nat.lt_of_le_of_lt (Nat.sub_le _ _) t.isLt)).2.2

theorem outsAt0_A (c : Dev nD) (t : Fin cfgL.N) (h : t.val % 6 = 0) :
    outsAt0 m c t.val t.isLt = (VO0_3.junk, sout0_A_0 m c t h, sout0_A_1 m c t h) := by
  obtain ⟨n, hn⟩ := t
  cases n with
  | zero => rfl
  | succ n => exact (dif_pos h)
theorem outsAt0_C (c : Dev nD) (t : Fin cfgL.N) (h : t.val % 6 = 2) :
    outsAt0 m c t.val t.isLt = (VO0_3.junk, sout0_C_0 m c t h, sout0_C_1 m c t h) := by
  obtain ⟨n, hn⟩ := t
  cases n with
  | zero => exact absurd (show (0 : ℕ) % 6 = 2 from h) (by decide)
  | succ n => exact (dif_neg (by dsimp only at h; omega)).trans (dif_pos h)
theorem outsAt0_B (c : Dev nD) (t : Fin cfgL.N) (h : t.val % 6 = 1 ∨ t.val % 6 = 5) :
    outsAt0 m c t.val t.isLt = (out0_B_3 m c t h (prev0 m c t) (prev1 m c t), sout0_B_0 m c t h (prev0 m c t) (prev1 m c t), sout0_B_1 m c t h (prev0 m c t) (prev1 m c t)) := by
  obtain ⟨n, hn⟩ := t
  cases n with
  | zero => exact absurd (show ((0 : ℕ) % 6 = 1 ∨ (0 : ℕ) % 6 = 5) from h) (by decide)
  | succ n => exact (dif_neg (by dsimp only at h; omega)).trans ((dif_neg (by dsimp only at h; omega)).trans (dif_pos h))
theorem outsAt0_D (c : Dev nD) (t : Fin cfgL.N) (h : t.val % 6 = 3) :
    outsAt0 m c t.val t.isLt = (VO0_3.junk, sout0_D_0 m c t h (prev0 m c t) (prev1 m c t), sout0_D_1 m c t h (prev0 m c t) (prev1 m c t)) := by
  obtain ⟨n, hn⟩ := t
  cases n with
  | zero => exact absurd (show (0 : ℕ) % 6 = 3 from h) (by decide)
  | succ n => exact (dif_neg (by dsimp only at h; omega)).trans ((dif_neg (by dsimp only at h; omega)).trans ((dif_neg (by dsimp only at h; omega)).trans (dif_pos h)))
theorem outsAt0_E (c : Dev nD) (t : Fin cfgL.N) (h : t.val % 6 = 4) :
    outsAt0 m c t.val t.isLt = (VO0_3.junk, sout0_E_0 m c t h (prev0 m c t) (prev1 m c t), sout0_E_1 m c t h (prev0 m c t) (prev1 m c t)) := by
  obtain ⟨n, hn⟩ := t
  cases n with
  | zero => exact absurd (show (0 : ℕ) % 6 = 4 from h) (by decide)
  | succ n => exact (dif_neg (by dsimp only at h; omega)).trans ((dif_neg (by dsimp only at h; omega)).trans ((dif_neg (by dsimp only at h; omega)).trans (dif_neg (by dsimp only at h; omega))))

/-! ## The region's invariant -/

/-- Before position `n`: at the start the accumulators hold anything; afterwards what the point before left. The
    generator register at some state and the tables' halves throughout. -/
def PhiS (c : Dev nD) : (n : ℕ) → n ≤ cfgL.N → sProp 𝕄
  | 0, _ => iprop(Pipeline.ΦA spec0 c ∗ Pipeline.ΦT pre0 (admL).1 c)
  | n + 1, hn => iprop(iprop(iprop(owns (c : Thread nD τ) scM0_0 fullShare ((outsAt0 m c n hn).2.1) ∗ owns (c : Thread nD τ) scM0_1 fullShare ((outsAt0 m c n hn).2.2)) ∗ (∃ r, prngReg c r)) ∗ Pipeline.ΦT pre0 (admL).1 c)

theorem PhiS_zero (c : Dev nD) (n : ℕ) (h : n ≤ cfgL.N) (hz : n = 0) : PhiS m c n h = iprop(Pipeline.ΦA spec0 c ∗ Pipeline.ΦT pre0 (admL).1 c) := by
  subst hz; rfl
theorem PhiS_succ (c : Dev nD) (n : ℕ) (hn : n < cfgL.N) :
    PhiS m c (n + 1) hn = iprop(iprop(iprop(owns (c : Thread nD τ) scM0_0 fullShare ((outsAt0 m c n hn).2.1) ∗ owns (c : Thread nD τ) scM0_1 fullShare ((outsAt0 m c n hn).2.2)) ∗ (∃ r, prngReg c r)) ∗ Pipeline.ΦT pre0 (admL).1 c) := rfl
theorem PhiS_pos (c : Dev nD) (n : ℕ) (h : n ≤ cfgL.N) (hz : n ≠ 0) :
    PhiS m c n h = iprop(iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) ∗ Pipeline.ΦT pre0 (admL).1 c) := by
  cases n with
  | zero => exact absurd rfl hz
  | succ n => rfl

/-! ## The proof data -/

def dats (_ : Fin 1) (c : Dev nD) : Dat τ (Elt 𝔽) Unit ℕ (UR sig nD τ) ℕ cfgL c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfgL.W) : (dats m 0 c).A w = V m c (Pipeline.arrRef spec0 w) := by
  dsimp only [dats]
theorem PhiS_castSucc (c : Dev nD) (t : Fin cfgL.N) :
    (dats m 0 c).Φ t.castSucc = PhiS m c t.val (Nat.le_of_lt t.isLt) := by
  dsimp only [dats]; simp only [Fin.coe_castSucc]
theorem after0_0 (c : Dev nD) (t : Fin cfgL.N) : (dats m 0 c).after 0 t = iblk m c 0 t := by dsimp only [dats]
theorem after0_1 (c : Dev nD) (t : Fin cfgL.N) : (dats m 0 c).after 1 t = iblk m c 1 t := by dsimp only [dats]
theorem after0_2 (c : Dev nD) (t : Fin cfgL.N) : (dats m 0 c).after 2 t = iblk m c 2 t := by dsimp only [dats]
theorem after0_3 (c : Dev nD) (t : Fin cfgL.N) : (dats m 0 c).after 3 t = (outsAt0 m c t.val t.isLt).1 := by dsimp only [dats]
theorem before0_0 (c : Dev nD) (t : Fin cfgL.N) (d) : (dats m 0 c).before 0 t d = iblk m c 0 t :=
  before0_0_of m (dats m 0 c) (A_eq m c 0) (after0_0 m c) t d
theorem before0_1 (c : Dev nD) (t : Fin cfgL.N) (d) : (dats m 0 c).before 1 t d = iblk m c 1 t :=
  before0_1_of m (dats m 0 c) (A_eq m c 1) (after0_1 m c) t d
theorem before0_2 (c : Dev nD) (t : Fin cfgL.N) (d) : (dats m 0 c).before 2 t d = iblk m c 2 t :=
  before0_2_of m (dats m 0 c) (A_eq m c 2) (after0_2 m c) t d

end Cert.Kernel.Fr

end
-- ==== Proof.K.Body.lean ====
/-
  The body's obligation at every grid point and the run of the whole program: at each point the case's run applies —
  the inputs' staging buffers hold their blocks, the invariant hands over the accumulators (at anything before a
  reset, at what the point before left otherwise) and takes them back at this point's contents —, and the program
  around the region ends with every argument array as it was.
-/
import proofs.«420449_j45973329936664_3_alg».proof.Proof.K.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Bits

local notation "𝕄" => MT nD τ sig Unit (Elt 𝔽) ℕ (UR sig nD τ) ℕ

variable (m : (ℓ : Loc nD τ sig) → Buf (Elt 𝔽) ℓ) (ρ : Dev nD → PrngReg)

theorem admL_1 : (admL).1 = litTbl (F := 𝔽) := rfl

/-- What the body is called with at point `t`, -/
def bodyPre (c : Dev nD) (t : Fin cfgL.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfgL.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfgL.N) :
    bodyPre m c t ⊢ wp frame (wpE (defs₀ (F := 𝔽)) Variants.none c none) Set.univ (bodyAt0 admL t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hN : t.val < 192 := lt_of_lt_of_eq t.isLt N_L
  by_cases hA : t.val % 6 = 0
  ·
    rw [Dat.leavesExact_idle (dats m 0 c) 3 t (idleAt0_3 t (by omega)) (noFlush0_3 t (by omega))]
    rw [outsAt0_A m c t hA]
    unfold sout0_A_0 sout0_A_1; (try dsimp only)
    by_cases hz : t.val = 0
    ·
      rw [PhiS_castSucc m c t, PhiS_zero m c _ _ hz, PhiA0_eq, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runA m c t hA).2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      isplitl [HT3]; · iexact HT3
      iintro ⟨H0, H1, H2, H3, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_A_0 m c t hA)
            · unfold owns; iexists _; isplitr
              swap; · iexact HS1
              ipureintro; exact View.read_writes_of_cover _ _ _ _ _ (scover0_A_1 m c t hA)
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      iexists _; iexact H3
    ·
      rw [PhiS_castSucc m c t, PhiS_pos m c _ _ hz, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runA m c t hA).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HT0]; · iexact HT0
      isplitl [HT1]; · iexact HT1
      isplitl [HT2]; · iexact HT2
      isplitl [HT3]; · iexact HT3
      iintro ⟨H0, H1, H2, H3, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_A_0 m c t hA)
            · unfold owns; iexists _; isplitr
              swap; · iexact HS1
              ipureintro; exact View.read_writes_of_cover _ _ _ _ _ (scover0_A_1 m c t hA)
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      iexists _; iexact H3

  by_cases hC : t.val % 6 = 2
  ·
    rw [Dat.leavesExact_idle (dats m 0 c) 3 t (idleAt0_3 t (by omega)) (noFlush0_3 t (by omega))]
    rw [outsAt0_C m c t hC]
    unfold sout0_C_0 sout0_C_1; (try dsimp only)
    by_cases hz : t.val = 0
    · exfalso; omega
    ·
      rw [PhiS_castSucc m c t, PhiS_pos m c _ _ hz, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runC m c t hC).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HT0]; · iexact HT0
      isplitl [HT1]; · iexact HT1
      isplitl [HT2]; · iexact HT2
      isplitl [HT3]; · iexact HT3
      iintro ⟨H0, H1, H2, H3, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_C_0 m c t hC)
            · unfold owns; iexists _; isplitr
              swap; · iexact HS1
              ipureintro; exact View.read_writes_of_cover _ _ _ _ _ (scover0_C_1 m c t hC)
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      iexists _; iexact H3

  by_cases hB : (t.val % 6 = 1 ∨ t.val % 6 = 5)
  ·
    rw [show (dats m 0 c).leavesExact 3 t = owns (c : Thread nD τ) (ms0_3 t) fullShare ((dats m 0 c).after 3 t) from by
        unfold Dat.leavesExact; rw [liveAt0_3 t hB], after0_3]
    rw [outsAt0_B m c t hB]
    unfold out0_B_3 sout0_B_0 sout0_B_1; (try dsimp only)
    by_cases hz : t.val = 0
    · exfalso; omega
    ·
      rw [PhiS_castSucc m c t, PhiS_pos m c _ _ hz, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runB m c t hB (prev0 m c t) (prev1 m c t)).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      isplitl [HT1]; · iexact HT1
      isplitl [HT2]; · iexact HT2
      isplitl [HT3]; · iexact HT3
      iintro ⟨H0, H1, H2, ⟨%e3, H3⟩, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_B_0 m c t hB (prev0 m c t) (prev1 m c t))
            · unfold owns; iexists _; isplitr
              swap; · iexact HS1
              ipureintro; exact View.read_writes_of_cover _ _ _ _ _ (scover0_B_1 m c t hB (prev0 m c t) (prev1 m c t))
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 m c t hB (prev0 m c t) (prev1 m c t))

  by_cases hD : t.val % 6 = 3
  ·
    rw [Dat.leavesExact_idle (dats m 0 c) 3 t (idleAt0_3 t (by omega)) (noFlush0_3 t (by omega))]
    rw [outsAt0_D m c t hD]
    unfold sout0_D_0 sout0_D_1; (try dsimp only)
    by_cases hz : t.val = 0
    · exfalso; omega
    ·
      rw [PhiS_castSucc m c t, PhiS_pos m c _ _ hz, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runD m c t hD (prev0 m c t) (prev1 m c t)).2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      isplitl [HT3]; · iexact HT3
      iintro ⟨H0, H1, H2, H3, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_D_0 m c t hD (prev0 m c t) (prev1 m c t))
            · unfold owns; iexists _; isplitr
              swap; · iexact HS1
              ipureintro; exact View.read_writes_of_cover _ _ _ _ _ (scover0_D_1 m c t hD (prev0 m c t) (prev1 m c t))
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      iexists _; iexact H3

  by_cases hE : t.val % 6 = 4
  swap
  · exfalso; omega
  ·
    rw [Dat.leavesExact_idle (dats m 0 c) 3 t (idleAt0_3 t (by omega)) (noFlush0_3 t (by omega))]
    rw [outsAt0_E m c t hE]
    unfold sout0_E_0 sout0_E_1; (try dsimp only)
    by_cases hz : t.val = 0
    · exfalso; omega
    ·
      rw [PhiS_castSucc m c t, PhiS_pos m c _ _ hz, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runE m c t hE (prev0 m c t) (prev1 m c t)).2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      isplitl [HT3]; · iexact HT3
      iintro ⟨H0, H1, H2, H3, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_E_0 m c t hE (prev0 m c t) (prev1 m c t))
            · unfold owns; iexists _; isplitr
              swap; · iexact HS1
              ipureintro; exact View.read_writes_of_cover _ _ _ _ _ (scover0_E_1 m c t hE (prev0 m c t) (prev1 m c t))
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats m 0 c) (defs₀ (F := 𝔽)) Variants.none () Set.univ := fun t => by
  rw [bigSep_W0, bigSep_W0]
  exact sound_body m c t

/-- What the launch hands the region is the invariant before the first point. -/
theorem hin (c : Dev nD) : iprop(Pipeline.ΦA spec0 c ∗ Pipeline.ΦT pre0 (admL).1 c) ⊢ (dats m 0 c).Φ 0 := by
  rw [show (dats m 0 c).Φ 0 = PhiS m c 0 (Nat.zero_le _) from rfl, PhiS_zero m c 0 _ rfl]
  try exact Idealize.SL.BI.Entails.refl _

/-- After the last point the accumulators' contents are forgotten and the tables' halves let go. -/
theorem hout (c : Dev nD) : (dats m 0 c).Φ (Fin.last cfgL.N) ⊢ Pipeline.ΦA spec0 c := by
  rw [show (dats m 0 c).Φ (Fin.last cfgL.N) = PhiS m c (Fin.last cfgL.N).val (Nat.le_of_lt_succ (Fin.last cfgL.N).isLt) from rfl,
    PhiS_pos m c _ _ (by rw [Fin.val_last]; have : cfgL.N = 192 := N_L; omega), PhiA0_eq]
  iintro ⟨⟨⟨HS0, HS1⟩, Hg⟩, -⟩
  isplitl [HS0 HS1]
  · isplitl [HS0]
    · iexists _; iexact HS0
    · iexists _; iexact HS1
  iexact Hg

/-! ## The run and the frame -/

set_option backward.isDefEq.respectTransparency.types false in
/-- Every weakly fair execution of the program ends, nothing faulting, with the result array of the region at what the
    write-backs leave in it, the final buffer at its reshape, and every other buffer as the host operations left it. -/
theorem run_main : θ_run defs (onTc (τ := τ) (main (F := 𝔽))) (s₀ m ρ)
    (Pipeline.FramePost (Pipeline.pin pcfgs fun _ => admL) (dats m) 0 (Pipeline.afterTail pcfgs (fun _ => admL) (dats m) 0 (V0 m) [hostOps1])) :=
  Pipeline.θ_run_frameP_around_track pcfgs (fun _ => admL) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_preL m) (hin := hin m) (hout := hout m)

end Cert.Kernel.Fr

end
-- ==== Proof.K.Claim.lean ====
/-
  The frame claim of the program: the run ends, nothing faulting, and the three argument arrays are unchanged — no
  window writes them, and the one host operation after the region writes only the final buffer.
-/
import proofs.«420449_j45973329936664_3_alg».proof.Proof.K.Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Bits

local notation "𝕄" => MT nD τ sig Unit (Elt 𝔽) ℕ (UR sig nD τ) ℕ

variable (m : (ℓ : Loc nD τ sig) → Buf (Elt 𝔽) ℓ) (ρ : Dev nD → PrngReg)

theorem tail_arg0 (c : Dev nD) : Pipeline.afterTail pcfgs (fun _ => admL) (dats m) 0 (V0 m) [hostOps1] c main_arg0 = m ((c : Thread nD τ).loc main_arg0) := by
  unfold Pipeline.afterTail
  show StableHlo.after hostOps1 _ (Proc.devRef .tc main_arg0) = _
  after_results
  rw [Pipeline.withArrays_of_ne spec0 c (V0 m c) _ main_arg0 (fun w => by fin_cases w <;> decide)]
  show StableHlo.after hostOps0 (fun b => m (c, b)) (Proc.devRef .tc main_arg0) = _
  after_results
  try rfl
theorem tail_arg1 (c : Dev nD) : Pipeline.afterTail pcfgs (fun _ => admL) (dats m) 0 (V0 m) [hostOps1] c main_arg1 = m ((c : Thread nD τ).loc main_arg1) := by
  unfold Pipeline.afterTail
  show StableHlo.after hostOps1 _ (Proc.devRef .tc main_arg1) = _
  after_results
  rw [Pipeline.withArrays_of_ne spec0 c (V0 m c) _ main_arg1 (fun w => by fin_cases w <;> decide)]
  show StableHlo.after hostOps0 (fun b => m (c, b)) (Proc.devRef .tc main_arg1) = _
  after_results
  try rfl
theorem tail_arg2 (c : Dev nD) : Pipeline.afterTail pcfgs (fun _ => admL) (dats m) 0 (V0 m) [hostOps1] c main_arg2 = m ((c : Thread nD τ).loc main_arg2) := by
  unfold Pipeline.afterTail
  show StableHlo.after hostOps1 _ (Proc.devRef .tc main_arg2) = _
  after_results
  rw [Pipeline.withArrays_of_ne spec0 c (V0 m c) _ main_arg2 (fun w => by fin_cases w <;> decide)]
  show StableHlo.after hostOps0 (fun b => m (c, b)) (Proc.devRef .tc main_arg2) = _
  after_results
  try rfl

/-- THE FRAME. -/
theorem frame : θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (tail_arg0 m c),
      ((h c).2 main_arg1 (by decide : main_arg1 ∈ Pipeline.restRefs sig spec0)).trans (tail_arg1 m c),
      ((h c).2 main_arg2 (by decide : main_arg2 ∈ Pipeline.restRefs sig spec0)).trans (tail_arg2 m c)⟩) (run_main m ρ)

end Cert.Kernel.Fr

end
-- ==== Proof.KI.Base.lean ====
/-
  What the frame of the attention kernel's program is stated over: the buffers' contents when the region is
  entered (after the four schedule tables are written and the three arguments reshaped to [32, 2048, 64]), the tables
  themselves (six entries each: the q-tile, the k-tile, whether the tile straddles the diagonal, whether it is the
  last k-tile of its q-row), the scratch accumulators as views,
  and the four conditions the body branches on, as functions of the table words it loads.
-/
import proofs.«420449_j45973329936664_3_alg».proof.Proof.Gen.KernelIdeal.Launch
import proofs.«420449_j45973329936664_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffers when the region is entered: after the seven host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the reshape after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The reshape after the region touches the result array and the final buffer only, no table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The tables -/

/-- The four tables' contents when the region is entered. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl

/-- Each table holds its six literal words. -/
theorem tbl_0 : tbl m 0 = fun i => lit0 (S6.rowMajor i) := by
  show V m 0 main_c = _
  dsimp only [V, V0]; simp only [hostOps0, List.flatten_cons, List.flatten_nil, List.append_nil]
  after_results; rfl
theorem tbl_1 : tbl m 1 = fun i => lit1 (S6.rowMajor i) := by
  show V m 0 main_c_0 = _
  dsimp only [V, V0]; simp only [hostOps0, List.flatten_cons, List.flatten_nil, List.append_nil]
  after_results; rfl
theorem tbl_2 : tbl m 2 = fun i => lit2 (S6.rowMajor i) := by
  show V m 0 main_c_1 = _
  dsimp only [V, V0]; simp only [hostOps0, List.flatten_cons, List.flatten_nil, List.append_nil]
  after_results; rfl
theorem tbl_3 : tbl m 3 = fun i => lit3 (S6.rowMajor i) := by
  show V m 0 main_c_2 = _
  dsimp only [V, V0]; simp only [hostOps0, List.flatten_cons, List.flatten_nil, List.append_nil]
  after_results; rfl

/-- The literal tables as one family. -/
def litTbl : pre0.Contents (Elt F) := fun j => match j with
  | ⟨0, _⟩ => fun i => lit0 (S6.rowMajor i)
  | ⟨1, _⟩ => fun i => lit1 (S6.rowMajor i)
  | ⟨2, _⟩ => fun i => lit2 (S6.rowMajor i)
  | ⟨3, _⟩ => fun i => lit3 (S6.rowMajor i)

theorem tbl_eq : tbl m = litTbl (F := F) := by
  funext j
  fin_cases j
  · exact tbl_0 m
  · exact tbl_1 m
  · exact tbl_2 m
  · exact tbl_3 m

/-- Each table as the body is handed it. -/
abbrev tbM0_0 : Memref sig .tc .smem S6 .i32 := Memref.whole main_c
abbrev htbM0_0 : tbM0_0.IsWhole := Memref.isWhole_whole _
abbrev tbM0_1 : Memref sig .tc .smem S6 .i32 := Memref.whole main_c_0
abbrev htbM0_1 : tbM0_1.IsWhole := Memref.isWhole_whole _
abbrev tbM0_2 : Memref sig .tc .smem S6 .i32 := Memref.whole main_c_1
abbrev htbM0_2 : tbM0_2.IsWhole := Memref.isWhole_whole _
abbrev tbM0_3 : Memref sig .tc .smem S6 .i32 := Memref.whole main_c_2
abbrev htbM0_3 : tbM0_3.IsWhole := Memref.isWhole_whole _

/-- A table's buffer on core `c`, and the half of it the region lends the body. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (pf : pre0.Contents (Elt F)) (c : Dev nD) : (Pipeline.ΦT pre0 pf c : sProp 𝕄) = iprop(tbPt0 c tbM0_0 (pf 0) ∗ tbPt0 c tbM0_1 (pf 1) ∗ tbPt0 c tbM0_2 (pf 2) ∗ tbPt0 c tbM0_3 (pf 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The memrefs the body is called with -/

abbrev VO0_3 : View sig .tc .vmem S1x1024x64 .bf16 := (Memref.whole cc0_stg3_0 : Memref sig .tc .vmem S1x1024x64 .bf16).view
/-- The two accumulators: the [1024, 64] numerator and the [1024, 1] normalizer, carried from point to point. -/
abbrev scM0_0 : Memref sig .tc .vmem S1024x64 .f32 := Memref.whole cc0_scratch0
abbrev scM0_1 : Memref sig .tc .vmem S1024x1 .f32 := Memref.whole cc0_scratch1
abbrev VS0_0 : View sig .tc .vmem S1024x64 .f32 := scM0_0.view
abbrev VS0_1 : View sig .tc .vmem S1024x1 .f32 := scM0_1.view

/-- The body at point `t`, as the pipeline calls it. -/
abbrev bodyAt0 (a : (pcfg0 (F := F)).Adm) (t : Fin (cfg0 a).N) : Prog (TpuEff nD τ sig (Elt F) Λ₀ .tc) PUnit :=
  cc0__attn_kernel (grid0.coords t) (Memref.whole main_c) (Memref.isWhole_whole _) (Memref.whole main_c_0) (Memref.isWhole_whole _) (Memref.whole main_c_1) (Memref.isWhole_whole _) (Memref.whole main_c_2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The body's four conditions, over the table words it loads -/

/-- The word the body loads from a table at point `i`: entry `i 1` of the table. -/
abbrev word (c : Dev nD) (i : grid0.Coords) (M : Memref sig .tc .smem S6 .i32) (xt : TbBuf0 (F := F) c M) : BitVec 32 :=
  M.view.readAt (Elt F) (Rect.unit (s := S6) (k0_off1 i) S1.size (k0_off1_inb i)).toLoadRect xt (Shape.Idx.first (numel1_S1.symm ▸ Nat.one_pos))

/-- The k-tile is the first of its q-row: the accumulators are reset. -/
abbrev cond0_0 (v3 : BitVec 32) : Prop := (Scalar.cmpi .ne (Scalar.extui (Scalar.cmpi .eq v3 0#32)) 0#32) = 1#1
/-- The tile straddles the diagonal: the causal mask is applied. -/
abbrev cond0_1 (v5 : BitVec 32) : Prop := (Scalar.cmpi .ne (Scalar.extui (Scalar.cmpi .ne v5 0#32)) 0#32) = 1#1
/-- The tile lies wholly below the diagonal: no mask. -/
abbrev cond0_2 (v5 : BitVec 32) : Prop := (Scalar.cmpi .ne (Scalar.extui (Scalar.cmpi .eq v5 0#32)) 0#32) = 1#1
/-- The k-tile is the last of its q-row: the quotient is stored. -/
abbrev cond0_3 (v7 : BitVec 32) : Prop := k0_cond4 v7 = 1#1

end Cert.KernelIdeal.Fr

end
-- ==== Proof.KI.RunA.lean ====
/-
  The body of the attention kernel run once in case A: which of its four conditional blocks execute is fixed by
  hypotheses on the table words it loads, and the run returns the pieces its stores leave.
-/
import proofs.«420449_j45973329936664_3_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point where the accumulators are reset, the tile is masked and the quotient is not stored:
    what its stores leave in the accumulators, as pieces the run finds. -/
noncomputable def kernelRun0_A (c : Dev nD) (i : grid0.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .bf16) (harg9 : arg9.IsWhole) (arg10 : Memref sig .tc .vmem S1024x64 .f32) (harg10 : arg10.IsWhole) (arg11 : Memref sig .tc .vmem S1024x1 .f32) (harg11 : arg11.IsWhole)
    (x0 : Vec F S1x1024x64 .bf16) (x1 : Vec F S1x512x64 .bf16) (x2 : Vec F S1x512x64 .bf16) (xt0 : TbBuf0 (F := F) c tbM0_0) (xt1 : TbBuf0 (F := F) c tbM0_1) (xt2 : TbBuf0 (F := F) c tbM0_2) (xt3 : TbBuf0 (F := F) c tbM0_3)
    (hc0 : cond0_0 (word c i tbM0_1 xt1)) (hc1 : cond0_1 (word c i tbM0_2 xt2)) (hc2 : ¬cond0_2 (word c i tbM0_2 xt2)) (hc3 : ¬cond0_3 (word c i tbM0_3 xt3)) :
    Σ' (LS0 : List (View.Piece (Elt F) S1024x64 .f32)), { LS1 : List (View.Piece (Elt F) S1024x1 .f32) //
      ∀ (xi3 : Vec F S1x1024x64 .bf16) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3 ∗ (∃ d, owns (c : Thread nD τ) arg10 fullShare d) ∗ (∃ d, owns (c : Thread nD τ) arg11 fullShare d)
            ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__attn_kernel i tbM0_0 htbM0_0 tbM0_1 htbM0_1 tbM0_2 htbM0_2 tbM0_3 htbM0_3 arg6 harg6 arg7 harg7 arg8 harg8 arg9 harg9 arg10 harg10 arg11 harg11) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, HT0, HT1, HT2, HT3, Hk⟩
    obtain rfl := harg6.eq_unread hf0; obtain rfl := harg7.eq_unread hf1; obtain rfl := harg8.eq_unread hf2; obtain rfl := harg9.eq_unread hf3
    sl_exec (disch := first | sl_exact hc0 | sl_exact hc1 | sl_exact hc2 | sl_exact hc3)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HT0]; · iexact HT0
    isplitl [HT1]; · iexact HT1
    isplitl [HT2]; · iexact HT2
    iexact HT3

end Cert.KernelIdeal.Fr

end
-- ==== Proof.KI.RunB.lean ====
/-
  The body of the attention kernel run once in case B: which of its four conditional blocks execute is fixed by
  hypotheses on the table words it loads, and the run returns the pieces its stores leave.
-/
import proofs.«420449_j45973329936664_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point where the accumulators are carried, the tile is masked and the quotient is stored:
    what its stores leave in the accumulators and in the output block, as pieces the run finds. -/
noncomputable def kernelRun0_B (c : Dev nD) (i : grid0.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .bf16) (harg9 : arg9.IsWhole) (arg10 : Memref sig .tc .vmem S1024x64 .f32) (harg10 : arg10.IsWhole) (arg11 : Memref sig .tc .vmem S1024x1 .f32) (harg11 : arg11.IsWhole)
    (x0 : Vec F S1x1024x64 .bf16) (x1 : Vec F S1x512x64 .bf16) (x2 : Vec F S1x512x64 .bf16) (xs0 : Vec F S1024x64 .f32) (xs1 : Vec F S1024x1 .f32) (xt0 : TbBuf0 (F := F) c tbM0_0) (xt1 : TbBuf0 (F := F) c tbM0_1) (xt2 : TbBuf0 (F := F) c tbM0_2) (xt3 : TbBuf0 (F := F) c tbM0_3)
    (hc0 : ¬cond0_0 (word c i tbM0_1 xt1)) (hc1 : cond0_1 (word c i tbM0_2 xt2)) (hc2 : ¬cond0_2 (word c i tbM0_2 xt2)) (hc3 : cond0_3 (word c i tbM0_3 xt3)) :
    Σ' (L3 : List (View.Piece (Elt F) S1x1024x64 .bf16)) (LS0 : List (View.Piece (Elt F) S1024x64 .f32)), { LS1 : List (View.Piece (Elt F) S1024x1 .f32) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ (∃ d, owns (c : Thread nD τ) arg9 fullShare d) ∗ owns (c : Thread nD τ) arg10 fullShare xs0 ∗ owns (c : Thread nD τ) arg11 fullShare xs1
            ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ (∃ f, arg9.view.loc (c : Thread nD τ) ↦[arg9.view.set]{fullShare} arg9.view.writes (Elt F) f L3)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__attn_kernel i tbM0_0 htbM0_0 tbM0_1 htbM0_1 tbM0_2 htbM0_2 tbM0_3 htbM0_3 arg6 harg6 arg7 harg7 arg8 harg8 arg9 harg9 arg10 harg10 arg11 harg11) K } := by
  refine ⟨?_, ?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT1, HT2, HT3, Hk⟩
    obtain rfl := harg6.eq_unread hf0; obtain rfl := harg7.eq_unread hf1; obtain rfl := harg8.eq_unread hf2; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]; · iexists _; iexact H3
    isplitl [HS0]; · iexists _; iexact HS0
    isplitl [HS1]; · iexists _; iexact HS1
    isplitl [HT0]; · iexact HT0
    isplitl [HT1]; · iexact HT1
    isplitl [HT2]; · iexact HT2
    iexact HT3

end Cert.KernelIdeal.Fr

end
-- ==== Proof.KI.RunC.lean ====
/-
  The body of the attention kernel run once in case C: which of its four conditional blocks execute is fixed by
  hypotheses on the table words it loads, and the run returns the pieces its stores leave.
-/
import proofs.«420449_j45973329936664_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point where the accumulators are reset, the tile is not masked and the quotient is not stored:
    what its stores leave in the accumulators, as pieces the run finds. -/
noncomputable def kernelRun0_C (c : Dev nD) (i : grid0.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .bf16) (harg9 : arg9.IsWhole) (arg10 : Memref sig .tc .vmem S1024x64 .f32) (harg10 : arg10.IsWhole) (arg11 : Memref sig .tc .vmem S1024x1 .f32) (harg11 : arg11.IsWhole)
    (x0 : Vec F S1x1024x64 .bf16) (x1 : Vec F S1x512x64 .bf16) (x2 : Vec F S1x512x64 .bf16) (xt0 : TbBuf0 (F := F) c tbM0_0) (xt1 : TbBuf0 (F := F) c tbM0_1) (xt2 : TbBuf0 (F := F) c tbM0_2) (xt3 : TbBuf0 (F := F) c tbM0_3)
    (hc0 : cond0_0 (word c i tbM0_1 xt1)) (hc1 : ¬cond0_1 (word c i tbM0_2 xt2)) (hc2 : cond0_2 (word c i tbM0_2 xt2)) (hc3 : ¬cond0_3 (word c i tbM0_3 xt3)) :
    Σ' (LS0 : List (View.Piece (Elt F) S1024x64 .f32)), { LS1 : List (View.Piece (Elt F) S1024x1 .f32) //
      ∀ (xi3 : Vec F S1x1024x64 .bf16) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3 ∗ (∃ d, owns (c : Thread nD τ) arg10 fullShare d) ∗ (∃ d, owns (c : Thread nD τ) arg11 fullShare d)
            ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__attn_kernel i tbM0_0 htbM0_0 tbM0_1 htbM0_1 tbM0_2 htbM0_2 tbM0_3 htbM0_3 arg6 harg6 arg7 harg7 arg8 harg8 arg9 harg9 arg10 harg10 arg11 harg11) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, HT0, HT1, HT2, HT3, Hk⟩
    obtain rfl := harg6.eq_unread hf0; obtain rfl := harg7.eq_unread hf1; obtain rfl := harg8.eq_unread hf2; obtain rfl := harg9.eq_unread hf3
    sl_exec (disch := first | sl_exact hc0 | sl_exact hc1 | sl_exact hc2 | sl_exact hc3)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HT0]; · iexact HT0
    isplitl [HT1]; · iexact HT1
    isplitl [HT2]; · iexact HT2
    iexact HT3

end Cert.KernelIdeal.Fr

end
-- ==== Proof.KI.RunD.lean ====
/-
  The body of the attention kernel run once in case D: which of its four conditional blocks execute is fixed by
  hypotheses on the table words it loads, and the run returns the pieces its stores leave.
-/
import proofs.«420449_j45973329936664_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point where the accumulators are carried, the tile is not masked and the quotient is not stored:
    what its stores leave in the accumulators, as pieces the run finds. -/
noncomputable def kernelRun0_D (c : Dev nD) (i : grid0.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .bf16) (harg9 : arg9.IsWhole) (arg10 : Memref sig .tc .vmem S1024x64 .f32) (harg10 : arg10.IsWhole) (arg11 : Memref sig .tc .vmem S1024x1 .f32) (harg11 : arg11.IsWhole)
    (x0 : Vec F S1x1024x64 .bf16) (x1 : Vec F S1x512x64 .bf16) (x2 : Vec F S1x512x64 .bf16) (xs0 : Vec F S1024x64 .f32) (xs1 : Vec F S1024x1 .f32) (xt0 : TbBuf0 (F := F) c tbM0_0) (xt1 : TbBuf0 (F := F) c tbM0_1) (xt2 : TbBuf0 (F := F) c tbM0_2) (xt3 : TbBuf0 (F := F) c tbM0_3)
    (hc0 : ¬cond0_0 (word c i tbM0_1 xt1)) (hc1 : ¬cond0_1 (word c i tbM0_2 xt2)) (hc2 : cond0_2 (word c i tbM0_2 xt2)) (hc3 : ¬cond0_3 (word c i tbM0_3 xt3)) :
    Σ' (LS0 : List (View.Piece (Elt F) S1024x64 .f32)), { LS1 : List (View.Piece (Elt F) S1024x1 .f32) //
      ∀ (xi3 : Vec F S1x1024x64 .bf16) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3 ∗ owns (c : Thread nD τ) arg10 fullShare xs0 ∗ owns (c : Thread nD τ) arg11 fullShare xs1
            ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__attn_kernel i tbM0_0 htbM0_0 tbM0_1 htbM0_1 tbM0_2 htbM0_2 tbM0_3 htbM0_3 arg6 harg6 arg7 harg7 arg8 harg8 arg9 harg9 arg10 harg10 arg11 harg11) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HT0]; · iexact HT0
    isplitl [HT1]; · iexact HT1
    isplitl [HT2]; · iexact HT2
    iexact HT3

end Cert.KernelIdeal.Fr

end
-- ==== Proof.KI.RunE.lean ====
/-
  The body of the attention kernel run once in case E: which of its four conditional blocks execute is fixed by
  hypotheses on the table words it loads, and the run returns the pieces its stores leave.
-/
import proofs.«420449_j45973329936664_3_alg».proof.Proof.KI.RunD

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point where the accumulators are carried, the tile is masked and the quotient is not stored:
    what its stores leave in the accumulators, as pieces the run finds. -/
noncomputable def kernelRun0_E (c : Dev nD) (i : grid0.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .bf16) (harg9 : arg9.IsWhole) (arg10 : Memref sig .tc .vmem S1024x64 .f32) (harg10 : arg10.IsWhole) (arg11 : Memref sig .tc .vmem S1024x1 .f32) (harg11 : arg11.IsWhole)
    (x0 : Vec F S1x1024x64 .bf16) (x1 : Vec F S1x512x64 .bf16) (x2 : Vec F S1x512x64 .bf16) (xs0 : Vec F S1024x64 .f32) (xs1 : Vec F S1024x1 .f32) (xt0 : TbBuf0 (F := F) c tbM0_0) (xt1 : TbBuf0 (F := F) c tbM0_1) (xt2 : TbBuf0 (F := F) c tbM0_2) (xt3 : TbBuf0 (F := F) c tbM0_3)
    (hc0 : ¬cond0_0 (word c i tbM0_1 xt1)) (hc1 : cond0_1 (word c i tbM0_2 xt2)) (hc2 : ¬cond0_2 (word c i tbM0_2 xt2)) (hc3 : ¬cond0_3 (word c i tbM0_3 xt3)) :
    Σ' (LS0 : List (View.Piece (Elt F) S1024x64 .f32)), { LS1 : List (View.Piece (Elt F) S1024x1 .f32) //
      ∀ (xi3 : Vec F S1x1024x64 .bf16) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3 ∗ owns (c : Thread nD τ) arg10 fullShare xs0 ∗ owns (c : Thread nD τ) arg11 fullShare xs1
            ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__attn_kernel i tbM0_0 htbM0_0 tbM0_1 htbM0_1 tbM0_2 htbM0_2 tbM0_3 htbM0_3 arg6 harg6 arg7 harg7 arg8 harg8 arg9 harg9 arg10 harg10 arg11 harg11) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HT0]; · iexact HT0
    isplitl [HT1]; · iexact HT1
    isplitl [HT2]; · iexact HT2
    iexact HT3

end Cert.KernelIdeal.Fr

end
-- ==== Proof.KI.Adm.lean ====
/-
  The pipeline of the attention kernel at its literal schedule tables: the side condition decided, the words the
  body loads at each of the 192 points (point t = 6·bh + j reads entry j of each table), the four conditions in
  closed form over j, and where the output window is idle and where it is written back (at j = 1 and j = 5, the
  last k-tile of each q-row).
-/
import proofs.«420449_j45973329936664_3_alg».proof.Proof.KI.Base
import Idealize.ShloMosaic.PureOps.Ideal

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

/-- At the literal tables every block lies inside its array and ends on whole words. -/
theorem ok_lit : ok0 (F := 𝔽) (litTbl (F := 𝔽)) := by
  decide +kernel

/-- The literal tables as admissible contents, and the pipeline at them. -/
def admL : (pcfg0 (F := 𝔽)).Adm := ⟨litTbl, ok_lit⟩
abbrev cfgL : Pipeline.Cfg sig Λ₀ := cfg0 (F := 𝔽) admL

/-- When the region is entered the tables hold those contents. -/
theorem V_preL (c : Dev nD) (k : Fin 4) : V m c (pre0.ref k) = (admL).1 k :=
  (V_pre m c k).trans (congrFun (tbl_eq m) k)

theorem N_L : cfgL.N = 192 := N_0

/-! ## The words the body loads -/

/-- The table entry the body's loads read at point `i`. -/
def widx (i : grid0.Coords) : S6.Idx :=
  (Rect.unit (s := S6) (k0_off1 i) S1.size (k0_off1_inb i)).idx (Shape.Idx.first (numel1_S1.symm ▸ Nat.one_pos))

theorem word_lit0 (c : Dev nD) (i : grid0.Coords) : word (F := 𝔽) c i tbM0_0 (litTbl 0) = lit0 (S6.rowMajor (widx i)) := rfl
theorem word_lit1 (c : Dev nD) (i : grid0.Coords) : word (F := 𝔽) c i tbM0_1 (litTbl 1) = lit1 (S6.rowMajor (widx i)) := rfl
theorem word_lit2 (c : Dev nD) (i : grid0.Coords) : word (F := 𝔽) c i tbM0_2 (litTbl 2) = lit2 (S6.rowMajor (widx i)) := rfl
theorem word_lit3 (c : Dev nD) (i : grid0.Coords) : word (F := 𝔽) c i tbM0_3 (litTbl 3) = lit3 (S6.rowMajor (widx i)) := rfl

/-! ## The conditions in closed form -/

theorem hcond0_0 (c : Dev nD) (t : Fin cfgL.N) : cond0_0 (word (F := 𝔽) c (grid0.coords t) tbM0_1 (litTbl 1)) ↔ (t.val % 6 = 0 ∨ t.val % 6 = 2) := by
  rw [word_lit1]
  exact (by decide +kernel : ∀ t : Fin grid0.N, cond0_0 (lit1 (S6.rowMajor (widx (grid0.coords t)))) ↔ (t.val % 6 = 0 ∨ t.val % 6 = 2)) t
theorem hcond0_1 (c : Dev nD) (t : Fin cfgL.N) : cond0_1 (word (F := 𝔽) c (grid0.coords t) tbM0_2 (litTbl 2)) ↔ ¬(t.val % 6 = 2 ∨ t.val % 6 = 3) := by
  rw [word_lit2]
  exact (by decide +kernel : ∀ t : Fin grid0.N, cond0_1 (lit2 (S6.rowMajor (widx (grid0.coords t)))) ↔ ¬(t.val % 6 = 2 ∨ t.val % 6 = 3)) t
theorem hcond0_2 (c : Dev nD) (t : Fin cfgL.N) : cond0_2 (word (F := 𝔽) c (grid0.coords t) tbM0_2 (litTbl 2)) ↔ (t.val % 6 = 2 ∨ t.val % 6 = 3) := by
  rw [word_lit2]
  exact (by decide +kernel : ∀ t : Fin grid0.N, cond0_2 (lit2 (S6.rowMajor (widx (grid0.coords t)))) ↔ (t.val % 6 = 2 ∨ t.val % 6 = 3)) t
theorem hcond0_3 (c : Dev nD) (t : Fin cfgL.N) : cond0_3 (word (F := 𝔽) c (grid0.coords t) tbM0_3 (litTbl 3)) ↔ (t.val % 6 = 1 ∨ t.val % 6 = 5) := by
  rw [word_lit3]
  exact (by decide +kernel : ∀ t : Fin grid0.N, cond0_3 (lit3 (S6.rowMajor (widx (grid0.coords t)))) ↔ (t.val % 6 = 1 ∨ t.val % 6 = 5)) t

/-! ## Where the windows are idle, and where the output is written back -/

theorem liveAt0_0 : ∀ t : Fin cfgL.N, cfgL.idle 0 (grid0.coords t) = false := by decide +kernel
theorem liveAt0_1 : ∀ t : Fin cfgL.N, cfgL.idle 1 (grid0.coords t) = false := by decide +kernel
theorem liveAt0_2 : ∀ t : Fin cfgL.N, cfgL.idle 2 (grid0.coords t) = false := by decide +kernel
/-- The output window is idle exactly where the quotient is not stored. -/
theorem idleAt0_3 : ∀ t : Fin cfgL.N, ¬(t.val % 6 = 1 ∨ t.val % 6 = 5) → cfgL.idle 3 (grid0.coords t) = true := by decide +kernel
theorem liveAt0_3 : ∀ t : Fin cfgL.N, (t.val % 6 = 1 ∨ t.val % 6 = 5) → cfgL.idle 3 (grid0.coords t) = false := by decide +kernel
/-- And it is written back exactly there: the next point's q-tile, or batch-head, is another. -/
theorem flush0_3 : ∀ t : Fin cfgL.N, (cfgL.win 3).flush t = true ↔ (t.val % 6 = 1 ∨ t.val % 6 = 5) := by decide +kernel
theorem noFlush0_3 : ∀ t : Fin cfgL.N, ¬(t.val % 6 = 1 ∨ t.val % 6 = 5) → (cfgL.win 3).flush t = false := by decide +kernel

end Cert.KernelIdeal.Fr

end
-- ==== Proof.KI.Frame.lean ====
/-
  The frame of the attention kernel's program: what the two accumulators and the output block hold after each of
  the 192 grid points, case by case of the body's four conditions, the region's invariant carrying the accumulators from
  point to point, the body's obligation at every point, and the run of the whole program around the region.
  Point t = 6·bh + j is in one of five cases by j: j = 0 resets and masks; j = 1 and j = 5 mask and store the quotient;
  j = 2 resets without mask; j = 3 accumulates without mask; j = 4 masks without storing.
-/
import proofs.«420449_j45973329936664_3_alg».proof.Proof.KI.RunE
import proofs.«420449_j45973329936664_3_alg».proof.Proof.KI.Adm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

/-! ## The windows' blocks and staging memrefs -/

/-- Window `w`'s block at point `t`, read off its array as the region finds it. -/
def iblk (c : Dev nD) (w : Fin cfgL.W) (t : Fin cfgL.N) : ((cfgL.win w).xblock (cfgL.grid.coords t)).Idx → Elt 𝔽 (cfgL.win w).elt :=
  ((cfgL.win w).blk t).view.read (Elt 𝔽) (V m c (Pipeline.arrRef spec0 w))

theorem before0_0_of {c : Dev nD} (dat : Dat τ (Elt 𝔽) Unit ℕ (UR sig nD τ) ℕ cfgL c) (hA : dat.A 0 = V m c (Pipeline.arrRef spec0 0))
    (hafter : ∀ t, dat.after 0 t = iblk m c 0 t) (t : Fin cfgL.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt 𝔽) Unit ℕ (UR sig nD τ) ℕ cfgL c) (hA : dat.A 1 = V m c (Pipeline.arrRef spec0 1))
    (hafter : ∀ t, dat.after 1 t = iblk m c 1 t) (t : Fin cfgL.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt 𝔽) Unit ℕ (UR sig nD τ) ℕ cfgL c) (hA : dat.A 2 = V m c (Pipeline.arrRef spec0 2))
    (hafter : ∀ t, dat.after 2 t = iblk m c 2 t) (t : Fin cfgL.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfgL.N) : Memref sig .tc .vmem S1x1024x64 .bf16 := spec0_0.stage (cfgL.slots t 0)
abbrev hs0_0 (t : Fin cfgL.N) : (ms0_0 t).IsWhole := hstage0_0 ((cfgL.slots t 0).cast nbuf0_0)
abbrev ms0_1 (t : Fin cfgL.N) : Memref sig .tc .vmem S1x512x64 .bf16 := spec0_1.stage (cfgL.slots t 1)
abbrev hs0_1 (t : Fin cfgL.N) : (ms0_1 t).IsWhole := hstage0_1 ((cfgL.slots t 1).cast nbuf0_1)
abbrev ms0_2 (t : Fin cfgL.N) : Memref sig .tc .vmem S1x512x64 .bf16 := spec0_2.stage (cfgL.slots t 2)
abbrev hs0_2 (t : Fin cfgL.N) : (ms0_2 t).IsWhole := hstage0_2 ((cfgL.slots t 2).cast nbuf0_2)
abbrev ms0_3 (t : Fin cfgL.N) : Memref sig .tc .vmem S1x1024x64 .bf16 := spec0_3.stage (cfgL.slots t 3)
abbrev hs0_3 (t : Fin cfgL.N) : (ms0_3 t).IsWhole := hstage0_3 ((cfgL.slots t 3).cast nbuf0_3)

/-! ## The case hypotheses at a point, from its position modulo six -/
theorem hcA0 (c : Dev nD) (t : Fin cfgL.N) (h : t.val % 6 = 0) : cond0_0 (word (F := 𝔽) c (grid0.coords t) tbM0_1 (litTbl 1)) := (hcond0_0 c t).mpr (Or.inl h)
theorem hcA1 (c : Dev nD) (t : Fin cfgL.N) (h : t.val % 6 = 0) : cond0_1 (word (F := 𝔽) c (grid0.coords t) tbM0_2 (litTbl 2)) := (hcond0_1 c t).mpr (by omega)
theorem hcA2 (c : Dev nD) (t : Fin cfgL.N) (h : t.val % 6 = 0) : ¬cond0_2 (word (F := 𝔽) c (grid0.coords t) tbM0_2 (litTbl 2)) := fun h' => absurd ((hcond0_2 c t).mp h') (by omega)
theorem hcA3 (c : Dev nD) (t : Fin cfgL.N) (h : t.val % 6 = 0) : ¬cond0_3 (word (F := 𝔽) c (grid0.coords t) tbM0_3 (litTbl 3)) := fun h' => absurd ((hcond0_3 c t).mp h') (by omega)
theorem hcB0 (c : Dev nD) (t : Fin cfgL.N) (h : (t.val % 6 = 1 ∨ t.val % 6 = 5)) : ¬cond0_0 (word (F := 𝔽) c (grid0.coords t) tbM0_1 (litTbl 1)) := fun h' => absurd ((hcond0_0 c t).mp h') (by omega)
theorem hcB1 (c : Dev nD) (t : Fin cfgL.N) (h : (t.val % 6 = 1 ∨ t.val % 6 = 5)) : cond0_1 (word (F := 𝔽) c (grid0.coords t) tbM0_2 (litTbl 2)) := (hcond0_1 c t).mpr (by omega)
theorem hcB2 (c : Dev nD) (t : Fin cfgL.N) (h : (t.val % 6 = 1 ∨ t.val % 6 = 5)) : ¬cond0_2 (word (F := 𝔽) c (grid0.coords t) tbM0_2 (litTbl 2)) := fun h' => absurd ((hcond0_2 c t).mp h') (by omega)
theorem hcB3 (c : Dev nD) (t : Fin cfgL.N) (h : (t.val % 6 = 1 ∨ t.val % 6 = 5)) : cond0_3 (word (F := 𝔽) c (grid0.coords t) tbM0_3 (litTbl 3)) := (hcond0_3 c t).mpr h
theorem hcC0 (c : Dev nD) (t : Fin cfgL.N) (h : t.val % 6 = 2) : cond0_0 (word (F := 𝔽) c (grid0.coords t) tbM0_1 (litTbl 1)) := (hcond0_0 c t).mpr (Or.inr h)
theorem hcC1 (c : Dev nD) (t : Fin cfgL.N) (h : t.val % 6 = 2) : ¬cond0_1 (word (F := 𝔽) c (grid0.coords t) tbM0_2 (litTbl 2)) := fun h' => absurd ((hcond0_1 c t).mp h') (by omega)
theorem hcC2 (c : Dev nD) (t : Fin cfgL.N) (h : t.val % 6 = 2) : cond0_2 (word (F := 𝔽) c (grid0.coords t) tbM0_2 (litTbl 2)) := (hcond0_2 c t).mpr (Or.inl h)
theorem hcC3 (c : Dev nD) (t : Fin cfgL.N) (h : t.val % 6 = 2) : ¬cond0_3 (word (F := 𝔽) c (grid0.coords t) tbM0_3 (litTbl 3)) := fun h' => absurd ((hcond0_3 c t).mp h') (by omega)
theorem hcD0 (c : Dev nD) (t : Fin cfgL.N) (h : t.val % 6 = 3) : ¬cond0_0 (word (F := 𝔽) c (grid0.coords t) tbM0_1 (litTbl 1)) := fun h' => absurd ((hcond0_0 c t).mp h') (by omega)
theorem hcD1 (c : Dev nD) (t : Fin cfgL.N) (h : t.val % 6 = 3) : ¬cond0_1 (word (F := 𝔽) c (grid0.coords t) tbM0_2 (litTbl 2)) := fun h' => absurd ((hcond0_1 c t).mp h') (by omega)
theorem hcD2 (c : Dev nD) (t : Fin cfgL.N) (h : t.val % 6 = 3) : cond0_2 (word (F := 𝔽) c (grid0.coords t) tbM0_2 (litTbl 2)) := (hcond0_2 c t).mpr (Or.inr h)
theorem hcD3 (c : Dev nD) (t : Fin cfgL.N) (h : t.val % 6 = 3) : ¬cond0_3 (word (F := 𝔽) c (grid0.coords t) tbM0_3 (litTbl 3)) := fun h' => absurd ((hcond0_3 c t).mp h') (by omega)
theorem hcE0 (c : Dev nD) (t : Fin cfgL.N) (h : t.val % 6 = 4) : ¬cond0_0 (word (F := 𝔽) c (grid0.coords t) tbM0_1 (litTbl 1)) := fun h' => absurd ((hcond0_0 c t).mp h') (by omega)
theorem hcE1 (c : Dev nD) (t : Fin cfgL.N) (h : t.val % 6 = 4) : cond0_1 (word (F := 𝔽) c (grid0.coords t) tbM0_2 (litTbl 2)) := (hcond0_1 c t).mpr (by omega)
theorem hcE2 (c : Dev nD) (t : Fin cfgL.N) (h : t.val % 6 = 4) : ¬cond0_2 (word (F := 𝔽) c (grid0.coords t) tbM0_2 (litTbl 2)) := fun h' => absurd ((hcond0_2 c t).mp h') (by omega)
theorem hcE3 (c : Dev nD) (t : Fin cfgL.N) (h : t.val % 6 = 4) : ¬cond0_3 (word (F := 𝔽) c (grid0.coords t) tbM0_3 (litTbl 3)) := fun h' => absurd ((hcond0_3 c t).mp h') (by omega)

/-! ## What each case leaves: the run's pieces read back -/

/-- The body's run at a point of case A. -/
abbrev runA (c : Dev nD) (t : Fin cfgL.N) (h : t.val % 6 = 0) := kernelRun0_A (F := 𝔽) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (litTbl 0) (litTbl 1) (litTbl 2) (litTbl 3) (hcA0 c t h) (hcA1 c t h) (hcA2 c t h) (hcA3 c t h)

/-- Its stores into each accumulator cover it. -/
theorem scover0_A_0 (c : Dev nD) (t : Fin cfgL.N) (h : t.val % 6 = 0) (y : S1024x64.Idx) :
    ∃ pc ∈ (runA m c t h).1, y ∈ pc.1.set :=
  View.cover_of_tiledL (runA m c t h).1 S1024x64.size (by sl_kernel_rfl) y
theorem scover0_A_1 (c : Dev nD) (t : Fin cfgL.N) (h : t.val % 6 = 0) (y : S1024x1.Idx) :
    ∃ pc ∈ (runA m c t h).2.1, y ∈ pc.1.set :=
  View.cover_of_tiledL (runA m c t h).2.1 S1024x1.size (by sl_kernel_rfl) y
/-- What case A leaves in the numerator accumulator and in the normalizer accumulator. -/
def sout0_A_0 (c : Dev nD) (t : Fin cfgL.N) (h : t.val % 6 = 0) : Vec 𝔽 S1024x64 .f32 :=
  VS0_0.read (Elt 𝔽) (VS0_0.writes (Elt 𝔽) VS0_0.junk (runA m c t h).1)
def sout0_A_1 (c : Dev nD) (t : Fin cfgL.N) (h : t.val % 6 = 0) : Vec 𝔽 S1024x1 .f32 :=
  VS0_1.read (Elt 𝔽) (VS0_1.writes (Elt 𝔽) VS0_1.junk (runA m c t h).2.1)

/-- The body's run at a point of case B. -/
abbrev runB (c : Dev nD) (t : Fin cfgL.N) (h : (t.val % 6 = 1 ∨ t.val % 6 = 5)) (xs0 : Vec 𝔽 S1024x64 .f32) (xs1 : Vec 𝔽 S1024x1 .f32) := kernelRun0_B (F := 𝔽) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) xs0 xs1 (litTbl 0) (litTbl 1) (litTbl 2) (litTbl 3) (hcB0 c t h) (hcB1 c t h) (hcB2 c t h) (hcB3 c t h)

/-- Its stores into each accumulator cover it. -/
theorem scover0_B_0 (c : Dev nD) (t : Fin cfgL.N) (h : (t.val % 6 = 1 ∨ t.val % 6 = 5)) (xs0 : Vec 𝔽 S1024x64 .f32) (xs1 : Vec 𝔽 S1024x1 .f32) (y : S1024x64.Idx) :
    ∃ pc ∈ (runB m c t h xs0 xs1).2.1, y ∈ pc.1.set :=
  View.cover_of_tiledL (runB m c t h xs0 xs1).2.1 S1024x64.size (by sl_kernel_rfl) y
theorem scover0_B_1 (c : Dev nD) (t : Fin cfgL.N) (h : (t.val % 6 = 1 ∨ t.val % 6 = 5)) (xs0 : Vec 𝔽 S1024x64 .f32) (xs1 : Vec 𝔽 S1024x1 .f32) (y : S1024x1.Idx) :
    ∃ pc ∈ (runB m c t h xs0 xs1).2.2.1, y ∈ pc.1.set :=
  View.cover_of_tiledL (runB m c t h xs0 xs1).2.2.1 S1024x1.size (by sl_kernel_rfl) y
/-- What case B leaves in the numerator accumulator and in the normalizer accumulator. -/
def sout0_B_0 (c : Dev nD) (t : Fin cfgL.N) (h : (t.val % 6 = 1 ∨ t.val % 6 = 5)) (xs0 : Vec 𝔽 S1024x64 .f32) (xs1 : Vec 𝔽 S1024x1 .f32) : Vec 𝔽 S1024x64 .f32 :=
  VS0_0.read (Elt 𝔽) (VS0_0.writes (Elt 𝔽) VS0_0.junk (runB m c t h xs0 xs1).2.1)
def sout0_B_1 (c : Dev nD) (t : Fin cfgL.N) (h : (t.val % 6 = 1 ∨ t.val % 6 = 5)) (xs0 : Vec 𝔽 S1024x64 .f32) (xs1 : Vec 𝔽 S1024x1 .f32) : Vec 𝔽 S1024x1 .f32 :=
  VS0_1.read (Elt 𝔽) (VS0_1.writes (Elt 𝔽) VS0_1.junk (runB m c t h xs0 xs1).2.2.1)
/-- Its store into the output block covers it, and what it leaves there. -/
theorem cover0_B_3 (c : Dev nD) (t : Fin cfgL.N) (h : (t.val % 6 = 1 ∨ t.val % 6 = 5)) (xs0 : Vec 𝔽 S1024x64 .f32) (xs1 : Vec 𝔽 S1024x1 .f32) (y : S1x1024x64.Idx) :
    ∃ pc ∈ (runB m c t h xs0 xs1).1, y ∈ pc.1.set :=
  View.cover_of_tiledL (runB m c t h xs0 xs1).1 S1x1024x64.size (by sl_kernel_rfl) y
def out0_B_3 (c : Dev nD) (t : Fin cfgL.N) (h : (t.val % 6 = 1 ∨ t.val % 6 = 5)) (xs0 : Vec 𝔽 S1024x64 .f32) (xs1 : Vec 𝔽 S1024x1 .f32) : Vec 𝔽 S1x1024x64 .bf16 :=
  VO0_3.read (Elt 𝔽) (VO0_3.writes (Elt 𝔽) VO0_3.junk (runB m c t h xs0 xs1).1)

/-- The body's run at a point of case C. -/
abbrev runC (c : Dev nD) (t : Fin cfgL.N) (h : t.val % 6 = 2) := kernelRun0_C (F := 𝔽) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (litTbl 0) (litTbl 1) (litTbl 2) (litTbl 3) (hcC0 c t h) (hcC1 c t h) (hcC2 c t h) (hcC3 c t h)

/-- Its stores into each accumulator cover it. -/
theorem scover0_C_0 (c : Dev nD) (t : Fin cfgL.N) (h : t.val % 6 = 2) (y : S1024x64.Idx) :
    ∃ pc ∈ (runC m c t h).1, y ∈ pc.1.set :=
  View.cover_of_tiledL (runC m c t h).1 S1024x64.size (by sl_kernel_rfl) y
theorem scover0_C_1 (c : Dev nD) (t : Fin cfgL.N) (h : t.val % 6 = 2) (y : S1024x1.Idx) :
    ∃ pc ∈ (runC m c t h).2.1, y ∈ pc.1.set :=
  View.cover_of_tiledL (runC m c t h).2.1 S1024x1.size (by sl_kernel_rfl) y
/-- What case C leaves in the numerator accumulator and in the normalizer accumulator. -/
def sout0_C_0 (c : Dev nD) (t : Fin cfgL.N) (h : t.val % 6 = 2) : Vec 𝔽 S1024x64 .f32 :=
  VS0_0.read (Elt 𝔽) (VS0_0.writes (Elt 𝔽) VS0_0.junk (runC m c t h).1)
def sout0_C_1 (c : Dev nD) (t : Fin cfgL.N) (h : t.val % 6 = 2) : Vec 𝔽 S1024x1 .f32 :=
  VS0_1.read (Elt 𝔽) (VS0_1.writes (Elt 𝔽) VS0_1.junk (runC m c t h).2.1)

/-- The body's run at a point of case D. -/
abbrev runD (c : Dev nD) (t : Fin cfgL.N) (h : t.val % 6 = 3) (xs0 : Vec 𝔽 S1024x64 .f32) (xs1 : Vec 𝔽 S1024x1 .f32) := kernelRun0_D (F := 𝔽) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) xs0 xs1 (litTbl 0) (litTbl 1) (litTbl 2) (litTbl 3) (hcD0 c t h) (hcD1 c t h) (hcD2 c t h) (hcD3 c t h)

/-- Its stores into each accumulator cover it. -/
theorem scover0_D_0 (c : Dev nD) (t : Fin cfgL.N) (h : t.val % 6 = 3) (xs0 : Vec 𝔽 S1024x64 .f32) (xs1 : Vec 𝔽 S1024x1 .f32) (y : S1024x64.Idx) :
    ∃ pc ∈ (runD m c t h xs0 xs1).1, y ∈ pc.1.set :=
  View.cover_of_tiledL (runD m c t h xs0 xs1).1 S1024x64.size (by sl_kernel_rfl) y
theorem scover0_D_1 (c : Dev nD) (t : Fin cfgL.N) (h : t.val % 6 = 3) (xs0 : Vec 𝔽 S1024x64 .f32) (xs1 : Vec 𝔽 S1024x1 .f32) (y : S1024x1.Idx) :
    ∃ pc ∈ (runD m c t h xs0 xs1).2.1, y ∈ pc.1.set :=
  View.cover_of_tiledL (runD m c t h xs0 xs1).2.1 S1024x1.size (by sl_kernel_rfl) y
/-- What case D leaves in the numerator accumulator and in the normalizer accumulator. -/
def sout0_D_0 (c : Dev nD) (t : Fin cfgL.N) (h : t.val % 6 = 3) (xs0 : Vec 𝔽 S1024x64 .f32) (xs1 : Vec 𝔽 S1024x1 .f32) : Vec 𝔽 S1024x64 .f32 :=
  VS0_0.read (Elt 𝔽) (VS0_0.writes (Elt 𝔽) VS0_0.junk (runD m c t h xs0 xs1).1)
def sout0_D_1 (c : Dev nD) (t : Fin cfgL.N) (h : t.val % 6 = 3) (xs0 : Vec 𝔽 S1024x64 .f32) (xs1 : Vec 𝔽 S1024x1 .f32) : Vec 𝔽 S1024x1 .f32 :=
  VS0_1.read (Elt 𝔽) (VS0_1.writes (Elt 𝔽) VS0_1.junk (runD m c t h xs0 xs1).2.1)

/-- The body's run at a point of case E. -/
abbrev runE (c : Dev nD) (t : Fin cfgL.N) (h : t.val % 6 = 4) (xs0 : Vec 𝔽 S1024x64 .f32) (xs1 : Vec 𝔽 S1024x1 .f32) := kernelRun0_E (F := 𝔽) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) xs0 xs1 (litTbl 0) (litTbl 1) (litTbl 2) (litTbl 3) (hcE0 c t h) (hcE1 c t h) (hcE2 c t h) (hcE3 c t h)

/-- Its stores into each accumulator cover it. -/
theorem scover0_E_0 (c : Dev nD) (t : Fin cfgL.N) (h : t.val % 6 = 4) (xs0 : Vec 𝔽 S1024x64 .f32) (xs1 : Vec 𝔽 S1024x1 .f32) (y : S1024x64.Idx) :
    ∃ pc ∈ (runE m c t h xs0 xs1).1, y ∈ pc.1.set :=
  View.cover_of_tiledL (runE m c t h xs0 xs1).1 S1024x64.size (by sl_kernel_rfl) y
theorem scover0_E_1 (c : Dev nD) (t : Fin cfgL.N) (h : t.val % 6 = 4) (xs0 : Vec 𝔽 S1024x64 .f32) (xs1 : Vec 𝔽 S1024x1 .f32) (y : S1024x1.Idx) :
    ∃ pc ∈ (runE m c t h xs0 xs1).2.1, y ∈ pc.1.set :=
  View.cover_of_tiledL (runE m c t h xs0 xs1).2.1 S1024x1.size (by sl_kernel_rfl) y
/-- What case E leaves in the numerator accumulator and in the normalizer accumulator. -/
def sout0_E_0 (c : Dev nD) (t : Fin cfgL.N) (h : t.val % 6 = 4) (xs0 : Vec 𝔽 S1024x64 .f32) (xs1 : Vec 𝔽 S1024x1 .f32) : Vec 𝔽 S1024x64 .f32 :=
  VS0_0.read (Elt 𝔽) (VS0_0.writes (Elt 𝔽) VS0_0.junk (runE m c t h xs0 xs1).1)
def sout0_E_1 (c : Dev nD) (t : Fin cfgL.N) (h : t.val % 6 = 4) (xs0 : Vec 𝔽 S1024x64 .f32) (xs1 : Vec 𝔽 S1024x1 .f32) : Vec 𝔽 S1024x1 .f32 :=
  VS0_1.read (Elt 𝔽) (VS0_1.writes (Elt 𝔽) VS0_1.junk (runE m c t h xs0 xs1).2.1)

/-! ## What the buffers hold after each point -/

/-- After point `n`: the output block (meaningful where the quotient was stored; a placeholder elsewhere, where the
    window is idle and not written back), the numerator accumulator, the normalizer accumulator. A reset case
    starts afresh; the others continue from what the point before left. -/
def outsAt0 (c : Dev nD) : (n : ℕ) → n < cfgL.N → Vec 𝔽 S1x1024x64 .bf16 × Vec 𝔽 S1024x64 .f32 × Vec 𝔽 S1024x1 .f32
  | 0, hn => (VO0_3.junk, sout0_A_0 m c ⟨0, hn⟩ (Nat.zero_mod _), sout0_A_1 m c ⟨0, hn⟩ (Nat.zero_mod _))
  | n + 1, hn =>
    if hA : (n + 1) % 6 = 0 then (VO0_3.junk, sout0_A_0 m c ⟨n + 1, hn⟩ hA, sout0_A_1 m c ⟨n + 1, hn⟩ hA)
    else if hC : (n + 1) % 6 = 2 then (VO0_3.junk, sout0_C_0 m c ⟨n + 1, hn⟩ hC, sout0_C_1 m c ⟨n + 1, hn⟩ hC)
    else if hB : ((n + 1) % 6 = 1 ∨ (n + 1) % 6 = 5) then
      (out0_B_3 m c ⟨n + 1, hn⟩ hB (outsAt0 c n (Nat.lt_of_succ_lt hn)).2.1 (outsAt0 c n (Nat.lt_of_succ_lt hn)).2.2,
        sout0_B_0 m c ⟨n + 1, hn⟩ hB (outsAt0 c n (Nat.lt_of_succ_lt hn)).2.1 (outsAt0 c n (Nat.lt_of_succ_lt hn)).2.2,
        sout0_B_1 m c ⟨n + 1, hn⟩ hB (outsAt0 c n (Nat.lt_of_succ_lt hn)).2.1 (outsAt0 c n (Nat.lt_of_succ_lt hn)).2.2)
    else if hD : (n + 1) % 6 = 3 then
      (VO0_3.junk,
        sout0_D_0 m c ⟨n + 1, hn⟩ hD (outsAt0 c n (Nat.lt_of_succ_lt hn)).2.1 (outsAt0 c n (Nat.lt_of_succ_lt hn)).2.2,
        sout0_D_1 m c ⟨n + 1, hn⟩ hD (outsAt0 c n (Nat.lt_of_succ_lt hn)).2.1 (outsAt0 c n (Nat.lt_of_succ_lt hn)).2.2)
    else
      (VO0_3.junk,
        sout0_E_0 m c ⟨n + 1, hn⟩ (show (n + 1) % 6 = 4 by omega) (outsAt0 c n (Nat.lt_of_succ_lt hn)).2.1 (outsAt0 c n (Nat.lt_of_succ_lt hn)).2.2,
        sout0_E_1 m c ⟨n + 1, hn⟩ (show (n + 1) % 6 = 4 by omega) (outsAt0 c n (Nat.lt_of_succ_lt hn)).2.1 (outsAt0 c n (Nat.lt_of_succ_lt hn)).2.2)

/-- What the point before `t` left in the accumulators. -/
abbrev prev0 (c : Dev nD) (t : Fin cfgL.N) : Vec 𝔽 S1024x64 .f32 := (outsAt0 m c (t.val - 1) (Nat.lt_of_le_of_lt (Nat.sub_le _ _) t.isLt)).2.1
abbrev prev1 (c : Dev nD) (t : Fin cfgL.N) : Vec 𝔽 S1024x1 .f32 := (outsAt0 m c (t.val - 1) (Nat.lt_of_le_of_lt (Nat.sub_le _ _) t.isLt)).2.2

theorem outsAt0_A (c : Dev nD) (t : Fin cfgL.N) (h : t.val % 6 = 0) :
    outsAt0 m c t.val t.isLt = (VO0_3.junk, sout0_A_0 m c t h, sout0_A_1 m c t h) := by
  obtain ⟨n, hn⟩ := t
  cases n with
  | zero => rfl
  | succ n => exact (dif_pos h)
theorem outsAt0_C (c : Dev nD) (t : Fin cfgL.N) (h : t.val % 6 = 2) :
    outsAt0 m c t.val t.isLt = (VO0_3.junk, sout0_C_0 m c t h, sout0_C_1 m c t h) := by
  obtain ⟨n, hn⟩ := t
  cases n with
  | zero => exact absurd (show (0 : ℕ) % 6 = 2 from h) (by decide)
  | succ n => exact (dif_neg (by dsimp only at h; omega)).trans (dif_pos h)
theorem outsAt0_B (c : Dev nD) (t : Fin cfgL.N) (h : t.val % 6 = 1 ∨ t.val % 6 = 5) :
    outsAt0 m c t.val t.isLt = (out0_B_3 m c t h (prev0 m c t) (prev1 m c t), sout0_B_0 m c t h (prev0 m c t) (prev1 m c t), sout0_B_1 m c t h (prev0 m c t) (prev1 m c t)) := by
  obtain ⟨n, hn⟩ := t
  cases n with
  | zero => exact absurd (show ((0 : ℕ) % 6 = 1 ∨ (0 : ℕ) % 6 = 5) from h) (by decide)
  | succ n => exact (dif_neg (by dsimp only at h; omega)).trans ((dif_neg (by dsimp only at h; omega)).trans (dif_pos h))
theorem outsAt0_D (c : Dev nD) (t : Fin cfgL.N) (h : t.val % 6 = 3) :
    outsAt0 m c t.val t.isLt = (VO0_3.junk, sout0_D_0 m c t h (prev0 m c t) (prev1 m c t), sout0_D_1 m c t h (prev0 m c t) (prev1 m c t)) := by
  obtain ⟨n, hn⟩ := t
  cases n with
  | zero => exact absurd (show (0 : ℕ) % 6 = 3 from h) (by decide)
  | succ n => exact (dif_neg (by dsimp only at h; omega)).trans ((dif_neg (by dsimp only at h; omega)).trans ((dif_neg (by dsimp only at h; omega)).trans (dif_pos h)))
theorem outsAt0_E (c : Dev nD) (t : Fin cfgL.N) (h : t.val % 6 = 4) :
    outsAt0 m c t.val t.isLt = (VO0_3.junk, sout0_E_0 m c t h (prev0 m c t) (prev1 m c t), sout0_E_1 m c t h (prev0 m c t) (prev1 m c t)) := by
  obtain ⟨n, hn⟩ := t
  cases n with
  | zero => exact absurd (show (0 : ℕ) % 6 = 4 from h) (by decide)
  | succ n => exact (dif_neg (by dsimp only at h; omega)).trans ((dif_neg (by dsimp only at h; omega)).trans ((dif_neg (by dsimp only at h; omega)).trans (dif_neg (by dsimp only at h; omega))))

/-! ## The region's invariant -/

/-- Before position `n`: at the start the accumulators hold anything; afterwards what the point before left. The
    generator register at some state and the tables' halves throughout. -/
def PhiS (c : Dev nD) : (n : ℕ) → n ≤ cfgL.N → sProp 𝕄
  | 0, _ => iprop(Pipeline.ΦA spec0 c ∗ Pipeline.ΦT pre0 (admL).1 c)
  | n + 1, hn => iprop(iprop(iprop(owns (c : Thread nD τ) scM0_0 fullShare ((outsAt0 m c n hn).2.1) ∗ owns (c : Thread nD τ) scM0_1 fullShare ((outsAt0 m c n hn).2.2)) ∗ (∃ r, prngReg c r)) ∗ Pipeline.ΦT pre0 (admL).1 c)

theorem PhiS_zero (c : Dev nD) (n : ℕ) (h : n ≤ cfgL.N) (hz : n = 0) : PhiS m c n h = iprop(Pipeline.ΦA spec0 c ∗ Pipeline.ΦT pre0 (admL).1 c) := by
  subst hz; rfl
theorem PhiS_succ (c : Dev nD) (n : ℕ) (hn : n < cfgL.N) :
    PhiS m c (n + 1) hn = iprop(iprop(iprop(owns (c : Thread nD τ) scM0_0 fullShare ((outsAt0 m c n hn).2.1) ∗ owns (c : Thread nD τ) scM0_1 fullShare ((outsAt0 m c n hn).2.2)) ∗ (∃ r, prngReg c r)) ∗ Pipeline.ΦT pre0 (admL).1 c) := rfl
theorem PhiS_pos (c : Dev nD) (n : ℕ) (h : n ≤ cfgL.N) (hz : n ≠ 0) :
    PhiS m c n h = iprop(iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) ∗ Pipeline.ΦT pre0 (admL).1 c) := by
  cases n with
  | zero => exact absurd rfl hz
  | succ n => rfl

/-! ## The proof data -/

def dats (_ : Fin 1) (c : Dev nD) : Dat τ (Elt 𝔽) Unit ℕ (UR sig nD τ) ℕ cfgL c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfgL.W) : (dats m 0 c).A w = V m c (Pipeline.arrRef spec0 w) := by
  dsimp only [dats]
theorem PhiS_castSucc (c : Dev nD) (t : Fin cfgL.N) :
    (dats m 0 c).Φ t.castSucc = PhiS m c t.val (Nat.le_of_lt t.isLt) := by
  dsimp only [dats]; simp only [Fin.coe_castSucc]
theorem after0_0 (c : Dev nD) (t : Fin cfgL.N) : (dats m 0 c).after 0 t = iblk m c 0 t := by dsimp only [dats]
theorem after0_1 (c : Dev nD) (t : Fin cfgL.N) : (dats m 0 c).after 1 t = iblk m c 1 t := by dsimp only [dats]
theorem after0_2 (c : Dev nD) (t : Fin cfgL.N) : (dats m 0 c).after 2 t = iblk m c 2 t := by dsimp only [dats]
theorem after0_3 (c : Dev nD) (t : Fin cfgL.N) : (dats m 0 c).after 3 t = (outsAt0 m c t.val t.isLt).1 := by dsimp only [dats]
theorem before0_0 (c : Dev nD) (t : Fin cfgL.N) (d) : (dats m 0 c).before 0 t d = iblk m c 0 t :=
  before0_0_of m (dats m 0 c) (A_eq m c 0) (after0_0 m c) t d
theorem before0_1 (c : Dev nD) (t : Fin cfgL.N) (d) : (dats m 0 c).before 1 t d = iblk m c 1 t :=
  before0_1_of m (dats m 0 c) (A_eq m c 1) (after0_1 m c) t d
theorem before0_2 (c : Dev nD) (t : Fin cfgL.N) (d) : (dats m 0 c).before 2 t d = iblk m c 2 t :=
  before0_2_of m (dats m 0 c) (A_eq m c 2) (after0_2 m c) t d

end Cert.KernelIdeal.Fr

end
-- ==== Proof.KI.Body.lean ====
/-
  The body's obligation at every grid point and the run of the whole program: at each point the case's run applies —
  the inputs' staging buffers hold their blocks, the invariant hands over the accumulators (at anything before a
  reset, at what the point before left otherwise) and takes them back at this point's contents —, and the program
  around the region ends with every argument array as it was.
-/
import proofs.«420449_j45973329936664_3_alg».proof.Proof.KI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

theorem admL_1 : (admL).1 = litTbl (F := 𝔽) := rfl

/-- What the body is called with at point `t`, -/
def bodyPre (c : Dev nD) (t : Fin cfgL.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfgL.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfgL.N) :
    bodyPre m c t ⊢ wp frame (wpE (defs₀ (F := 𝔽)) Variants.none c none) Set.univ (bodyAt0 admL t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hN : t.val < 192 := lt_of_lt_of_eq t.isLt N_L
  by_cases hA : t.val % 6 = 0
  ·
    rw [Dat.leavesExact_idle (dats m 0 c) 3 t (idleAt0_3 t (by omega)) (noFlush0_3 t (by omega))]
    rw [outsAt0_A m c t hA]
    unfold sout0_A_0 sout0_A_1; (try dsimp only)
    by_cases hz : t.val = 0
    ·
      rw [PhiS_castSucc m c t, PhiS_zero m c _ _ hz, PhiA0_eq, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runA m c t hA).2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      isplitl [HT3]; · iexact HT3
      iintro ⟨H0, H1, H2, H3, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_A_0 m c t hA)
            · unfold owns; iexists _; isplitr
              swap; · iexact HS1
              ipureintro; exact View.read_writes_of_cover _ _ _ _ _ (scover0_A_1 m c t hA)
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      iexists _; iexact H3
    ·
      rw [PhiS_castSucc m c t, PhiS_pos m c _ _ hz, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runA m c t hA).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HT0]; · iexact HT0
      isplitl [HT1]; · iexact HT1
      isplitl [HT2]; · iexact HT2
      isplitl [HT3]; · iexact HT3
      iintro ⟨H0, H1, H2, H3, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_A_0 m c t hA)
            · unfold owns; iexists _; isplitr
              swap; · iexact HS1
              ipureintro; exact View.read_writes_of_cover _ _ _ _ _ (scover0_A_1 m c t hA)
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      iexists _; iexact H3

  by_cases hC : t.val % 6 = 2
  ·
    rw [Dat.leavesExact_idle (dats m 0 c) 3 t (idleAt0_3 t (by omega)) (noFlush0_3 t (by omega))]
    rw [outsAt0_C m c t hC]
    unfold sout0_C_0 sout0_C_1; (try dsimp only)
    by_cases hz : t.val = 0
    · exfalso; omega
    ·
      rw [PhiS_castSucc m c t, PhiS_pos m c _ _ hz, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runC m c t hC).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HT0]; · iexact HT0
      isplitl [HT1]; · iexact HT1
      isplitl [HT2]; · iexact HT2
      isplitl [HT3]; · iexact HT3
      iintro ⟨H0, H1, H2, H3, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_C_0 m c t hC)
            · unfold owns; iexists _; isplitr
              swap; · iexact HS1
              ipureintro; exact View.read_writes_of_cover _ _ _ _ _ (scover0_C_1 m c t hC)
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      iexists _; iexact H3

  by_cases hB : (t.val % 6 = 1 ∨ t.val % 6 = 5)
  ·
    rw [show (dats m 0 c).leavesExact 3 t = owns (c : Thread nD τ) (ms0_3 t) fullShare ((dats m 0 c).after 3 t) from by
        unfold Dat.leavesExact; rw [liveAt0_3 t hB], after0_3]
    rw [outsAt0_B m c t hB]
    unfold out0_B_3 sout0_B_0 sout0_B_1; (try dsimp only)
    by_cases hz : t.val = 0
    · exfalso; omega
    ·
      rw [PhiS_castSucc m c t, PhiS_pos m c _ _ hz, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runB m c t hB (prev0 m c t) (prev1 m c t)).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      isplitl [HT1]; · iexact HT1
      isplitl [HT2]; · iexact HT2
      isplitl [HT3]; · iexact HT3
      iintro ⟨H0, H1, H2, ⟨%e3, H3⟩, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_B_0 m c t hB (prev0 m c t) (prev1 m c t))
            · unfold owns; iexists _; isplitr
              swap; · iexact HS1
              ipureintro; exact View.read_writes_of_cover _ _ _ _ _ (scover0_B_1 m c t hB (prev0 m c t) (prev1 m c t))
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 m c t hB (prev0 m c t) (prev1 m c t))

  by_cases hD : t.val % 6 = 3
  ·
    rw [Dat.leavesExact_idle (dats m 0 c) 3 t (idleAt0_3 t (by omega)) (noFlush0_3 t (by omega))]
    rw [outsAt0_D m c t hD]
    unfold sout0_D_0 sout0_D_1; (try dsimp only)
    by_cases hz : t.val = 0
    · exfalso; omega
    ·
      rw [PhiS_castSucc m c t, PhiS_pos m c _ _ hz, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runD m c t hD (prev0 m c t) (prev1 m c t)).2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      isplitl [HT3]; · iexact HT3
      iintro ⟨H0, H1, H2, H3, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_D_0 m c t hD (prev0 m c t) (prev1 m c t))
            · unfold owns; iexists _; isplitr
              swap; · iexact HS1
              ipureintro; exact View.read_writes_of_cover _ _ _ _ _ (scover0_D_1 m c t hD (prev0 m c t) (prev1 m c t))
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      iexists _; iexact H3

  by_cases hE : t.val % 6 = 4
  swap
  · exfalso; omega
  ·
    rw [Dat.leavesExact_idle (dats m 0 c) 3 t (idleAt0_3 t (by omega)) (noFlush0_3 t (by omega))]
    rw [outsAt0_E m c t hE]
    unfold sout0_E_0 sout0_E_1; (try dsimp only)
    by_cases hz : t.val = 0
    · exfalso; omega
    ·
      rw [PhiS_castSucc m c t, PhiS_pos m c _ _ hz, admL_1, PhiT0_eq]
      iintro ⟨⟨⟨⟨HS0, HS1⟩, Hg⟩, ⟨HT0, HT1, HT2, HT3⟩⟩, Ho, ⟨%d0, H0⟩, ⟨%d1, H1⟩, ⟨%d2, H2⟩, ⟨%d3, H3⟩⟩
      iapply ((runE m c t hE (prev0 m c t) (prev1 m c t)).2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      isplitl [HT3]; · iexact HT3
      iintro ⟨H0, H1, H2, H3, ⟨%es0, HS0⟩, ⟨%es1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_E_0 m c t hE (prev0 m c t) (prev1 m c t))
            · unfold owns; iexists _; isplitr
              swap; · iexact HS1
              ipureintro; exact View.read_writes_of_cover _ _ _ _ _ (scover0_E_1 m c t hE (prev0 m c t) (prev1 m c t))
          · iexact Hg
        · isplitl [HT0]; · iexact HT0
          isplitl [HT1]; · iexact HT1
          isplitl [HT2]; · iexact HT2
          iexact HT3
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats m 0 c) (defs₀ (F := 𝔽)) Variants.none () Set.univ := fun t => by
  rw [bigSep_W0, bigSep_W0]
  exact sound_body m c t

/-- What the launch hands the region is the invariant before the first point. -/
theorem hin (c : Dev nD) : iprop(Pipeline.ΦA spec0 c ∗ Pipeline.ΦT pre0 (admL).1 c) ⊢ (dats m 0 c).Φ 0 := by
  rw [show (dats m 0 c).Φ 0 = PhiS m c 0 (Nat.zero_le _) from rfl, PhiS_zero m c 0 _ rfl]
  try exact Idealize.SL.BI.Entails.refl _

/-- After the last point the accumulators' contents are forgotten and the tables' halves let go. -/
theorem hout (c : Dev nD) : (dats m 0 c).Φ (Fin.last cfgL.N) ⊢ Pipeline.ΦA spec0 c := by
  rw [show (dats m 0 c).Φ (Fin.last cfgL.N) = PhiS m c (Fin.last cfgL.N).val (Nat.le_of_lt_succ (Fin.last cfgL.N).isLt) from rfl,
    PhiS_pos m c _ _ (by rw [Fin.val_last]; have : cfgL.N = 192 := N_L; omega), PhiA0_eq]
  iintro ⟨⟨⟨HS0, HS1⟩, Hg⟩, -⟩
  isplitl [HS0 HS1]
  · isplitl [HS0]
    · iexists _; iexact HS0
    · iexists _; iexact HS1
  iexact Hg

/-! ## The run and the frame -/

set_option backward.isDefEq.respectTransparency.types false in
/-- Every weakly fair execution of the program ends, nothing faulting, with the result array of the region at what the
    write-backs leave in it, the final buffer at its reshape, and every other buffer as the host operations left it. -/
theorem run_main : θ_run defs (onTc (τ := τ) (main (F := 𝔽))) (s₀ m ρ)
    (Pipeline.FramePost (Pipeline.pin pcfgs fun _ => admL) (dats m) 0 (Pipeline.afterTail pcfgs (fun _ => admL) (dats m) 0 (V0 m) [hostOps1])) :=
  Pipeline.θ_run_frameP_around_track pcfgs (fun _ => admL) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_preL m) (hin := hin m) (hout := hout m)

end Cert.KernelIdeal.Fr

end
-- ==== Proof.KI.Claim.lean ====
/-
  The frame claim of the program: the run ends, nothing faulting, and the three argument arrays are unchanged — no
  window writes them, and the one host operation after the region writes only the final buffer.
-/
import proofs.«420449_j45973329936664_3_alg».proof.Proof.KI.Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

theorem tail_arg0 (c : Dev nD) : Pipeline.afterTail pcfgs (fun _ => admL) (dats m) 0 (V0 m) [hostOps1] c main_arg0 = m ((c : Thread nD τ).loc main_arg0) := by
  unfold Pipeline.afterTail
  show StableHlo.after hostOps1 _ (Proc.devRef .tc main_arg0) = _
  after_results
  rw [Pipeline.withArrays_of_ne spec0 c (V0 m c) _ main_arg0 (fun w => by fin_cases w <;> decide)]
  show StableHlo.after hostOps0 (fun b => m (c, b)) (Proc.devRef .tc main_arg0) = _
  after_results
  try rfl
theorem tail_arg1 (c : Dev nD) : Pipeline.afterTail pcfgs (fun _ => admL) (dats m) 0 (V0 m) [hostOps1] c main_arg1 = m ((c : Thread nD τ).loc main_arg1) := by
  unfold Pipeline.afterTail
  show StableHlo.after hostOps1 _ (Proc.devRef .tc main_arg1) = _
  after_results
  rw [Pipeline.withArrays_of_ne spec0 c (V0 m c) _ main_arg1 (fun w => by fin_cases w <;> decide)]
  show StableHlo.after hostOps0 (fun b => m (c, b)) (Proc.devRef .tc main_arg1) = _
  after_results
  try rfl
theorem tail_arg2 (c : Dev nD) : Pipeline.afterTail pcfgs (fun _ => admL) (dats m) 0 (V0 m) [hostOps1] c main_arg2 = m ((c : Thread nD τ).loc main_arg2) := by
  unfold Pipeline.afterTail
  show StableHlo.after hostOps1 _ (Proc.devRef .tc main_arg2) = _
  after_results
  rw [Pipeline.withArrays_of_ne spec0 c (V0 m c) _ main_arg2 (fun w => by fin_cases w <;> decide)]
  show StableHlo.after hostOps0 (fun b => m (c, b)) (Proc.devRef .tc main_arg2) = _
  after_results
  try rfl

/-- THE FRAME. -/
theorem frame : θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (tail_arg0 m c),
      ((h c).2 main_arg1 (by decide : main_arg1 ∈ Pipeline.restRefs sig spec0)).trans (tail_arg1 m c),
      ((h c).2 main_arg2 (by decide : main_arg2 ∈ Pipeline.restRefs sig spec0)).trans (tail_arg2 m c)⟩) (run_main m ρ)

end Cert.KernelIdeal.Fr

end
-- ==== Proof.KI.Names.lean ====
/-
  Names for what a grid point works on: its q, k and v blocks at their literal types, and the two table words that
  place its tile.
-/
import proofs.«420449_j45973329936664_3_alg».proof.Proof.KI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

/-- The point's q, k and v blocks at their literal types, and the two table words that place the tile. -/
abbrev qblk (c : Dev nD) (t : Fin cfgL.N) : Vec 𝔽 S1x1024x64 .bf16 := iblk m c 0 t
abbrev kblk (c : Dev nD) (t : Fin cfgL.N) : Vec 𝔽 S1x512x64 .bf16 := iblk m c 1 t
abbrev vblk (c : Dev nD) (t : Fin cfgL.N) : Vec 𝔽 S1x512x64 .bf16 := iblk m c 2 t
abbrev wq (c : Dev nD) (t : Fin cfgL.N) : BitVec 32 := word (F := 𝔽) c (grid0.coords t) tbM0_0 (litTbl 0)
abbrev wk (c : Dev nD) (t : Fin cfgL.N) : BitVec 32 := word (F := 𝔽) c (grid0.coords t) tbM0_1 (litTbl 1)

end Cert.KernelIdeal.Fr

end
-- ==== Proof.KI.Pieces.lean ====
/-
  What each case of the body leaves in the accumulators and in the output block, as the body's arithmetic applied to
  the point's blocks: the run's stores read back are the named payloads — a reset case adds its tile's sums to zeros,
  the others to what the point before left; the stored quotient is numerator over normalizer plus ε of the
  accumulators just updated.
-/
import proofs.«420449_j45973329936664_3_alg».proof.Proof.KI.Names
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

/-! ## The pieces of each run, for any run of the body

Stated once per case over arbitrary staging memrefs, contents and table buffers, through any view of the stored shape:
every store of the body is through the whole-shape rectangle at offset zero, so the last store's payload is what
is read back, a load of an input buffer reads the contents handed in, and a load of an accumulator after a store in
the same run reads that store's payload. -/

/-- The stores' and loads' offsets are zero on every axis. -/
theorem zero_off2 : (![0, 0] : Fin 2 → ℕ) = fun _ => 0 := by funext a; fin_cases a <;> rfl
theorem zero_off3 : (![0, 0, 0] : Fin 3 → ℕ) = fun _ => 0 := by funext a; fin_cases a <;> rfl

section Generic

variable {F : FTy → Type} [FloatOps F]
variable (c : Dev nD) (i : grid0.Coords)
  (arg6 : Memref sig .tc .vmem S1x1024x64 .bf16) (harg6 : arg6.IsWhole) (arg7 : Memref sig .tc .vmem S1x512x64 .bf16) (harg7 : arg7.IsWhole)
  (arg8 : Memref sig .tc .vmem S1x512x64 .bf16) (harg8 : arg8.IsWhole) (arg9 : Memref sig .tc .vmem S1x1024x64 .bf16) (harg9 : arg9.IsWhole)
  (arg10 : Memref sig .tc .vmem S1024x64 .f32) (harg10 : arg10.IsWhole) (arg11 : Memref sig .tc .vmem S1024x1 .f32) (harg11 : arg11.IsWhole)
  (x0 : Vec F S1x1024x64 .bf16) (x1 : Vec F S1x512x64 .bf16) (x2 : Vec F S1x512x64 .bf16)
  (xt0 : TbBuf0 (F := F) c tbM0_0) (xt1 : TbBuf0 (F := F) c tbM0_1) (xt2 : TbBuf0 (F := F) c tbM0_2) (xt3 : TbBuf0 (F := F) c tbM0_3)

/-! Case A: the accumulators are reset, the tile is masked, no quotient is stored. Each accumulator gets two stores, the zeros and then the update, and the update's load reads the zeros back. -/
section CaseA
variable (hc0 : cond0_0 (word c i tbM0_1 xt1)) (hc1 : cond0_1 (word c i tbM0_2 xt2)) (hc2 : ¬cond0_2 (word c i tbM0_2 xt2)) (hc3 : ¬cond0_3 (word c i tbM0_3 xt3))

/-- Case A, numerator: the zeros just stored are read back and the masked tile's product with v added. -/
theorem pieceA_0 (v : View sig .tc .vmem S1024x64 .f32) :
    v.read (Elt F) (v.writes (Elt F) v.junk (kernelRun0_A c i arg6 harg6 arg7 harg7 arg8 harg8 arg9 harg9 arg10 harg10 arg11 harg11 x0 x1 x2 xt0 xt1 xt2 xt3 hc0 hc1 hc2 hc3).1)
      = k0_pay6 (F := F) (word c i tbM0_0 xt0) (word c i tbM0_1 xt1) x0 x1 (k0_pay1 (F := F)) x2 := by
  rw [View.read_writes_junk_eq_canon]
  unfold kernelRun0_A
  dsimp only
  sl_unfold_words
  rw [View.canon_cons_unit_zero (S := S1024x64) zero_off2]
  simp only [View.readAt_eq_ld, harg6.read_unread, harg7.read_unread, harg8.read_unread, harg10.read_unread, harg11.read_unread,
    View.ld_unit_zero (S := S1x1024x64) zero_off3, View.ld_unit_zero (S := S1x512x64) zero_off3,
    View.ld_unit_zero (S := S1024x64) zero_off2, View.ld_unit_zero (S := S1024x1) zero_off2,
    View.readCov_unit_zero (S := S1024x64) _ zero_off2, View.readCov_unit_zero (S := S1024x1) _ zero_off2]
  rfl

/-- Case A, normalizer: the zeros just stored are read back and the masked tile's row sums added. -/
theorem pieceA_1 (v : View sig .tc .vmem S1024x1 .f32) :
    v.read (Elt F) (v.writes (Elt F) v.junk (kernelRun0_A c i arg6 harg6 arg7 harg7 arg8 harg8 arg9 harg9 arg10 harg10 arg11 harg11 x0 x1 x2 xt0 xt1 xt2 xt3 hc0 hc1 hc2 hc3).2.1)
      = k0_pay5 (F := F) (word c i tbM0_0 xt0) (word c i tbM0_1 xt1) x0 x1 (k0_pay2 (F := F)) := by
  rw [View.read_writes_junk_eq_canon]
  unfold kernelRun0_A
  dsimp only
  sl_unfold_words
  rw [View.canon_cons_unit_zero (S := S1024x1) zero_off2]
  simp only [View.readAt_eq_ld, harg6.read_unread, harg7.read_unread, harg8.read_unread, harg10.read_unread, harg11.read_unread,
    View.ld_unit_zero (S := S1x1024x64) zero_off3, View.ld_unit_zero (S := S1x512x64) zero_off3,
    View.ld_unit_zero (S := S1024x64) zero_off2, View.ld_unit_zero (S := S1024x1) zero_off2,
    View.readCov_unit_zero (S := S1024x64) _ zero_off2, View.readCov_unit_zero (S := S1024x1) _ zero_off2]
  rfl

end CaseA

/-! Case B: the accumulators are carried, the tile is masked, the quotient is stored. Each accumulator gets one store; the quotient's loads read the two updates back. -/
section CaseB
variable (xs0 : Vec F S1024x64 .f32) (xs1 : Vec F S1024x1 .f32)
  (hc0 : ¬cond0_0 (word c i tbM0_1 xt1)) (hc1 : cond0_1 (word c i tbM0_2 xt2)) (hc2 : ¬cond0_2 (word c i tbM0_2 xt2)) (hc3 : cond0_3 (word c i tbM0_3 xt3))

/-- Case B, numerator: the masked tile's product with v added to the contents handed in. -/
theorem pieceB_0 (v : View sig .tc .vmem S1024x64 .f32) :
    v.read (Elt F) (v.writes (Elt F) v.junk (kernelRun0_B c i arg6 harg6 arg7 harg7 arg8 harg8 arg9 harg9 arg10 harg10 arg11 harg11 x0 x1 x2 xs0 xs1 xt0 xt1 xt2 xt3 hc0 hc1 hc2 hc3).2.1)
      = k0_pay6 (F := F) (word c i tbM0_0 xt0) (word c i tbM0_1 xt1) x0 x1 xs0 x2 := by
  rw [View.read_writes_junk_eq_canon]
  unfold kernelRun0_B
  dsimp only
  sl_unfold_words
  rw [View.canon_cons_unit_zero (S := S1024x64) zero_off2]
  simp only [View.readAt_eq_ld, harg6.read_unread, harg7.read_unread, harg8.read_unread, harg10.read_unread, harg11.read_unread,
    View.ld_unit_zero (S := S1x1024x64) zero_off3, View.ld_unit_zero (S := S1x512x64) zero_off3,
    View.ld_unit_zero (S := S1024x64) zero_off2, View.ld_unit_zero (S := S1024x1) zero_off2,
    View.readCov_unit_zero (S := S1024x64) _ zero_off2, View.readCov_unit_zero (S := S1024x1) _ zero_off2]
  rfl

/-- Case B, normalizer: the masked tile's row sums added to the contents handed in. -/
theorem pieceB_1 (v : View sig .tc .vmem S1024x1 .f32) :
    v.read (Elt F) (v.writes (Elt F) v.junk (kernelRun0_B c i arg6 harg6 arg7 harg7 arg8 harg8 arg9 harg9 arg10 harg10 arg11 harg11 x0 x1 x2 xs0 xs1 xt0 xt1 xt2 xt3 hc0 hc1 hc2 hc3).2.2.1)
      = k0_pay5 (F := F) (word c i tbM0_0 xt0) (word c i tbM0_1 xt1) x0 x1 xs1 := by
  rw [View.read_writes_junk_eq_canon]
  unfold kernelRun0_B
  dsimp only
  sl_unfold_words
  rw [View.canon_cons_unit_zero (S := S1024x1) zero_off2]
  simp only [View.readAt_eq_ld, harg6.read_unread, harg7.read_unread, harg8.read_unread, harg10.read_unread, harg11.read_unread,
    View.ld_unit_zero (S := S1x1024x64) zero_off3, View.ld_unit_zero (S := S1x512x64) zero_off3,
    View.ld_unit_zero (S := S1024x64) zero_off2, View.ld_unit_zero (S := S1024x1) zero_off2,
    View.readCov_unit_zero (S := S1024x64) _ zero_off2, View.readCov_unit_zero (S := S1024x1) _ zero_off2]
  rfl

/-- Case B, output block: the quotient of the two accumulators just updated, read back. -/
theorem pieceB_3 (v : View sig .tc .vmem S1x1024x64 .bf16) :
    v.read (Elt F) (v.writes (Elt F) v.junk (kernelRun0_B c i arg6 harg6 arg7 harg7 arg8 harg8 arg9 harg9 arg10 harg10 arg11 harg11 x0 x1 x2 xs0 xs1 xt0 xt1 xt2 xt3 hc0 hc1 hc2 hc3).1)
      = k0_pay9 (F := F) (k0_pay6 (F := F) (word c i tbM0_0 xt0) (word c i tbM0_1 xt1) x0 x1 xs0 x2) (k0_pay5 (F := F) (word c i tbM0_0 xt0) (word c i tbM0_1 xt1) x0 x1 xs1) := by
  rw [View.read_writes_junk_eq_canon]
  unfold kernelRun0_B
  dsimp only
  sl_unfold_words
  rw [View.canon_cons_unit_zero (S := S1x1024x64) zero_off3]
  simp only [View.readAt_eq_ld, harg6.read_unread, harg7.read_unread, harg8.read_unread, harg10.read_unread, harg11.read_unread,
    View.ld_unit_zero (S := S1x1024x64) zero_off3, View.ld_unit_zero (S := S1x512x64) zero_off3,
    View.ld_unit_zero (S := S1024x64) zero_off2, View.ld_unit_zero (S := S1024x1) zero_off2,
    View.readCov_unit_zero (S := S1024x64) _ zero_off2, View.readCov_unit_zero (S := S1024x1) _ zero_off2]
  rfl

end CaseB

/-! Case C: the accumulators are reset, the tile is not masked, no quotient is stored. -/
section CaseC
variable (hc0 : cond0_0 (word c i tbM0_1 xt1)) (hc1 : ¬cond0_1 (word c i tbM0_2 xt2)) (hc2 : cond0_2 (word c i tbM0_2 xt2)) (hc3 : ¬cond0_3 (word c i tbM0_3 xt3))

/-- Case C, numerator: the zeros just stored are read back and the unmasked tile's product with v added. -/
theorem pieceC_0 (v : View sig .tc .vmem S1024x64 .f32) :
    v.read (Elt F) (v.writes (Elt F) v.junk (kernelRun0_C c i arg6 harg6 arg7 harg7 arg8 harg8 arg9 harg9 arg10 harg10 arg11 harg11 x0 x1 x2 xt0 xt1 xt2 xt3 hc0 hc1 hc2 hc3).1)
      = k0_pay8 (F := F) x0 x1 (k0_pay1 (F := F)) x2 := by
  rw [View.read_writes_junk_eq_canon]
  unfold kernelRun0_C
  dsimp only
  sl_unfold_words
  rw [View.canon_cons_unit_zero (S := S1024x64) zero_off2]
  simp only [View.readAt_eq_ld, harg6.read_unread, harg7.read_unread, harg8.read_unread, harg10.read_unread, harg11.read_unread,
    View.ld_unit_zero (S := S1x1024x64) zero_off3, View.ld_unit_zero (S := S1x512x64) zero_off3,
    View.ld_unit_zero (S := S1024x64) zero_off2, View.ld_unit_zero (S := S1024x1) zero_off2,
    View.readCov_unit_zero (S := S1024x64) _ zero_off2, View.readCov_unit_zero (S := S1024x1) _ zero_off2]

/-- Case C, normalizer: the zeros just stored are read back and the unmasked tile's row sums added. -/
theorem pieceC_1 (v : View sig .tc .vmem S1024x1 .f32) :
    v.read (Elt F) (v.writes (Elt F) v.junk (kernelRun0_C c i arg6 harg6 arg7 harg7 arg8 harg8 arg9 harg9 arg10 harg10 arg11 harg11 x0 x1 x2 xt0 xt1 xt2 xt3 hc0 hc1 hc2 hc3).2.1)
      = k0_pay7 (F := F) x0 x1 (k0_pay2 (F := F)) := by
  rw [View.read_writes_junk_eq_canon]
  unfold kernelRun0_C
  dsimp only
  sl_unfold_words
  rw [View.canon_cons_unit_zero (S := S1024x1) zero_off2]
  simp only [View.readAt_eq_ld, harg6.read_unread, harg7.read_unread, harg8.read_unread, harg10.read_unread, harg11.read_unread,
    View.ld_unit_zero (S := S1x1024x64) zero_off3, View.ld_unit_zero (S := S1x512x64) zero_off3,
    View.ld_unit_zero (S := S1024x64) zero_off2, View.ld_unit_zero (S := S1024x1) zero_off2,
    View.readCov_unit_zero (S := S1024x64) _ zero_off2, View.readCov_unit_zero (S := S1024x1) _ zero_off2]

end CaseC

/-! Case D: the accumulators are carried, the tile is not masked, no quotient is stored. -/
section CaseD
variable (xs0 : Vec F S1024x64 .f32) (xs1 : Vec F S1024x1 .f32)
  (hc0 : ¬cond0_0 (word c i tbM0_1 xt1)) (hc1 : ¬cond0_1 (word c i tbM0_2 xt2)) (hc2 : cond0_2 (word c i tbM0_2 xt2)) (hc3 : ¬cond0_3 (word c i tbM0_3 xt3))

/-- Case D, numerator: the unmasked tile's product with v added to the contents handed in. -/
theorem pieceD_0 (v : View sig .tc .vmem S1024x64 .f32) :
    v.read (Elt F) (v.writes (Elt F) v.junk (kernelRun0_D c i arg6 harg6 arg7 harg7 arg8 harg8 arg9 harg9 arg10 harg10 arg11 harg11 x0 x1 x2 xs0 xs1 xt0 xt1 xt2 xt3 hc0 hc1 hc2 hc3).1)
      = k0_pay8 (F := F) x0 x1 xs0 x2 := by
  rw [View.read_writes_junk_eq_canon]
  unfold kernelRun0_D
  dsimp only
  sl_unfold_words
  rw [View.canon_cons_unit_zero (S := S1024x64) zero_off2]
  simp only [View.readAt_eq_ld, harg6.read_unread, harg7.read_unread, harg8.read_unread, harg10.read_unread, harg11.read_unread,
    View.ld_unit_zero (S := S1x1024x64) zero_off3, View.ld_unit_zero (S := S1x512x64) zero_off3,
    View.ld_unit_zero (S := S1024x64) zero_off2, View.ld_unit_zero (S := S1024x1) zero_off2,
    View.readCov_unit_zero (S := S1024x64) _ zero_off2, View.readCov_unit_zero (S := S1024x1) _ zero_off2]

/-- Case D, normalizer: the unmasked tile's row sums added to the contents handed in. -/
theorem pieceD_1 (v : View sig .tc .vmem S1024x1 .f32) :
    v.read (Elt F) (v.writes (Elt F) v.junk (kernelRun0_D c i arg6 harg6 arg7 harg7 arg8 harg8 arg9 harg9 arg10 harg10 arg11 harg11 x0 x1 x2 xs0 xs1 xt0 xt1 xt2 xt3 hc0 hc1 hc2 hc3).2.1)
      = k0_pay7 (F := F) x0 x1 xs1 := by
  rw [View.read_writes_junk_eq_canon]
  unfold kernelRun0_D
  dsimp only
  sl_unfold_words
  rw [View.canon_cons_unit_zero (S := S1024x1) zero_off2]
  simp only [View.readAt_eq_ld, harg6.read_unread, harg7.read_unread, harg8.read_unread, harg10.read_unread, harg11.read_unread,
    View.ld_unit_zero (S := S1x1024x64) zero_off3, View.ld_unit_zero (S := S1x512x64) zero_off3,
    View.ld_unit_zero (S := S1024x64) zero_off2, View.ld_unit_zero (S := S1024x1) zero_off2,
    View.readCov_unit_zero (S := S1024x64) _ zero_off2, View.readCov_unit_zero (S := S1024x1) _ zero_off2]

end CaseD

/-! Case E: the accumulators are carried, the tile is masked, no quotient is stored. -/
section CaseE
variable (xs0 : Vec F S1024x64 .f32) (xs1 : Vec F S1024x1 .f32)
  (hc0 : ¬cond0_0 (word c i tbM0_1 xt1)) (hc1 : cond0_1 (word c i tbM0_2 xt2)) (hc2 : ¬cond0_2 (word c i tbM0_2 xt2)) (hc3 : ¬cond0_3 (word c i tbM0_3 xt3))

/-- Case E, numerator: the masked tile's product with v added to the contents handed in. -/
theorem pieceE_0 (v : View sig .tc .vmem S1024x64 .f32) :
    v.read (Elt F) (v.writes (Elt F) v.junk (kernelRun0_E c i arg6 harg6 arg7 harg7 arg8 harg8 arg9 harg9 arg10 harg10 arg11 harg11 x0 x1 x2 xs0 xs1 xt0 xt1 xt2 xt3 hc0 hc1 hc2 hc3).1)
      = k0_pay6 (F := F) (word c i tbM0_0 xt0) (word c i tbM0_1 xt1) x0 x1 xs0 x2 := by
  rw [View.read_writes_junk_eq_canon]
  unfold kernelRun0_E
  dsimp only
  sl_unfold_words
  rw [View.canon_cons_unit_zero (S := S1024x64) zero_off2]
  simp only [View.readAt_eq_ld, harg6.read_unread, harg7.read_unread, harg8.read_unread, harg10.read_unread, harg11.read_unread,
    View.ld_unit_zero (S := S1x1024x64) zero_off3, View.ld_unit_zero (S := S1x512x64) zero_off3,
    View.ld_unit_zero (S := S1024x64) zero_off2, View.ld_unit_zero (S := S1024x1) zero_off2,
    View.readCov_unit_zero (S := S1024x64) _ zero_off2, View.readCov_unit_zero (S := S1024x1) _ zero_off2]
  rfl

/-- Case E, normalizer: the masked tile's row sums added to the contents handed in. -/
theorem pieceE_1 (v : View sig .tc .vmem S1024x1 .f32) :
    v.read (Elt F) (v.writes (Elt F) v.junk (kernelRun0_E c i arg6 harg6 arg7 harg7 arg8 harg8 arg9 harg9 arg10 harg10 arg11 harg11 x0 x1 x2 xs0 xs1 xt0 xt1 xt2 xt3 hc0 hc1 hc2 hc3).2.1)
      = k0_pay5 (F := F) (word c i tbM0_0 xt0) (word c i tbM0_1 xt1) x0 x1 xs1 := by
  rw [View.read_writes_junk_eq_canon]
  unfold kernelRun0_E
  dsimp only
  sl_unfold_words
  rw [View.canon_cons_unit_zero (S := S1024x1) zero_off2]
  simp only [View.readAt_eq_ld, harg6.read_unread, harg7.read_unread, harg8.read_unread, harg10.read_unread, harg11.read_unread,
    View.ld_unit_zero (S := S1x1024x64) zero_off3, View.ld_unit_zero (S := S1x512x64) zero_off3,
    View.ld_unit_zero (S := S1024x64) zero_off2, View.ld_unit_zero (S := S1024x1) zero_off2,
    View.readCov_unit_zero (S := S1024x64) _ zero_off2, View.readCov_unit_zero (S := S1024x1) _ zero_off2]
  rfl

end CaseE

end Generic

/-! ## At a grid point

Each run of the frame is the body's run at the point's staging memrefs, blocks and literal tables: the statements below
are the lemmas above at those arguments. -/

theorem sout0_A_0_eq (c : Dev nD) (t : Fin cfgL.N) (h : t.val % 6 = 0) :
    sout0_A_0 m c t h = k0_pay6 (F := 𝔽) (wq c t) (wk c t) (qblk m c t) (kblk m c t) (k0_pay1 (F := 𝔽)) (vblk m c t) :=
  pieceA_0 (F := 𝔽) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (litTbl 0) (litTbl 1) (litTbl 2) (litTbl 3) (hcA0 c t h) (hcA1 c t h) (hcA2 c t h) (hcA3 c t h) VS0_0
theorem sout0_A_1_eq (c : Dev nD) (t : Fin cfgL.N) (h : t.val % 6 = 0) :
    sout0_A_1 m c t h = k0_pay5 (F := 𝔽) (wq c t) (wk c t) (qblk m c t) (kblk m c t) (k0_pay2 (F := 𝔽)) :=
  pieceA_1 (F := 𝔽) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (litTbl 0) (litTbl 1) (litTbl 2) (litTbl 3) (hcA0 c t h) (hcA1 c t h) (hcA2 c t h) (hcA3 c t h) VS0_1

theorem sout0_B_0_eq (c : Dev nD) (t : Fin cfgL.N) (h : (t.val % 6 = 1 ∨ t.val % 6 = 5)) (xs0 : Vec 𝔽 S1024x64 .f32) (xs1 : Vec 𝔽 S1024x1 .f32) :
    sout0_B_0 m c t h xs0 xs1 = k0_pay6 (F := 𝔽) (wq c t) (wk c t) (qblk m c t) (kblk m c t) xs0 (vblk m c t) :=
  pieceB_0 (F := 𝔽) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (litTbl 0) (litTbl 1) (litTbl 2) (litTbl 3) xs0 xs1 (hcB0 c t h) (hcB1 c t h) (hcB2 c t h) (hcB3 c t h) VS0_0
theorem sout0_B_1_eq (c : Dev nD) (t : Fin cfgL.N) (h : (t.val % 6 = 1 ∨ t.val % 6 = 5)) (xs0 : Vec 𝔽 S1024x64 .f32) (xs1 : Vec 𝔽 S1024x1 .f32) :
    sout0_B_1 m c t h xs0 xs1 = k0_pay5 (F := 𝔽) (wq c t) (wk c t) (qblk m c t) (kblk m c t) xs1 :=
  pieceB_1 (F := 𝔽) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (litTbl 0) (litTbl 1) (litTbl 2) (litTbl 3) xs0 xs1 (hcB0 c t h) (hcB1 c t h) (hcB2 c t h) (hcB3 c t h) VS0_1
theorem out0_B_3_eq (c : Dev nD) (t : Fin cfgL.N) (h : (t.val % 6 = 1 ∨ t.val % 6 = 5)) (xs0 : Vec 𝔽 S1024x64 .f32) (xs1 : Vec 𝔽 S1024x1 .f32) :
    out0_B_3 m c t h xs0 xs1 = k0_pay9 (F := 𝔽) (k0_pay6 (F := 𝔽) (wq c t) (wk c t) (qblk m c t) (kblk m c t) xs0 (vblk m c t)) (k0_pay5 (F := 𝔽) (wq c t) (wk c t) (qblk m c t) (kblk m c t) xs1) :=
  pieceB_3 (F := 𝔽) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (litTbl 0) (litTbl 1) (litTbl 2) (litTbl 3) xs0 xs1 (hcB0 c t h) (hcB1 c t h) (hcB2 c t h) (hcB3 c t h) VO0_3

theorem sout0_C_0_eq (c : Dev nD) (t : Fin cfgL.N) (h : t.val % 6 = 2) :
    sout0_C_0 m c t h = k0_pay8 (F := 𝔽) (qblk m c t) (kblk m c t) (k0_pay1 (F := 𝔽)) (vblk m c t) :=
  pieceC_0 (F := 𝔽) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (litTbl 0) (litTbl 1) (litTbl 2) (litTbl 3) (hcC0 c t h) (hcC1 c t h) (hcC2 c t h) (hcC3 c t h) VS0_0
theorem sout0_C_1_eq (c : Dev nD) (t : Fin cfgL.N) (h : t.val % 6 = 2) :
    sout0_C_1 m c t h = k0_pay7 (F := 𝔽) (qblk m c t) (kblk m c t) (k0_pay2 (F := 𝔽)) :=
  pieceC_1 (F := 𝔽) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (litTbl 0) (litTbl 1) (litTbl 2) (litTbl 3) (hcC0 c t h) (hcC1 c t h) (hcC2 c t h) (hcC3 c t h) VS0_1

theorem sout0_D_0_eq (c : Dev nD) (t : Fin cfgL.N) (h : t.val % 6 = 3) (xs0 : Vec 𝔽 S1024x64 .f32) (xs1 : Vec 𝔽 S1024x1 .f32) :
    sout0_D_0 m c t h xs0 xs1 = k0_pay8 (F := 𝔽) (qblk m c t) (kblk m c t) xs0 (vblk m c t) :=
  pieceD_0 (F := 𝔽) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (litTbl 0) (litTbl 1) (litTbl 2) (litTbl 3) xs0 xs1 (hcD0 c t h) (hcD1 c t h) (hcD2 c t h) (hcD3 c t h) VS0_0
theorem sout0_D_1_eq (c : Dev nD) (t : Fin cfgL.N) (h : t.val % 6 = 3) (xs0 : Vec 𝔽 S1024x64 .f32) (xs1 : Vec 𝔽 S1024x1 .f32) :
    sout0_D_1 m c t h xs0 xs1 = k0_pay7 (F := 𝔽) (qblk m c t) (kblk m c t) xs1 :=
  pieceD_1 (F := 𝔽) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (litTbl 0) (litTbl 1) (litTbl 2) (litTbl 3) xs0 xs1 (hcD0 c t h) (hcD1 c t h) (hcD2 c t h) (hcD3 c t h) VS0_1

theorem sout0_E_0_eq (c : Dev nD) (t : Fin cfgL.N) (h : t.val % 6 = 4) (xs0 : Vec 𝔽 S1024x64 .f32) (xs1 : Vec 𝔽 S1024x1 .f32) :
    sout0_E_0 m c t h xs0 xs1 = k0_pay6 (F := 𝔽) (wq c t) (wk c t) (qblk m c t) (kblk m c t) xs0 (vblk m c t) :=
  pieceE_0 (F := 𝔽) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (litTbl 0) (litTbl 1) (litTbl 2) (litTbl 3) xs0 xs1 (hcE0 c t h) (hcE1 c t h) (hcE2 c t h) (hcE3 c t h) VS0_0
theorem sout0_E_1_eq (c : Dev nD) (t : Fin cfgL.N) (h : t.val % 6 = 4) (xs0 : Vec 𝔽 S1024x64 .f32) (xs1 : Vec 𝔽 S1024x1 .f32) :
    sout0_E_1 m c t h xs0 xs1 = k0_pay5 (F := 𝔽) (wq c t) (wk c t) (qblk m c t) (kblk m c t) xs1 :=
  pieceE_1 (F := 𝔽) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (litTbl 0) (litTbl 1) (litTbl 2) (litTbl 3) xs0 xs1 (hcE0 c t h) (hcE1 c t h) (hcE2 c t h) (hcE3 c t h) VS0_1

end Cert.KernelIdeal.Fr

end
-- ==== Proof.Spec.lean ====
/-
  What both programs compute, as plain functions on the extended reals.

  One attention head has queries, keys and values q, k, v : [2048, 64]. The score of row r against column c is
  s(r, c) = (Σ_e q(r, e) · k(c, e)) / 8; its second-order Taylor weight is 1 + s + (s/2)·s, kept where c ≤ r and
  zero above the diagonal; a row's normalizer Z(r) is the sum of its weights, its numerator O(r, d) the
  weighted sum of v(c, d), and the result is O(r, d) / (Z(r) + ε).

  The kernel walks the causal triangle in tiles of 1024 rows by 512 columns and accumulates Z and O tile by tile
  (two tiles for rows 0‥1023, four for rows 1024‥2047); the tiles above the diagonal hold only zeros, and a sum of
  zeros is zero, so the tile-by-tile sums are the whole-row sums. The reference scales q by 1/8 before the dot
  product where the kernel scales the dot product: multiplying by a nonnegative finite constant distributes over
  a sum on the extended reals.
-/
import Idealize.ShloMosaic.PureOps.Ideal
import Idealize.ShloMosaic.Lib.ValueIdx
import Mathlib.Data.EReal.Operations
import Mathlib.Algebra.BigOperators.Fin
import Mathlib.Algebra.BigOperators.Group.Finset.Basic

noncomputable section

namespace Cert.Spec

open Idealize.ShloMosaic

/-- The five float constants of the two programs (the same words on both sides). -/
def c8 : EReal := Ideal.ofBits .f32 0x3E000000#32
def c1 : EReal := Ideal.ofBits .f32 0x3F800000#32
def ch : EReal := Ideal.ofBits .f32 0x3F000000#32
def c0 : EReal := Ideal.ofBits .f32 0x00000000#32
def ce : EReal := Ideal.ofBits .f32 0x358637BD#32

/-- The scale constant is the real 1/8. -/
theorem c8_eq : c8 = ((1 / 8 : ℝ) : EReal) := by
  simp [c8, Ideal.ofBits, Ideal.ieee, -EReal.coe_mul]; norm_num

theorem c0_eq : c0 = 0 := by
  simp [c0, Ideal.ofBits, Ideal.ieee]
theorem c8_nonneg : 0 ≤ c8 := by
  rw [c8_eq]; exact EReal.coe_nonneg.mpr (by norm_num)
theorem c8_ne_top : c8 ≠ ⊤ := by
  rw [c8_eq]; exact EReal.coe_ne_top _

/-- 1 + x + (x/2)·x, grouped as both programs group it. -/
def poly (x : EReal) : EReal := (c1 + x) + (ch * x) * x

section Head

variable (q k v : Fin 2048 → Fin 64 → EReal)

/-- The score as the kernel computes it: the dot product, then the scale. -/
def sck (r c : Fin 2048) : EReal := (∑ e : Fin 64, q r e * k c e) * c8
/-- The score as the reference computes it: q scaled, then the dot product. -/
def scr (r c : Fin 2048) : EReal := ∑ e : Fin 64, (q r e * c8) * k c e

theorem scr_eq_sck (r c : Fin 2048) : scr q k r c = sck q k r c := by
  unfold scr sck
  -- by induction on the index set: the scale moves out of each term by commutativity, and out of the sum
  -- because multiplying by a nonnegative finite constant distributes over addition
  have h : ∀ s : Finset (Fin 64), ∑ e ∈ s, (q r e * c8) * k c e = (∑ e ∈ s, q r e * k c e) * c8 := by
    intro s
    induction s using Finset.induction_on with
    | empty => simp
    | insert a s ha ih =>
      rw [Finset.sum_insert ha, Finset.sum_insert ha, ih,
        EReal.right_distrib_of_nonneg_of_ne_top c8_nonneg c8_ne_top]
      congr 1
      rw [mul_assoc, mul_comm c8, ← mul_assoc]
  exact h Finset.univ

/-- The causal weight. -/
def pm (r c : Fin 2048) : EReal := if c.val ≤ r.val then poly (sck q k r c) else c0

def zrow (r : Fin 2048) : EReal := ∑ c : Fin 2048, pm q k r c
def orow (r : Fin 2048) (d : Fin 64) : EReal := ∑ c : Fin 2048, pm q k r c * v c d
/-- One head's result. -/
def outh (r : Fin 2048) (d : Fin 64) : EReal := Ideal.div (orow q k v r d) (zrow q k r + ce)

/-- Row r of q-tile qi, column c' of k-tile ki. -/
def rowOf (qi : Fin 2) (r : Fin 1024) : Fin 2048 := ⟨qi.val * 1024 + r.val, by have := qi.isLt; have := r.isLt; omega⟩
def colOf (ki : Fin 4) (c : Fin 512) : Fin 2048 := ⟨ki.val * 512 + c.val, by have := ki.isLt; have := c.isLt; omega⟩

/-- One tile's contribution to a row's normalizer and numerator. -/
def tz (qi : Fin 2) (ki : Fin 4) (r : Fin 1024) : EReal := ∑ c : Fin 512, pm q k (rowOf qi r) (colOf ki c)
def tov (qi : Fin 2) (ki : Fin 4) (r : Fin 1024) (d : Fin 64) : EReal := ∑ c : Fin 512, pm q k (rowOf qi r) (colOf ki c) * v (colOf ki c) d

/-- In the two tiles wholly below the diagonal (q-tile 1 against k-tiles 0 and 1) every weight is kept. -/
theorem pm_below (ki : Fin 4) (hki : ki.val < 2) (r : Fin 1024) (c : Fin 512) :
    pm q k (rowOf 1 r) (colOf ki c) = poly (sck q k (rowOf 1 r) (colOf ki c)) := by
  unfold pm
  rw [if_pos]
  have := c.isLt
  simp only [rowOf, colOf, Fin.val_one]
  omega

/-- A sum over the 2048 columns is the sum of its four tiles of 512 columns. -/
theorem sum_tiles (f : Fin 2048 → EReal) :
    ∑ c : Fin 2048, f c =
      (((∑ c : Fin 512, f (colOf 0 c)) + ∑ c : Fin 512, f (colOf 1 c)) + ∑ c : Fin 512, f (colOf 2 c))
        + ∑ c : Fin 512, f (colOf 3 c) := by
  have h : ∑ p : Fin 4 × Fin 512, f (colOf p.1 p.2) = ∑ c : Fin 2048, f c := by
    refine Fintype.sum_equiv (finProdFinEquiv : Fin 4 × Fin 512 ≃ Fin (4 * 512)) _ _ ?_
    rintro ⟨a, b⟩
    congr 1
    apply Fin.ext
    simp only [colOf, finProdFinEquiv_apply_val]
    omega
  rw [← h, Fintype.sum_prod_type, Fin.sum_univ_four]

/-- For rows 0‥1023 the weights in k-tiles 2 and 3 (columns ≥ 1024) are the zero constant. -/
theorem pm_above (ki : Fin 4) (hki : 2 ≤ ki.val) (r : Fin 1024) (c : Fin 512) :
    pm q k (rowOf 0 r) (colOf ki c) = 0 := by
  unfold pm
  rw [if_neg, c0_eq]
  have := r.isLt
  simp only [rowOf, colOf, Fin.val_zero]
  omega

/-- The whole-row sums are the tile sums the kernel accumulates, in its order and from its zero. -/
theorem zrow_tile0 (r : Fin 1024) : zrow q k (rowOf 0 r) = (c0 + tz q k 0 0 r) + tz q k 0 1 r := by
  have h2 : tz q k 0 2 r = 0 := Finset.sum_eq_zero fun c _ => pm_above q k 2 (by decide) r c
  have h3 : tz q k 0 3 r = 0 := Finset.sum_eq_zero fun c _ => pm_above q k 3 (by decide) r c
  have h := sum_tiles (pm q k (rowOf 0 r))
  change zrow q k (rowOf 0 r) = ((tz q k 0 0 r + tz q k 0 1 r) + tz q k 0 2 r) + tz q k 0 3 r at h
  rw [h, h2, h3, c0_eq, zero_add, add_zero, add_zero]
theorem zrow_tile1 (r : Fin 1024) : zrow q k (rowOf 1 r) = (((c0 + tz q k 1 0 r) + tz q k 1 1 r) + tz q k 1 2 r) + tz q k 1 3 r := by
  have h := sum_tiles (pm q k (rowOf 1 r))
  change zrow q k (rowOf 1 r) = ((tz q k 1 0 r + tz q k 1 1 r) + tz q k 1 2 r) + tz q k 1 3 r at h
  rw [h, c0_eq, zero_add]
theorem orow_tile0 (r : Fin 1024) (d : Fin 64) : orow q k v (rowOf 0 r) d = (c0 + tov q k v 0 0 r d) + tov q k v 0 1 r d := by
  have h2 : tov q k v 0 2 r d = 0 :=
    Finset.sum_eq_zero fun c _ => by rw [pm_above q k 2 (by decide) r c, zero_mul]
  have h3 : tov q k v 0 3 r d = 0 :=
    Finset.sum_eq_zero fun c _ => by rw [pm_above q k 3 (by decide) r c, zero_mul]
  have h := sum_tiles (fun c => pm q k (rowOf 0 r) c * v c d)
  change orow q k v (rowOf 0 r) d
    = ((tov q k v 0 0 r d + tov q k v 0 1 r d) + tov q k v 0 2 r d) + tov q k v 0 3 r d at h
  rw [h, h2, h3, c0_eq, zero_add, add_zero, add_zero]
theorem orow_tile1 (r : Fin 1024) (d : Fin 64) :
    orow q k v (rowOf 1 r) d = (((c0 + tov q k v 1 0 r d) + tov q k v 1 1 r d) + tov q k v 1 2 r d) + tov q k v 1 3 r d := by
  have h := sum_tiles (fun c => pm q k (rowOf 1 r) c * v c d)
  change orow q k v (rowOf 1 r) d
    = ((tov q k v 1 0 r d + tov q k v 1 1 r d) + tov q k v 1 2 r d) + tov q k v 1 3 r d at h
  rw [h, c0_eq, zero_add]

end Head

/-- The [2, 16, 2048, 64] arrays head by head. -/
abbrev T4 : Shape := ⟨4, ![2, 16, 2048, 64]⟩
def head (x : T4.Idx → EReal) (b : Fin 2) (h : Fin 16) : Fin 2048 → Fin 64 → EReal := fun r e => x (ValueIdx.ix4 b h r e)

/-- THE RESULT: every head's quotient. -/
def G4 (x0 x1 x2 : T4.Idx → EReal) : T4.Idx → EReal := fun i =>
  outh (head x0 (i 0) (i 1)) (head x1 (i 0) (i 1)) (head x2 (i 0) (i 1)) (i 2) (i 3)

end Cert.Spec

end
-- ==== Proof.KI.Pay.lean ====
/-
  The body's arithmetic at one index, on the extended reals. From the q block x0 : [1, 1024, 64] and the k block
  x1 : [1, 512, 64] the body forms the tile's scores (x0 · x1ᵀ)/8 and their weights 1 + s + (s/2)·s; in a tile that
  straddles the diagonal it keeps the weight at (r, c) only where the tile's global column does not exceed its global row
  (the tile's position comes from the two table words); the normalizer accumulator gains the row sums of the weights, the
  numerator accumulator the weights times the v block x2 : [1, 512, 64]; the stored quotient is numerator over
  normalizer plus ε.
-/
import proofs.«420449_j45973329936664_3_alg».proof.Proof.Gen.KernelIdeal.Skeleton
import proofs.«420449_j45973329936664_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.Pay

open Cert.KernelIdeal Cert.KernelIdeal.Gen Cert.Spec
open Idealize.ShloMosaic Idealize.ShloMosaic.ValueIdx

/-! ## Layout operations of this body read at an index -/

/-- A vector [a] cast to a column [a, 1] reads, at (i, 0), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the operand's one entry of row p. -/
theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-! ## The two products read at an index -/

/-- The operand indices of the score product [1024, 64] × [64, 512] at result index j and contraction index q. -/
theorem lhs_qk_0 (j : S1024x512.Idx) (q : dot_S1024x64_S64x512_S1024x512_1_0_0_1_n_n.contr.Idx) :
    (dot_S1024x64_S64x512_S1024x512_1_0_0_1_n_n.lhsIdx j q 0).val = (j 0).val := by
  unfold DotDims.lhsIdx
  rw [dif_neg (show ¬(0 : Fin S1024x64.rank) ∈ dot_S1024x64_S64x512_S1024x512_1_0_0_1_n_n.lhsBatch by decide), dif_pos (show (0 : Fin S1024x64.rank) ∈ dot_S1024x64_S64x512_S1024x512_1_0_0_1_n_n.lhsNonContracting by decide)]
  rfl
theorem lhs_qk_1 (j : S1024x512.Idx) (q : dot_S1024x64_S64x512_S1024x512_1_0_0_1_n_n.contr.Idx) :
    (dot_S1024x64_S64x512_S1024x512_1_0_0_1_n_n.lhsIdx j q 1).val = (q ⟨0, by decide⟩).val :=
  dot_S1024x64_S64x512_S1024x512_1_0_0_1_n_n.lhsIdx_val_of_single rfl j q
theorem rhs_qk_0 (j : S1024x512.Idx) (q : dot_S1024x64_S64x512_S1024x512_1_0_0_1_n_n.contr.Idx) :
    (dot_S1024x64_S64x512_S1024x512_1_0_0_1_n_n.rhsIdx j q 0).val = (q ⟨0, by decide⟩).val :=
  dot_S1024x64_S64x512_S1024x512_1_0_0_1_n_n.rhsIdx_val_of_single rfl j q
theorem rhs_qk_1 (j : S1024x512.Idx) (q : dot_S1024x64_S64x512_S1024x512_1_0_0_1_n_n.contr.Idx) :
    (dot_S1024x64_S64x512_S1024x512_1_0_0_1_n_n.rhsIdx j q 1).val = (j 1).val := by
  unfold DotDims.rhsIdx
  rw [dif_neg (show ¬(1 : Fin S64x512.rank) ∈ dot_S1024x64_S64x512_S1024x512_1_0_0_1_n_n.rhsBatch by decide), dif_pos (show (1 : Fin S64x512.rank) ∈ dot_S1024x64_S64x512_S1024x512_1_0_0_1_n_n.rhsNonContracting by decide)]
  rfl

/-- The score product into a zero accumulator, at (r, c): the sum over e of the left operand at (r, e) times the right at (e, c). -/
theorem matmul_qk_apply (a : FVec Ideal S1024x64 .bf16) (b : FVec Ideal S64x512 .bf16) (r : Fin 1024) (c : Fin 512) :
    matmul dot_S1024x64_S64x512_S1024x512_1_0_0_1_n_n none a b (constant (F := Ideal) S1024x512 .f32 0x00000000#32) (ix2 r c)
      = ∑ e : Fin 64, a (ix2 r e) * b (ix2 e c) := by
  simp only [matmul]
  rw [Ideal.matmul_constant_zero_apply, ← Equiv.sum_comp (contrEquiv1 dot_S1024x64_S64x512_S1024x512_1_0_0_1_n_n 64 rfl rfl).symm]
  refine Finset.sum_congr rfl fun k _ => ?_
  have hk := contrEquiv1_symm_val dot_S1024x64_S64x512_S1024x512_1_0_0_1_n_n 64 rfl rfl k
  have el : dot_S1024x64_S64x512_S1024x512_1_0_0_1_n_n.lhsIdx (ix2 r c) ((contrEquiv1 dot_S1024x64_S64x512_S1024x512_1_0_0_1_n_n 64 rfl rfl).symm k) = ix2 r k := funext fun ax => Fin.ext (by
    match ax with
    | ⟨0, _⟩ => exact lhs_qk_0 _ _
    | ⟨1, _⟩ => exact (lhs_qk_1 _ _).trans hk)
  have er : dot_S1024x64_S64x512_S1024x512_1_0_0_1_n_n.rhsIdx (ix2 r c) ((contrEquiv1 dot_S1024x64_S64x512_S1024x512_1_0_0_1_n_n 64 rfl rfl).symm k) = ix2 k c := funext fun ax => Fin.ext (by
    match ax with
    | ⟨0, _⟩ => exact (rhs_qk_0 _ _).trans hk
    | ⟨1, _⟩ => exact rhs_qk_1 _ _)
  rw [el, er]

/-- The operand indices of the weighted-value product [1024, 512] × [512, 64] at result index j and contraction index q. -/
theorem lhs_pv_0 (j : S1024x64.Idx) (q : dot_S1024x512_S512x64_S1024x64_1_0_0_1_n_n.contr.Idx) :
    (dot_S1024x512_S512x64_S1024x64_1_0_0_1_n_n.lhsIdx j q 0).val = (j 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem lhs_pv_1 (j : S1024x64.Idx) (q : dot_S1024x512_S512x64_S1024x64_1_0_0_1_n_n.contr.Idx) :
    (dot_S1024x512_S512x64_S1024x64_1_0_0_1_n_n.lhsIdx j q 1).val = (q ⟨0, by decide⟩).val :=
  dot_S1024x512_S512x64_S1024x64_1_0_0_1_n_n.lhsIdx_val_of_single rfl j q
theorem rhs_pv_0 (j : S1024x64.Idx) (q : dot_S1024x512_S512x64_S1024x64_1_0_0_1_n_n.contr.Idx) :
    (dot_S1024x512_S512x64_S1024x64_1_0_0_1_n_n.rhsIdx j q 0).val = (q ⟨0, by decide⟩).val :=
  dot_S1024x512_S512x64_S1024x64_1_0_0_1_n_n.rhsIdx_val_of_single rfl j q
theorem rhs_pv_1 (j : S1024x64.Idx) (q : dot_S1024x512_S512x64_S1024x64_1_0_0_1_n_n.contr.Idx) :
    (dot_S1024x512_S512x64_S1024x64_1_0_0_1_n_n.rhsIdx j q 1).val = (j 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- The weighted-value product into a zero accumulator, at (r, d): the sum over c of the left operand at (r, c) times the right at (c, d). -/
theorem matmul_pv_apply (a : FVec Ideal S1024x512 .bf16) (b : FVec Ideal S512x64 .bf16) (r : Fin 1024) (d : Fin 64) :
    matmul dot_S1024x512_S512x64_S1024x64_1_0_0_1_n_n none a b (constant (F := Ideal) S1024x64 .f32 0x00000000#32) (ix2 r d)
      = ∑ c : Fin 512, a (ix2 r c) * b (ix2 c d) := by
  simp only [matmul]
  rw [Ideal.matmul_constant_zero_apply, ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 r d) ((contrEquiv1 dot_S1024x512_S512x64_S1024x64_1_0_0_1_n_n 512 rfl rfl).symm k) = ix2 r k := funext fun ax => Fin.ext (by
    match ax with
    | ⟨0, _⟩ => exact lhs_pv_0 _ _
    | ⟨1, _⟩ => exact (lhs_pv_1 _ _).trans hk)
  have er : dot_S1024x512_S512x64_S1024x64_1_0_0_1_n_n.rhsIdx (ix2 r d) ((contrEquiv1 dot_S1024x512_S512x64_S1024x64_1_0_0_1_n_n 512 rfl rfl).symm k) = ix2 k d := funext fun ax => Fin.ext (by
    match ax with
    | ⟨0, _⟩ => exact (rhs_pv_0 _ _).trans hk
    | ⟨1, _⟩ => exact rhs_pv_1 _ _)
  rw [el, er]

/-- The numerator accumulator after a tile: the old value plus the tile's weights w times the v block. -/
theorem oacc_apply (w : FVec Ideal S1024x512 .f32) (o : FVec Ideal S1024x64 .f32) (x2 : FVec Ideal S1x512x64 .bf16) (r : Fin 1024) (d : Fin 64) :
    shapeCast S1024x64 (addf (F := Ideal) o (matmul dot_S1024x512_S512x64_S1024x64_1_0_0_1_n_n none
        (truncf (F := Ideal) .bf16 w bitsLt_bf16_f32) (shapeCast S512x64 x2 shapeCasts_S1x512x64_S512x64)
        (constant (F := Ideal) S1024x64 .f32 0x00000000#32))) shapeCasts_S1024x64_S1024x64 (ix2 r d)
      = o (ix2 r d) + ∑ c : Fin 512, w (ix2 r c) * x2 (ix3 0 c d) := by
  rw [shapeCast_self, addf_apply, matmul_pv_apply]
  refine congrArg (o (ix2 r d) + ·) (Finset.sum_congr rfl fun c _ => ?_)
  rw [truncf_apply, shapeCast_1ab_ab_apply]

/-! ## The lane sum read at a row -/

/-- The sum over the 512 lanes of a [1024, 512] vector, from the zero word, at row r. -/
theorem rowsum_apply (src : FVec Ideal S1024x512 .f32) (r : Fin 1024) :
    multiReduction (F := Ideal) .add [1] S1024 src 0x00000000#32 reduces_S1024x512_S1024 (.inl rfl) rfl (ix1 r)
      = ∑ c : Fin 512, src (ix2 r c) := by
  refine (Ideal.multiReduction_add_single src 0x00000000#32 reduces_S1024x512_S1024 (.inl rfl) rfl (ix1 r)).trans ?_
  refine Finset.sum_congr rfl fun c _ => congrArg src ?_
  funext ax
  apply Fin.ext
  match ax with
  | ⟨0, _⟩ => rfl
  | ⟨1, _⟩ => rfl

/-- The normalizer accumulator after a tile: the old value plus the row sum of the tile's weights w. -/
theorem zacc_apply (w : FVec Ideal S1024x512 .f32) (z : Vec Ideal S1024x1 .f32) (r : Fin 1024) :
    shapeCast S1024x1 (addf (F := Ideal) z (shapeCast S1024x1
        (multiReduction (F := Ideal) .add [1] S1024 w 0x00000000#32 reduces_S1024x512_S1024 (.inl rfl) rfl)
        shapeCasts_S1024_S1024x1)) shapeCasts_S1024x1_S1024x1 (ix2 r 0)
      = z (ix2 r 0) + ∑ c : Fin 512, w (ix2 r c) := by
  rw [shapeCast_self, addf_apply]
  refine congrArg (z (ix2 r 0) + ·) ?_
  exact (shapeCast_a_a1_apply _ _ r 0).trans (rowsum_apply w r)

/-! ## The diagonal mask read at an entry -/

/-- At (r, c) the mask bit is set exactly where the tile's global column does not exceed its global row: the row word
    is qi · 1024 + r and the column word ki · 512 + c, both far below 2³¹, so nothing wraps and the signed comparison
    is the order of the naturals. -/
theorem diag_mask_apply (qi : Fin 2) (ki : Fin 4) (r : Fin 1024) (c : Fin 512) :
    cmpi .sge
        (addi (broadcast S1024x512 (Scalar.muli (BitVec.ofNat 32 qi.val) 1024#32)) (iota .tc S1024x512 32 [0] iota_S1024x512_d0_w32))
        (addi (broadcast S1024x512 (Scalar.muli (BitVec.ofNat 32 ki.val) 512#32)) (iota .tc S1024x512 32 [1] iota_S1024x512_d1_w32))
        (ix2 r c) = 1#1
      ↔ ki.val * 512 + c.val ≤ qi.val * 1024 + r.val := by
  have hq := qi.isLt
  have hk := ki.isLt
  have hr := r.isLt
  have hc := c.isLt
  have hrow : (IntOp.addi (Scalar.muli (BitVec.ofNat 32 qi.val) 1024#32) (BitVec.ofNat 32 r.val)).toNat = qi.val * 1024 + r.val := by
    simp only [IntOp.addi, Scalar.muli, IntOp.muli, BitVec.toNat_add, BitVec.toNat_mul, BitVec.toNat_ofNat]
    omega
  have hcol : (IntOp.addi (Scalar.muli (BitVec.ofNat 32 ki.val) 512#32) (BitVec.ofNat 32 c.val)).toNat = ki.val * 512 + c.val := by
    simp only [IntOp.addi, Scalar.muli, IntOp.muli, BitVec.toNat_add, BitVec.toNat_mul, BitVec.toNat_ofNat]
    omega
  show IntOp.cmpi .sge
      (IntOp.addi (Scalar.muli (BitVec.ofNat 32 qi.val) 1024#32) (iota .tc S1024x512 32 [0] iota_S1024x512_d0_w32 (ix2 r c)))
      (IntOp.addi (Scalar.muli (BitVec.ofNat 32 ki.val) 512#32) (iota .tc S1024x512 32 [1] iota_S1024x512_d1_w32 (ix2 r c))) = 1#1 ↔ _
  rw [iota_single_apply, iota_single_apply]
  show IntOp.cmpi .sge
      (IntOp.addi (Scalar.muli (BitVec.ofNat 32 qi.val) 1024#32) (BitVec.ofNat 32 r.val))
      (IntOp.addi (Scalar.muli (BitVec.ofNat 32 ki.val) 512#32) (BitVec.ofNat 32 c.val)) = 1#1 ↔ _
  rw [StableHlo.Predicate.sge_iff_toNat (by rw [hrow]; omega) (by rw [hcol]; omega), hrow, hcol]

/-- The tile's score at (r, c): the dot product of row r of the q block with row c of the k block, over 8. -/
def tsc (x0 : Vec Ideal S1x1024x64 .bf16) (x1 : Vec Ideal S1x512x64 .bf16) (r : Fin 1024) (c : Fin 512) : EReal :=
  (∑ e : Fin 64, x0 (ix3 0 r e) * x1 (ix3 0 c e)) * c8

/-- The weight of every entry of a tile. -/
theorem pay3_apply (x0 : Vec Ideal S1x1024x64 .bf16) (x1 : Vec Ideal S1x512x64 .bf16) (r : Fin 1024) (c : Fin 512) :
    k0_pay3 (F := Ideal) x0 x1 (ix2 r c) = poly (tsc x0 x1 r c) := by
  have ht : ∀ e : Fin 64, transpose S64x512 [1, 0] (shapeCast S512x64 x1 shapeCasts_S1x512x64_S512x64) transposes_S512x64_p1_0_S64x512 (ix2 e c) = x1 (ix3 0 c e) := fun e =>
    (transpose_ix2_apply _ _ e c).trans (shapeCast_1ab_ab_apply _ _ c e)
  unfold k0_pay3 poly
  simp only [addf_apply, mulf_apply, broadcast_apply]
  rw [matmul_qk_apply]
  simp only [shapeCast_1ab_ab_apply, ht]
  rfl

/-- The masked weight, at the tile position the two table words name (q-tile qi, k-tile ki). -/
theorem pay4_apply (qi : Fin 2) (ki : Fin 4) (x0 : Vec Ideal S1x1024x64 .bf16) (x1 : Vec Ideal S1x512x64 .bf16) (r : Fin 1024) (c : Fin 512) :
    k0_pay4 (F := Ideal) (BitVec.ofNat 32 qi.val) (BitVec.ofNat 32 ki.val) x0 x1 (ix2 r c)
      = if ki.val * 512 + c.val ≤ qi.val * 1024 + r.val then poly (tsc x0 x1 r c) else c0 := by
  unfold k0_pay4
  simp only [select_apply, broadcast_apply]
  rw [pay3_apply]
  by_cases h : ki.val * 512 + c.val ≤ qi.val * 1024 + r.val
  · rw [if_pos h, (diag_mask_apply qi ki r c).mpr h, select_one]
  · rw [if_neg h, eq_zero_of_ne_one (mt (diag_mask_apply qi ki r c).mp h), select_zero]
    rfl

/-- The reset values. -/
theorem pay1_apply (j : S1024x64.Idx) : k0_pay1 (F := Ideal) j = c0 := by
  unfold k0_pay1
  rw [shapeCast_self]
  rfl
theorem pay2_apply (j : S1024x1.Idx) : k0_pay2 (F := Ideal) j = c0 := by
  unfold k0_pay2
  rw [shapeCast_self]
  rfl

/-- The normalizer accumulator after a masked tile, and the numerator accumulator. -/
theorem pay5_apply (w1 w3 : BitVec 32) (x0 : Vec Ideal S1x1024x64 .bf16) (x1 : Vec Ideal S1x512x64 .bf16) (z : Vec Ideal S1024x1 .f32) (r : Fin 1024) :
    k0_pay5 (F := Ideal) w1 w3 x0 x1 z (ix2 r 0) = z (ix2 r 0) + ∑ c : Fin 512, k0_pay4 (F := Ideal) w1 w3 x0 x1 (ix2 r c) :=
  zacc_apply (k0_pay4 (F := Ideal) w1 w3 x0 x1) z r
theorem pay6_apply (w1 w3 : BitVec 32) (x0 : Vec Ideal S1x1024x64 .bf16) (x1 : Vec Ideal S1x512x64 .bf16) (o : Vec Ideal S1024x64 .f32) (x2 : Vec Ideal S1x512x64 .bf16) (r : Fin 1024) (d : Fin 64) :
    k0_pay6 (F := Ideal) w1 w3 x0 x1 o x2 (ix2 r d) = o (ix2 r d) + ∑ c : Fin 512, k0_pay4 (F := Ideal) w1 w3 x0 x1 (ix2 r c) * x2 (ix3 0 c d) :=
  oacc_apply (k0_pay4 (F := Ideal) w1 w3 x0 x1) o x2 r d

/-- The same after a tile wholly below the diagonal. -/
theorem pay7_apply (x0 : Vec Ideal S1x1024x64 .bf16) (x1 : Vec Ideal S1x512x64 .bf16) (z : Vec Ideal S1024x1 .f32) (r : Fin 1024) :
    k0_pay7 (F := Ideal) x0 x1 z (ix2 r 0) = z (ix2 r 0) + ∑ c : Fin 512, k0_pay3 (F := Ideal) x0 x1 (ix2 r c) :=
  zacc_apply (k0_pay3 (F := Ideal) x0 x1) z r
theorem pay8_apply (x0 : Vec Ideal S1x1024x64 .bf16) (x1 : Vec Ideal S1x512x64 .bf16) (o : Vec Ideal S1024x64 .f32) (x2 : Vec Ideal S1x512x64 .bf16) (r : Fin 1024) (d : Fin 64) :
    k0_pay8 (F := Ideal) x0 x1 o x2 (ix2 r d) = o (ix2 r d) + ∑ c : Fin 512, k0_pay3 (F := Ideal) x0 x1 (ix2 r c) * x2 (ix3 0 c d) :=
  oacc_apply (k0_pay3 (F := Ideal) x0 x1) o x2 r d

/-- The stored quotient. -/
theorem pay9_apply (o : Vec Ideal S1024x64 .f32) (z : Vec Ideal S1024x1 .f32) (r : Fin 1024) (d : Fin 64) :
    k0_pay9 (F := Ideal) o z (ix3 0 r d) = Ideal.div (o (ix2 r d)) (z (ix2 r 0) + ce) := by
  unfold k0_pay9
  refine (shapeCast_ab_1ab_apply _ _ 0 r d).trans ?_
  rw [truncf_apply, divf_apply]
  refine congrArg (Ideal.div (o (ix2 r d))) ?_
  refine (broadcastTo_a1_ab_apply (by decide) _ _ r d).trans ?_
  rfl

end Cert.KernelIdeal.Pay

end
-- ==== Proof.KI.Blocks.lean ====
/-
  Where each grid point sits and what its blocks are. Point t = 6·bh + j works on batch-head bh = t / 6; its q-tile
  and k-tile come from entry j of the tables: (0,0), (0,1), (1,0), (1,1), (1,2), (1,3). The q block is rows
  1024·qi ‥ 1024·qi + 1023 of head bh of the [32, 2048, 64] queries, the k and v blocks rows 512·ki ‥ 512·ki + 511 of
  the keys and values; and the [32, 2048, 64] arrays are the [2, 16, 2048, 64] arguments with the two leading axes
  merged (bh = 16·b + h).
-/
import proofs.«420449_j45973329936664_3_alg».proof.Proof.KI.Names
import proofs.«420449_j45973329936664_3_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

open Cert.Spec Idealize.ShloMosaic.ValueIdx

/-- The batch-head, the q-tile and the k-tile of point `t`. -/
def bhT (t : Fin cfgL.N) : Fin 32 := ⟨t.val / 6, by have := lt_of_lt_of_eq t.isLt N_L; omega⟩
def qiT (t : Fin cfgL.N) : Fin 2 := if t.val % 6 < 2 then 0 else 1
def kiT (t : Fin cfgL.N) : Fin 4 :=
  if t.val % 6 = 0 then 0 else if t.val % 6 = 1 then 1 else if t.val % 6 = 2 then 0 else if t.val % 6 = 3 then 1 else if t.val % 6 = 4 then 2 else 3

/-- The two table words the body loads at point `t` name its q-tile and its k-tile. -/
theorem wq_eq (c : Dev nD) (t : Fin cfgL.N) : wq c t = BitVec.ofNat 32 (qiT t).val := by
  unfold wq qiT
  rw [word_lit0]
  -- entry t mod 6 of the q-tile table (0, 0, 1, 1, 1, 1), decided over the 192 points
  exact (by decide +kernel : ∀ t : Fin grid0.N, lit0 (S6.rowMajor (widx (grid0.coords t))) = BitVec.ofNat 32 (if t.val % 6 < 2 then 0 else 1 : Fin 2).val) t
theorem wk_eq (c : Dev nD) (t : Fin cfgL.N) : wk c t = BitVec.ofNat 32 (kiT t).val := by
  unfold wk kiT
  rw [word_lit1]
  -- entry t mod 6 of the k-tile table (0, 1, 0, 1, 2, 3), decided over the 192 points
  exact (by decide +kernel : ∀ t : Fin grid0.N, lit1 (S6.rowMajor (widx (grid0.coords t))) = BitVec.ofNat 32 (if t.val % 6 = 0 then 0 else if t.val % 6 = 1 then 1 else if t.val % 6 = 2 then 0 else if t.val % 6 = 3 then 1 else if t.val % 6 = 4 then 2 else 3 : Fin 4).val) t

/-- The three input windows' index maps, decided over the 192 points: the block of point t is (t / 6, the table's
    entry t mod 6, 0) — the q-tile table for the queries, the k-tile table for the keys and the values. -/
theorem blkIdx0 : ∀ t : Fin cfgL.N, (cfgL.win 0).index t (0 : Fin 3) = t.val / 6
    ∧ (cfgL.win 0).index t (1 : Fin 3) = (if t.val % 6 < 2 then 0 else 1) ∧ (cfgL.win 0).index t (2 : Fin 3) = 0 :=
  (by decide +kernel : ∀ t : Fin grid0.N, _)
theorem blkIdx1 : ∀ t : Fin cfgL.N, (cfgL.win 1).index t (0 : Fin 3) = t.val / 6
    ∧ (cfgL.win 1).index t (1 : Fin 3) = (if t.val % 6 = 0 then 0 else if t.val % 6 = 1 then 1 else if t.val % 6 = 2 then 0 else if t.val % 6 = 3 then 1 else if t.val % 6 = 4 then 2 else 3) ∧ (cfgL.win 1).index t (2 : Fin 3) = 0 :=
  (by decide +kernel : ∀ t : Fin grid0.N, _)
theorem blkIdx2 : ∀ t : Fin cfgL.N, (cfgL.win 2).index t (0 : Fin 3) = t.val / 6
    ∧ (cfgL.win 2).index t (1 : Fin 3) = (if t.val % 6 = 0 then 0 else if t.val % 6 = 1 then 1 else if t.val % 6 = 2 then 0 else if t.val % 6 = 3 then 1 else if t.val % 6 = 4 then 2 else 3) ∧ (cfgL.win 2).index t (2 : Fin 3) = 0 :=
  (by decide +kernel : ∀ t : Fin grid0.N, _)

/-- The tile numbers as natural numbers. -/
theorem qiT_val (t : Fin cfgL.N) : (qiT t).val = (if t.val % 6 < 2 then 0 else 1) := by
  unfold qiT; split <;> rfl
theorem kiT_val (t : Fin cfgL.N) : (kiT t).val = (if t.val % 6 = 0 then 0 else if t.val % 6 = 1 then 1 else if t.val % 6 = 2 then 0 else if t.val % 6 = 3 then 1 else if t.val % 6 = 4 then 2 else 3) := by
  unfold kiT; repeat' split
  all_goals rfl

/-- The point's blocks, entry by entry, in the [32, 2048, 64] arrays the region finds. -/
theorem qblk_apply (c : Dev nD) (t : Fin cfgL.N) (r : Fin 1024) (e : Fin 64) :
    qblk m c t (ix3 0 r e) = V m c main_v0 (ix3 (bhT t) (rowOf (qiT t) r) e) := by
  unfold qblk iblk
  show V m c main_v0 (((cfgL.win 0).blk t).view.emb (ix3 0 r e)) = V m c main_v0 _
  refine congrArg (V m c main_v0) ?_
  obtain ⟨e0, e1, e2⟩ := blkIdx0 t
  -- on each axis the array's coordinate is the block's number times the block's extent plus the coordinate inside
  funext a; apply Fin.ext
  match a with
  | ⟨0, _⟩ =>
    show (cfgL.win 0).index t (0 : Fin 3) * 1 + 1 * 0 = t.val / 6
    omega
  | ⟨1, _⟩ =>
    show (cfgL.win 0).index t (1 : Fin 3) * 1024 + 1 * r.val = (qiT t).val * 1024 + r.val
    rw [e1, qiT_val]; omega
  | ⟨2, _⟩ =>
    show (cfgL.win 0).index t (2 : Fin 3) * 64 + 1 * e.val = e.val
    omega
theorem kblk_apply (c : Dev nD) (t : Fin cfgL.N) (cc : Fin 512) (e : Fin 64) :
    kblk m c t (ix3 0 cc e) = V m c main_v1 (ix3 (bhT t) (colOf (kiT t) cc) e) := by
  unfold kblk iblk
  show V m c main_v1 (((cfgL.win 1).blk t).view.emb (ix3 0 cc e)) = V m c main_v1 _
  refine congrArg (V m c main_v1) ?_
  obtain ⟨e0, e1, e2⟩ := blkIdx1 t
  -- on each axis the array's coordinate is the block's number times the block's extent plus the coordinate inside
  funext a; apply Fin.ext
  match a with
  | ⟨0, _⟩ =>
    show (cfgL.win 1).index t (0 : Fin 3) * 1 + 1 * 0 = t.val / 6
    omega
  | ⟨1, _⟩ =>
    show (cfgL.win 1).index t (1 : Fin 3) * 512 + 1 * cc.val = (kiT t).val * 512 + cc.val
    rw [e1, kiT_val]; omega
  | ⟨2, _⟩ =>
    show (cfgL.win 1).index t (2 : Fin 3) * 64 + 1 * e.val = e.val
    omega
theorem vblk_apply (c : Dev nD) (t : Fin cfgL.N) (cc : Fin 512) (d : Fin 64) :
    vblk m c t (ix3 0 cc d) = V m c main_v2 (ix3 (bhT t) (colOf (kiT t) cc) d) := by
  unfold vblk iblk
  show V m c main_v2 (((cfgL.win 2).blk t).view.emb (ix3 0 cc d)) = V m c main_v2 _
  refine congrArg (V m c main_v2) ?_
  obtain ⟨e0, e1, e2⟩ := blkIdx2 t
  -- on each axis the array's coordinate is the block's number times the block's extent plus the coordinate inside
  funext a; apply Fin.ext
  match a with
  | ⟨0, _⟩ =>
    show (cfgL.win 2).index t (0 : Fin 3) * 1 + 1 * 0 = t.val / 6
    omega
  | ⟨1, _⟩ =>
    show (cfgL.win 2).index t (1 : Fin 3) * 512 + 1 * cc.val = (kiT t).val * 512 + cc.val
    rw [e1, kiT_val]; omega
  | ⟨2, _⟩ =>
    show (cfgL.win 2).index t (2 : Fin 3) * 64 + 1 * d.val = d.val
    omega

/-- The [32, 2048, 64] arrays are the arguments with their two leading axes merged. -/
theorem V_v0_apply (c : Dev nD) (b : Fin 2) (h : Fin 16) (r : Fin 2048) (e : Fin 64) :
    V m c main_v0 (ix3 (⟨b.val * 16 + h.val, by have := b.isLt; have := h.isLt; omega⟩ : Fin 32) r e) = m ((c : Thread nD τ).loc main_arg0) (ix4 b h r e) := by
  -- the array the region finds is the argument reshaped
  have e0 : (V m c main_v0 : S32x2048x64.Idx → EReal) = shapeCast S32x2048x64 (m ((c : Thread nD τ).loc main_arg0)) shapeCasts_S2x16x2048x64_S32x2048x64 := by
    dsimp only [V, V0]; simp only [hostOps0, List.flatten_cons, List.flatten_nil, List.append_nil]
    after_results; rfl
  rw [e0]
  -- a reshape keeps the row-major position: ((16 b + h) · 2048 + r) · 64 + e on both sides
  refine shapeCast_apply _ _ _ _ ?_
  show ((⟨4, ![2, 16, 2048, 64]⟩ : Shape).rowMajor (ix4 b h r e)).val
    = ((⟨3, ![32, 2048, 64]⟩ : Shape).rowMajor (ix3 (⟨b.val * 16 + h.val, by have := b.isLt; have := h.isLt; omega⟩ : Fin 32) r e)).val
  rw [Shape.rowMajor_val_four, Shape.rowMajor_val_three]
  show ((b.val * 16 + h.val) * 2048 + r.val) * 64 + e.val = ((b.val * 16 + h.val) * 2048 + r.val) * 64 + e.val
  rfl
theorem V_v1_apply (c : Dev nD) (b : Fin 2) (h : Fin 16) (r : Fin 2048) (e : Fin 64) :
    V m c main_v1 (ix3 (⟨b.val * 16 + h.val, by have := b.isLt; have := h.isLt; omega⟩ : Fin 32) r e) = m ((c : Thread nD τ).loc main_arg1) (ix4 b h r e) := by
  -- the array the region finds is the argument reshaped
  have e0 : (V m c main_v1 : S32x2048x64.Idx → EReal) = shapeCast S32x2048x64 (m ((c : Thread nD τ).loc main_arg1)) shapeCasts_S2x16x2048x64_S32x2048x64 := by
    dsimp only [V, V0]; simp only [hostOps0, List.flatten_cons, List.flatten_nil, List.append_nil]
    after_results; rfl
  rw [e0]
  -- a reshape keeps the row-major position: ((16 b + h) · 2048 + r) · 64 + e on both sides
  refine shapeCast_apply _ _ _ _ ?_
  show ((⟨4, ![2, 16, 2048, 64]⟩ : Shape).rowMajor (ix4 b h r e)).val
    = ((⟨3, ![32, 2048, 64]⟩ : Shape).rowMajor (ix3 (⟨b.val * 16 + h.val, by have := b.isLt; have := h.isLt; omega⟩ : Fin 32) r e)).val
  rw [Shape.rowMajor_val_four, Shape.rowMajor_val_three]
  show ((b.val * 16 + h.val) * 2048 + r.val) * 64 + e.val = ((b.val * 16 + h.val) * 2048 + r.val) * 64 + e.val
  rfl
theorem V_v2_apply (c : Dev nD) (b : Fin 2) (h : Fin 16) (r : Fin 2048) (e : Fin 64) :
    V m c main_v2 (ix3 (⟨b.val * 16 + h.val, by have := b.isLt; have := h.isLt; omega⟩ : Fin 32) r e) = m ((c : Thread nD τ).loc main_arg2) (ix4 b h r e) := by
  -- the array the region finds is the argument reshaped
  have e0 : (V m c main_v2 : S32x2048x64.Idx → EReal) = shapeCast S32x2048x64 (m ((c : Thread nD τ).loc main_arg2)) shapeCasts_S2x16x2048x64_S32x2048x64 := by
    dsimp only [V, V0]; simp only [hostOps0, List.flatten_cons, List.flatten_nil, List.append_nil]
    after_results; rfl
  rw [e0]
  -- a reshape keeps the row-major position: ((16 b + h) · 2048 + r) · 64 + e on both sides
  refine shapeCast_apply _ _ _ _ ?_
  show ((⟨4, ![2, 16, 2048, 64]⟩ : Shape).rowMajor (ix4 b h r e)).val
    = ((⟨3, ![32, 2048, 64]⟩ : Shape).rowMajor (ix3 (⟨b.val * 16 + h.val, by have := b.isLt; have := h.isLt; omega⟩ : Fin 32) r e)).val
  rw [Shape.rowMajor_val_four, Shape.rowMajor_val_three]
  show ((b.val * 16 + h.val) * 2048 + r.val) * 64 + e.val = ((b.val * 16 + h.val) * 2048 + r.val) * 64 + e.val
  rfl

/-- A point that does not open a q-row continues the batch-head, q-tile and next k-tile of the point before. -/
theorem bhT_pred (t : Fin cfgL.N) (h : t.val % 6 ≠ 0) (h' : t.val - 1 < cfgL.N) : bhT ⟨t.val - 1, h'⟩ = bhT t := by
  apply Fin.ext
  show (t.val - 1) / 6 = t.val / 6
  omega

end Cert.KernelIdeal.Fr

end
-- ==== Proof.KI.Inv.lean ====
/-
  The accumulators after every grid point. Within a batch-head the six points walk the causal triangle tile by tile:
  (q-tile 0: k-tiles 0, 1), (q-tile 1: k-tiles 0, 1, 2, 3). A point that opens a q-row starts from zero; every point adds
  its tile's row sums to the normalizer and its tile's weighted values to the numerator. A masked tile keeps the
  weight at (r, c) where the global column 512·ki + c does not exceed the global row 1024·qi + r, which is the
  specification's causal weight; in the two tiles wholly below the diagonal every weight is kept, and there the causal
  weight keeps them all too.
-/
import proofs.«420449_j45973329936664_3_alg».proof.Proof.KI.Pieces
import proofs.«420449_j45973329936664_3_alg».proof.Proof.KI.Pay
import proofs.«420449_j45973329936664_3_alg».proof.Proof.KI.Blocks
import proofs.«420449_j45973329936664_3_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

open Cert.Spec Cert.KernelIdeal.Pay Idealize.ShloMosaic.ValueIdx

/-- Head `bh` of the [32, 2048, 64] queries, keys and values the region finds. -/
def hq (c : Dev nD) (bh : Fin 32) : Fin 2048 → Fin 64 → EReal := fun r e => V m c main_v0 (ix3 bh r e)
def hk (c : Dev nD) (bh : Fin 32) : Fin 2048 → Fin 64 → EReal := fun r e => V m c main_v1 (ix3 bh r e)
def hv (c : Dev nD) (bh : Fin 32) : Fin 2048 → Fin 64 → EReal := fun r e => V m c main_v2 (ix3 bh r e)

/-- The normalizer and the numerator after entry `j` of a batch-head's six points, as the kernel accumulates them. -/
def accZ (q k : Fin 2048 → Fin 64 → EReal) : ℕ → Fin 1024 → EReal
  | 0 => fun r => c0 + tz q k 0 0 r
  | 1 => fun r => (c0 + tz q k 0 0 r) + tz q k 0 1 r
  | 2 => fun r => c0 + tz q k 1 0 r
  | 3 => fun r => (c0 + tz q k 1 0 r) + tz q k 1 1 r
  | 4 => fun r => ((c0 + tz q k 1 0 r) + tz q k 1 1 r) + tz q k 1 2 r
  | _ => fun r => (((c0 + tz q k 1 0 r) + tz q k 1 1 r) + tz q k 1 2 r) + tz q k 1 3 r
def accO (q k v : Fin 2048 → Fin 64 → EReal) : ℕ → Fin 1024 → Fin 64 → EReal
  | 0 => fun r d => c0 + tov q k v 0 0 r d
  | 1 => fun r d => (c0 + tov q k v 0 0 r d) + tov q k v 0 1 r d
  | 2 => fun r d => c0 + tov q k v 1 0 r d
  | 3 => fun r d => (c0 + tov q k v 1 0 r d) + tov q k v 1 1 r d
  | 4 => fun r d => ((c0 + tov q k v 1 0 r d) + tov q k v 1 1 r d) + tov q k v 1 2 r d
  | _ => fun r d => (((c0 + tov q k v 1 0 r d) + tov q k v 1 1 r d) + tov q k v 1 2 r d) + tov q k v 1 3 r d

/-! ## One tile's step, over blocks that are rows of a head -/

section Step
variable (q k v : Fin 2048 → Fin 64 → EReal) (qi : Fin 2) (ki : Fin 4)
  (x0 : Vec Ideal S1x1024x64 .bf16) (x1 x2 : Vec Ideal S1x512x64 .bf16)
  (h0 : ∀ r e, x0 (ix3 0 r e) = q (rowOf qi r) e) (h1 : ∀ c e, x1 (ix3 0 c e) = k (colOf ki c) e) (h2 : ∀ c d, x2 (ix3 0 c d) = v (colOf ki c) d)

include h0 h1 in
/-- The tile's score is the head's score at the tile's global row and column. -/
theorem sck_tile (r : Fin 1024) (c : Fin 512) : sck q k (rowOf qi r) (colOf ki c) = tsc x0 x1 r c := by
  unfold sck tsc
  exact congrArg (· * c8) (Finset.sum_congr rfl fun e _ => by rw [h0, h1])

include h0 h1 in
/-- The causal weight at the tile's global row and column is the tile's masked weight. -/
theorem pm_tile (r : Fin 1024) (c : Fin 512) :
    pm q k (rowOf qi r) (colOf ki c) = if ki.val * 512 + c.val ≤ qi.val * 1024 + r.val then poly (tsc x0 x1 r c) else c0 := by
  unfold pm
  rw [sck_tile q k qi ki x0 x1 h0 h1 r c]
  rfl

include h0 h1 in
theorem step_masked_z (z : Vec Ideal S1024x1 .f32) (r : Fin 1024) :
    k0_pay5 (F := Ideal) (BitVec.ofNat 32 qi.val) (BitVec.ofNat 32 ki.val) x0 x1 z (ix2 r 0) = z (ix2 r 0) + tz q k qi ki r := by
  rw [pay5_apply]
  refine congrArg (z (ix2 r 0) + ·) ?_
  unfold tz
  refine Finset.sum_congr rfl fun c _ => ?_
  rw [pay4_apply, pm_tile q k qi ki x0 x1 h0 h1 r c]
include h0 h1 h2 in
theorem step_masked_o (o : Vec Ideal S1024x64 .f32) (r : Fin 1024) (d : Fin 64) :
    k0_pay6 (F := Ideal) (BitVec.ofNat 32 qi.val) (BitVec.ofNat 32 ki.val) x0 x1 o x2 (ix2 r d) = o (ix2 r d) + tov q k v qi ki r d := by
  rw [pay6_apply]
  refine congrArg (o (ix2 r d) + ·) ?_
  unfold tov
  refine Finset.sum_congr rfl fun c _ => ?_
  rw [pay4_apply, pm_tile q k qi ki x0 x1 h0 h1 r c, h2]
include h0 h1 in
theorem step_plain_z (hqi : qi = 1) (hki : ki.val < 2) (z : Vec Ideal S1024x1 .f32) (r : Fin 1024) :
    k0_pay7 (F := Ideal) x0 x1 z (ix2 r 0) = z (ix2 r 0) + tz q k qi ki r := by
  rw [pay7_apply]
  refine congrArg (z (ix2 r 0) + ·) ?_
  unfold tz
  refine Finset.sum_congr rfl fun c _ => ?_
  rw [pay3_apply, ← sck_tile q k qi ki x0 x1 h0 h1 r c]
  subst hqi
  exact (pm_below q k ki hki r c).symm
include h0 h1 h2 in
theorem step_plain_o (hqi : qi = 1) (hki : ki.val < 2) (o : Vec Ideal S1024x64 .f32) (r : Fin 1024) (d : Fin 64) :
    k0_pay8 (F := Ideal) x0 x1 o x2 (ix2 r d) = o (ix2 r d) + tov q k v qi ki r d := by
  rw [pay8_apply]
  refine congrArg (o (ix2 r d) + ·) ?_
  unfold tov
  refine Finset.sum_congr rfl fun c _ => ?_
  rw [pay3_apply, ← sck_tile q k qi ki x0 x1 h0 h1 r c, h2]
  subst hqi
  rw [pm_below q k ki hki r c]
end Step

/-! ## One tile's step at a grid point -/

section Point
variable (c : Dev nD) (t : Fin cfgL.N)

/-- The q-tile and the k-tile of a point from its position modulo six. -/
theorem qiT_lo (h : t.val % 6 < 2) : qiT t = 0 := if_pos h
theorem qiT_hi (h : ¬t.val % 6 < 2) : qiT t = 1 := if_neg h
theorem kiT_0 (h : t.val % 6 = 0) : kiT t = 0 := if_pos h
theorem kiT_1 (h : t.val % 6 = 1) : kiT t = 1 := by
  unfold kiT; rw [if_neg (by omega), if_pos h]
theorem kiT_2 (h : t.val % 6 = 2) : kiT t = 0 := by
  unfold kiT; rw [if_neg (by omega), if_neg (by omega), if_pos h]
theorem kiT_3 (h : t.val % 6 = 3) : kiT t = 1 := by
  unfold kiT; rw [if_neg (by omega), if_neg (by omega), if_neg (by omega), if_pos h]
theorem kiT_4 (h : t.val % 6 = 4) : kiT t = 2 := by
  unfold kiT; rw [if_neg (by omega), if_neg (by omega), if_neg (by omega), if_neg (by omega), if_pos h]
theorem kiT_5 (h : t.val % 6 = 5) : kiT t = 3 := by
  unfold kiT; rw [if_neg (by omega), if_neg (by omega), if_neg (by omega), if_neg (by omega), if_neg (by omega)]

/-- The masked update at point t adds tile (qiT t, kiT t) of head bhT t to whatever the accumulators held. -/
theorem pt_masked_z (z : Vec Ideal S1024x1 .f32) (r : Fin 1024) :
    k0_pay5 (F := Ideal) (wq c t) (wk c t) (qblk m c t) (kblk m c t) z (ix2 r 0)
      = z (ix2 r 0) + tz (hq m c (bhT t)) (hk m c (bhT t)) (qiT t) (kiT t) r := by
  rw [wq_eq, wk_eq]
  exact step_masked_z (hq m c (bhT t)) (hk m c (bhT t)) (qiT t) (kiT t) (qblk m c t) (kblk m c t)
    (fun r e => qblk_apply m c t r e) (fun cc e => kblk_apply m c t cc e) z r
theorem pt_masked_o (o : Vec Ideal S1024x64 .f32) (r : Fin 1024) (d : Fin 64) :
    k0_pay6 (F := Ideal) (wq c t) (wk c t) (qblk m c t) (kblk m c t) o (vblk m c t) (ix2 r d)
      = o (ix2 r d) + tov (hq m c (bhT t)) (hk m c (bhT t)) (hv m c (bhT t)) (qiT t) (kiT t) r d := by
  rw [wq_eq, wk_eq]
  exact step_masked_o (hq m c (bhT t)) (hk m c (bhT t)) (hv m c (bhT t)) (qiT t) (kiT t) (qblk m c t) (kblk m c t) (vblk m c t)
    (fun r e => qblk_apply m c t r e) (fun cc e => kblk_apply m c t cc e) (fun cc d => vblk_apply m c t cc d) o r d
/-- The unmasked update, at a point whose tile lies wholly below the diagonal. -/
theorem pt_plain_z (hqi : qiT t = 1) (hki : (kiT t).val < 2) (z : Vec Ideal S1024x1 .f32) (r : Fin 1024) :
    k0_pay7 (F := Ideal) (qblk m c t) (kblk m c t) z (ix2 r 0)
      = z (ix2 r 0) + tz (hq m c (bhT t)) (hk m c (bhT t)) (qiT t) (kiT t) r :=
  step_plain_z (hq m c (bhT t)) (hk m c (bhT t)) (qiT t) (kiT t) (qblk m c t) (kblk m c t)
    (fun r e => qblk_apply m c t r e) (fun cc e => kblk_apply m c t cc e) hqi hki z r
theorem pt_plain_o (hqi : qiT t = 1) (hki : (kiT t).val < 2) (o : Vec Ideal S1024x64 .f32) (r : Fin 1024) (d : Fin 64) :
    k0_pay8 (F := Ideal) (qblk m c t) (kblk m c t) o (vblk m c t) (ix2 r d)
      = o (ix2 r d) + tov (hq m c (bhT t)) (hk m c (bhT t)) (hv m c (bhT t)) (qiT t) (kiT t) r d :=
  step_plain_o (hq m c (bhT t)) (hk m c (bhT t)) (hv m c (bhT t)) (qiT t) (kiT t) (qblk m c t) (kblk m c t) (vblk m c t)
    (fun r e => qblk_apply m c t r e) (fun cc e => kblk_apply m c t cc e) (fun cc d => vblk_apply m c t cc d) hqi hki o r d

end Point

/-! ## The invariant -/

/-- After point `t` = 6·bh + j the accumulators hold entry j's partial sums of head bh. -/
theorem inv (c : Dev nD) (t : Fin cfgL.N) :
    (∀ (r : Fin 1024) (d : Fin 64), (outsAt0 m c t.val t.isLt).2.1 (ix2 r d) = accO (hq m c (bhT t)) (hk m c (bhT t)) (hv m c (bhT t)) (t.val % 6) r d)
    ∧ (∀ r : Fin 1024, (outsAt0 m c t.val t.isLt).2.2 (ix2 r 0) = accZ (hq m c (bhT t)) (hk m c (bhT t)) (t.val % 6) r) := by
  -- by induction on the point's position: a point that carries continues the point before, of the same head
  suffices H : ∀ (n : ℕ) (t : Fin cfgL.N), t.val = n →
      (∀ (r : Fin 1024) (d : Fin 64), (outsAt0 m c t.val t.isLt).2.1 (ix2 r d) = accO (hq m c (bhT t)) (hk m c (bhT t)) (hv m c (bhT t)) (t.val % 6) r d)
      ∧ (∀ r : Fin 1024, (outsAt0 m c t.val t.isLt).2.2 (ix2 r 0) = accZ (hq m c (bhT t)) (hk m c (bhT t)) (t.val % 6) r) from H t.val t rfl
  intro n
  induction n using Nat.strong_induction_on with
  | _ n ih =>
    intro t htn
    have carried : t.val % 6 ≠ 0 →
        (∀ (r : Fin 1024) (d : Fin 64), prev0 m c t (ix2 r d) = accO (hq m c (bhT t)) (hk m c (bhT t)) (hv m c (bhT t)) ((t.val - 1) % 6) r d)
        ∧ (∀ r : Fin 1024, prev1 m c t (ix2 r 0) = accZ (hq m c (bhT t)) (hk m c (bhT t)) ((t.val - 1) % 6) r) := by
      intro hj
      have hlt : t.val - 1 < cfgL.N := Nat.lt_of_le_of_lt (Nat.sub_le _ _) t.isLt
      have hp := ih (t.val - 1) (by omega) ⟨t.val - 1, hlt⟩ rfl
      rw [bhT_pred t hj hlt] at hp
      exact hp
    rcases (by omega : t.val % 6 = 0 ∨ t.val % 6 = 1 ∨ t.val % 6 = 2 ∨ t.val % 6 = 3 ∨ t.val % 6 = 4 ∨ t.val % 6 = 5) with h | h | h | h | h | h
    · -- entry 0: tile (0, 0), from zero, masked
      rw [outsAt0_A m c t h]; dsimp only
      constructor
      · intro r d
        rw [sout0_A_0_eq, pt_masked_o m c t (k0_pay1 (F := Ideal)) r d, pay1_apply, qiT_lo t (by omega), kiT_0 t h, h]
        rfl
      · intro r
        rw [sout0_A_1_eq, pt_masked_z m c t (k0_pay2 (F := Ideal)) r, pay2_apply, qiT_lo t (by omega), kiT_0 t h, h]
        rfl
    · -- entry 1: tile (0, 1), carried, masked
      obtain ⟨po, pz⟩ := carried (by omega)
      rw [outsAt0_B m c t (Or.inl h)]; dsimp only
      constructor
      · intro r d
        rw [sout0_B_0_eq, pt_masked_o m c t (prev0 m c t) r d, po r d, show (t.val - 1) % 6 = 0 from by omega, qiT_lo t (by omega), kiT_1 t h, h]
        rfl
      · intro r
        rw [sout0_B_1_eq, pt_masked_z m c t (prev1 m c t) r, pz r, show (t.val - 1) % 6 = 0 from by omega, qiT_lo t (by omega), kiT_1 t h, h]
        rfl
    · -- entry 2: tile (1, 0), from zero, wholly below the diagonal
      rw [outsAt0_C m c t h]; dsimp only
      have hqi : qiT t = 1 := qiT_hi t (by omega)
      have hki : (kiT t).val < 2 := by rw [kiT_2 t h]; decide
      constructor
      · intro r d
        rw [sout0_C_0_eq, pt_plain_o m c t hqi hki (k0_pay1 (F := Ideal)) r d, pay1_apply, hqi, kiT_2 t h, h]
        rfl
      · intro r
        rw [sout0_C_1_eq, pt_plain_z m c t hqi hki (k0_pay2 (F := Ideal)) r, pay2_apply, hqi, kiT_2 t h, h]
        rfl
    · -- entry 3: tile (1, 1), carried, wholly below the diagonal
      obtain ⟨po, pz⟩ := carried (by omega)
      rw [outsAt0_D m c t h]; dsimp only
      have hqi : qiT t = 1 := qiT_hi t (by omega)
      have hki : (kiT t).val < 2 := by rw [kiT_3 t h]; decide
      constructor
      · intro r d
        rw [sout0_D_0_eq, pt_plain_o m c t hqi hki (prev0 m c t) r d, po r d, show (t.val - 1) % 6 = 2 from by omega, hqi, kiT_3 t h, h]
        rfl
      · intro r
        rw [sout0_D_1_eq, pt_plain_z m c t hqi hki (prev1 m c t) r, pz r, show (t.val - 1) % 6 = 2 from by omega, hqi, kiT_3 t h, h]
        rfl
    · -- entry 4: tile (1, 2), carried, masked
      obtain ⟨po, pz⟩ := carried (by omega)
      rw [outsAt0_E m c t h]; dsimp only
      constructor
      · intro r d
        rw [sout0_E_0_eq, pt_masked_o m c t (prev0 m c t) r d, po r d, show (t.val - 1) % 6 = 3 from by omega, qiT_hi t (by omega), kiT_4 t h, h]
        rfl
      · intro r
        rw [sout0_E_1_eq, pt_masked_z m c t (prev1 m c t) r, pz r, show (t.val - 1) % 6 = 3 from by omega, qiT_hi t (by omega), kiT_4 t h, h]
        rfl
    · -- entry 5: tile (1, 3), carried, masked
      obtain ⟨po, pz⟩ := carried (by omega)
      rw [outsAt0_B m c t (Or.inr h)]; dsimp only
      constructor
      · intro r d
        rw [sout0_B_0_eq, pt_masked_o m c t (prev0 m c t) r d, po r d, show (t.val - 1) % 6 = 4 from by omega, qiT_hi t (by omega), kiT_5 t h, h]
        rfl
      · intro r
        rw [sout0_B_1_eq, pt_masked_z m c t (prev1 m c t) r, pz r, show (t.val - 1) % 6 = 4 from by omega, qiT_hi t (by omega), kiT_5 t h, h]
        rfl

/-- Where the quotient is stored (the last k-tile of a q-row) the output block holds the specification's rows. -/
theorem out_last (c : Dev nD) (t : Fin cfgL.N) (h : t.val % 6 = 1 ∨ t.val % 6 = 5) (r : Fin 1024) (d : Fin 64) :
    (outsAt0 m c t.val t.isLt).1 (ix3 0 r d) = outh (hq m c (bhT t)) (hk m c (bhT t)) (hv m c (bhT t)) (rowOf (qiT t) r) d := by
  -- the quotient is taken of this point's own accumulators, which the invariant gives as the q-row's whole sums
  obtain ⟨io, iz⟩ := inv m c t
  have ho := io r d
  have hz := iz r
  rw [outsAt0_B m c t h] at ho hz ⊢
  dsimp only at ho hz ⊢
  rw [sout0_B_0_eq] at ho
  rw [sout0_B_1_eq] at hz
  rw [out0_B_3_eq, pay9_apply, ho, hz]
  unfold outh
  rcases h with h | h
  · rw [h, qiT_lo t (by omega), zrow_tile0, orow_tile0]
    rfl
  · rw [h, qiT_hi t (by omega), zrow_tile1, orow_tile1]
    rfl

end Cert.KernelIdeal.Fr

end
-- ==== Proof.KI.Final.lean ====
/-
  From the blocks to the arrays, and the value of the program's run. The output window's block is written back
  exactly at the two points of a batch-head that close a q-row (the second and the sixth), and what is written there
  is the specification's rows 1024·qi ‥ 1024·qi + 1023 of that head; these 64 blocks tile the [32, 2048, 64] result,
  so it ends as the specification head by head. The final buffer is that array with its leading axis split in
  (b, h) = (bh / 16, bh % 16), the arrays the region read are the arguments with (b, h) merged, so the final buffer is
  the specification of the arguments.
-/
import proofs.«420449_j45973329936664_3_alg».proof.Proof.KI.Inv
import proofs.«420449_j45973329936664_3_alg».proof.Proof.KI.Claim

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The instance the programs of this directory are read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

open Cert.Spec Idealize.ShloMosaic.ValueIdx

/-- The [32, 2048, 64] result: every head's quotient. -/
def G3 (c : Dev nD) : S32x2048x64.Idx → EReal := fun i => outh (hq m c (i 0)) (hk m c (i 0)) (hv m c (i 0)) (i 1) (i 2)

/-- The output window's index map, decided over the 192 points: the block of point t is (t / 6, the q-tile table's entry
    t mod 6, 0). -/
theorem blkIdx3 : ∀ t : Fin cfgL.N, (cfgL.win 3).index t (0 : Fin 3) = t.val / 6
    ∧ (cfgL.win 3).index t (1 : Fin 3) = (if t.val % 6 < 2 then 0 else 1) ∧ (cfgL.win 3).index t (2 : Fin 3) = 0 :=
  (by decide +kernel : ∀ t : Fin grid0.N, _)

/-- What a flushing point writes back is its block of the result. -/
theorem flushed3_eq (c : Dev nD) (t : Fin cfgL.N) (hf : (cfgL.win 3).flush t = true) :
    (dats m 0 c).flushed 3 t = ((cfgL.win 3).blk t).view.read (Elt 𝔽) (G3 m c) := by
  show (cfgL.win 3).cut (grid0.coords t) ((dats m 0 c).after 3 t) = _
  rw [after0_3]
  funext y
  obtain ⟨a, r, d, rfl⟩ : ∃ (a : Fin 1) (r : Fin 1024) (d : Fin 64), y = ix3 a r d := ⟨y 0, y 1, y 2, eq_ix3 y⟩
  obtain rfl : a = 0 := Subsingleton.elim _ _
  show (outsAt0 m c t.val t.isLt).1 (ix3 0 r d) = G3 m c (((cfgL.win 3).blk t).view.emb (ix3 0 r d))
  rw [out_last m c t ((flush0_3 t).mp hf) r d]
  -- the block's entry (0, r, d) sits in the array at (t / 6, 1024·qi + r, d)
  have he : ((cfgL.win 3).blk t).view.emb (ix3 0 r d) = ix3 (bhT t) (rowOf (qiT t) r) d := by
    obtain ⟨e0, e1, e2⟩ := blkIdx3 t
    funext a; apply Fin.ext
    match a with
    | ⟨0, _⟩ =>
      show (cfgL.win 3).index t (0 : Fin 3) * 1 + 1 * 0 = t.val / 6
      omega
    | ⟨1, _⟩ =>
      show (cfgL.win 3).index t (1 : Fin 3) * 1024 + 1 * r.val = (qiT t).val * 1024 + r.val
      rw [e1, qiT_val]; omega
    | ⟨2, _⟩ =>
      show (cfgL.win 3).index t (2 : Fin 3) * 64 + 1 * d.val = d.val
      omega
  rw [he]
  rfl

/-- Every entry of the result lies in the block of a flushing point: row r of head bh in the block of point
    6·bh + 1 (r < 1024) or 6·bh + 5. -/
theorem cover3 (i : S32x2048x64.Idx) : ∃ t : Fin cfgL.N, (cfgL.win 3).flush t = true ∧ i ∈ ((cfgL.win 3).blk t).view.set := by
  obtain ⟨bh, r, d, rfl⟩ : ∃ (bh : Fin 32) (r : Fin 2048) (d : Fin 64), i = ix3 bh r d := ⟨i 0, i 1, i 2, eq_ix3 i⟩
  have hb := bh.isLt
  have hr := r.isLt
  have hd := d.isLt
  have hlt : 6 * bh.val + (if r.val < 1024 then 1 else 5) < cfgL.N := by rw [N_L]; split <;> omega
  obtain ⟨t, ht⟩ : ∃ t : Fin cfgL.N, t.val = 6 * bh.val + (if r.val < 1024 then 1 else 5) := ⟨⟨_, hlt⟩, rfl⟩
  refine ⟨t, (flush0_3 t).mpr (by rw [ht]; split <;> omega), ?_⟩
  obtain ⟨e0, e1, e2⟩ := blkIdx3 t
  show ix3 bh r d ∈ ((View.whole main_v3).slice ((cfgL.win 3).rect t)).set
  rw [View.set_slice_whole, Rect.mem_set_unit]
  intro a
  -- on each axis the block of point t spans index · size ‥ index · size + size
  match a with
  | ⟨0, _⟩ =>
    show (cfgL.win 3).index t (0 : Fin 3) * 1 ≤ bh.val ∧ bh.val < (cfgL.win 3).index t (0 : Fin 3) * 1 + 1
    rw [e0, ht]; split <;> omega
  | ⟨1, _⟩ =>
    show (cfgL.win 3).index t (1 : Fin 3) * 1024 ≤ r.val ∧ r.val < (cfgL.win 3).index t (1 : Fin 3) * 1024 + 1024
    rw [e1, ht]; split <;> split <;> omega
  | ⟨2, _⟩ =>
    show (cfgL.win 3).index t (2 : Fin 3) * 64 ≤ d.val ∧ d.val < (cfgL.win 3).index t (2 : Fin 3) * 64 + 64
    rw [e2]; omega

/-- The result array after the region. -/
theorem final3 (c : Dev nD) : (dats m 0 c).arrAt 3 cfgL.N = G3 m c :=
  (dats m 0 c).arrAt_eq_of_cover 3 (G3 m c) (fun t hf => flushed3_eq m c t hf) cover3

/-- The final buffer after the reshape that follows the region. -/
theorem tail_v4 (c : Dev nD) :
    Pipeline.afterTail pcfgs (fun _ => admL) (dats m) 0 (V0 m) [hostOps1] c main_v4
      = G4 (m ((c : Thread nD τ).loc main_arg0)) (m ((c : Thread nD τ).loc main_arg1)) (m ((c : Thread nD τ).loc main_arg2)) := by
  unfold Pipeline.afterTail
  show StableHlo.after hostOps1 _ (Proc.devRef .tc main_v4) = _
  after_results
  funext i
  show shapeCast S2x16x2048x64 (Pipeline.withArrays spec0 c (V0 m c) (fun w => (dats m 0 c).arrAt w cfgL.N) (Proc.devRef .tc main_v3))
    shapeCasts_S32x2048x64_S2x16x2048x64 i = _
  -- the array the reshape reads is the region's result
  have hw : Pipeline.withArrays spec0 c (V0 m c) (fun w => (dats m 0 c).arrAt w cfgL.N) (Proc.devRef .tc main_v3) = G3 m c :=
    (Pipeline.withArrays_arr spec0 (launch0 (F := 𝔽)).win.arr_inj c _ _ 3).trans (final3 m c)
  rw [hw]
  obtain ⟨b, h, r, d, rfl⟩ : ∃ (b : Fin 2) (h : Fin 16) (r : Fin 2048) (d : Fin 64), i = ix4 b h r d := ⟨i 0, i 1, i 2, i 3, eq_ix4 i⟩
  have hb := b.isLt
  have hh := h.isLt
  -- a reshape keeps the row-major position: ((16 b + h) · 2048 + r) · 64 + d on both sides
  refine (shapeCast_apply (G3 m c) shapeCasts_S32x2048x64_S2x16x2048x64 (ix4 b h r d)
    (ix3 (⟨b.val * 16 + h.val, by omega⟩ : Fin 32) r d) ?_).trans ?_
  · show ((⟨3, ![32, 2048, 64]⟩ : Shape).rowMajor (ix3 (⟨b.val * 16 + h.val, by omega⟩ : Fin 32) r d)).val
      = ((⟨4, ![2, 16, 2048, 64]⟩ : Shape).rowMajor (ix4 b h r d)).val
    rw [Shape.rowMajor_val_four, Shape.rowMajor_val_three]
    show ((b.val * 16 + h.val) * 2048 + r.val) * 64 + d.val = ((b.val * 16 + h.val) * 2048 + r.val) * 64 + d.val
    rfl
  · -- head 16 b + h of the merged arrays is head (b, h) of the arguments
    have e0 : hq m c (⟨b.val * 16 + h.val, by omega⟩ : Fin 32) = head (m ((c : Thread nD τ).loc main_arg0)) b h :=
      funext fun r => funext fun e => V_v0_apply m c b h r e
    have e1 : hk m c (⟨b.val * 16 + h.val, by omega⟩ : Fin 32) = head (m ((c : Thread nD τ).loc main_arg1)) b h :=
      funext fun r => funext fun e => V_v1_apply m c b h r e
    have e2 : hv m c (⟨b.val * 16 + h.val, by omega⟩ : Fin 32) = head (m ((c : Thread nD τ).loc main_arg2)) b h :=
      funext fun r => funext fun e => V_v2_apply m c b h r e
    show outh (hq m c (⟨b.val * 16 + h.val, by omega⟩ : Fin 32)) (hk m c (⟨b.val * 16 + h.val, by omega⟩ : Fin 32)) (hv m c (⟨b.val * 16 + h.val, by omega⟩ : Fin 32)) r d
      = outh (head (m ((c : Thread nD τ).loc main_arg0)) b h) (head (m ((c : Thread nD τ).loc main_arg1)) b h) (head (m ((c : Thread nD τ).loc main_arg2)) b h) r d
    rw [e0, e1, e2]

/-- THE RUN WITH ITS VALUE: the program ends with the final buffer at the specification of its arguments, which are
    unchanged. -/
theorem run_value : θ_run defs (onTc (τ := τ) (main (F := 𝔽))) ⟨m, fun _ => 0, ρ⟩ (fun r => ∀ c : Dev nD,
      r.2.mem ((c.tc : Thread nD τ).loc main_v4) = G4 (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v4 (by decide : main_v4 ∈ Pipeline.restRefs sig spec0)).trans (tail_v4 m c),
      ((h c).2 main_arg0 (by decide : main_arg0 ∈ Pipeline.restRefs sig spec0)).trans (tail_arg0 m c),
      ((h c).2 main_arg1 (by decide : main_arg1 ∈ Pipeline.restRefs sig spec0)).trans (tail_arg1 m c),
      ((h c).2 main_arg2 (by decide : main_arg2 ∈ Pipeline.restRefs sig spec0)).trans (tail_arg2 m c)⟩) (run_main m ρ)

end Cert.KernelIdeal.Fr

end
-- ==== Proof.RefValue.lean ====
/-
  The reference's result, operation by operation, is the specification: at index (b, h, r, d) its last value is the
  quotient of head (b, h)'s weighted sum of values by its normalizer plus ε — the dot products read as sums over the
  contracted axis, the causal mask `tril` read as c ≤ r, the conversions of float format the identity on the extended reals.
-/
import proofs.«420449_j45973329936664_3_alg».proof.Proof.Gen.ReferenceIdeal.Run
import proofs.«420449_j45973329936664_3_alg».proof.Proof.Gen.ReferenceIdeal.Read
import proofs.«420449_j45973329936664_3_alg».proof.Proof.Spec
import Idealize.ShloMosaic.Lib.StableHlo.Predicate

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The causal mask. At (r, c) the lower-triangle mask compares the row number plus zero with the column number as
    signed 32-bit words and keeps `true` where row ≥ column; both numbers are below 2048 < 2^31, so the signed
    comparison of the words is the comparison c ≤ r of the numbers, and the mask is the bit of that comparison. -/
theorem mask_apply (i : S2048x2048.Idx) :
    Read.val_main_v6 (F := Ideal) i = if (i 1).val ≤ (i 0).val then 1#1 else 0#1 := by
  rw [Read.val_main_v6_apply, Read.val_main_call0_v4_apply, Read.val_main_call0_v2_apply, Read.val_main_call0_v0_apply,
    Read.val_main_call0_v1_apply, Read.val_main_call0_c_apply, Read.val_main_call0_v3_apply, Read.val_main_v5_apply,
    Read.val_main_c_apply, Read.val_main_call0_v5_apply, Read.val_main_call0_c_0_apply]
  have h0 : (i 0).val < 2048 := (i 0).isLt
  have h1 : (i 1).val < 2048 := (i 1).isLt
  -- a number below 2048 is the value of its 32-bit word
  have e0 : (BitVec.ofNat 32 (i 0).val).toNat = (i 0).val := by
    rw [BitVec.toNat_ofNat]; exact Nat.mod_eq_of_lt (by omega)
  have e1 : (BitVec.ofNat 32 (i 1).val).toNat = (i 1).val := by
    rw [BitVec.toNat_ofNat]; exact Nat.mod_eq_of_lt (by omega)
  -- the diagonal offset is zero
  have hadd : IntOp.addi (BitVec.ofNat 32 (i 0).val) 0#32 = BitVec.ofNat 32 (i 0).val := by
    unfold IntOp.addi; exact BitVec.add_zero _
  rw [hadd]
  -- signed ≥ on two words with clear top bit is ≥ on their values
  have hiff := Predicate.sge_iff_toNat (a := BitVec.ofNat 32 (i 0).val) (b := BitVec.ofNat 32 (i 1).val)
    (by rw [e0]; omega) (by rw [e1]; omega)
  rw [e0, e1] at hiff
  by_cases h : (i 1).val ≤ (i 0).val
  · rw [if_pos h, hiff.mpr h, ValueIdx.select_one]
  · rw [if_neg h, ValueIdx.eq_zero_of_ne_one (fun hc => h (hiff.mp hc)), ValueIdx.select_zero]

/-- The score. At (b, h, r, c) the first dot product is Σ_e (q(r, e) · 1/8) · k(c, e) over head (b, h): the widening of
    the inputs is the identity, the left operand is q scaled by the constant, and the contraction runs over the last
    axis of both operands. This is the score with q scaled first. -/
theorem score_apply (x0 x1 : (⟨S2x16x2048x64, .bf16⟩ : BufTy).Contents (Elt Ideal)) (b : Fin 2) (h : Fin 16) (r c : Fin 2048) :
    Read.val_main_v4 (F := Ideal) x0 x1 (ValueIdx.ix4 b h r c)
      = Cert.Spec.scr (Cert.Spec.head x0 b h) (Cert.Spec.head x1 b h) r c := by
  rw [Read.val_main_v4_apply]
  unfold Cert.Spec.scr Cert.Spec.head
  refine Finset.sum_congr rfl fun k _ => ?_
  -- the left operand is read at (b, h, r, e), the right at (b, h, c, e)
  have el : Read.lidx_main_v4 (ValueIdx.ix4 b h r c) k = ValueIdx.ix4 b h r k :=
    funext fun a => Fin.ext (by match a with | ⟨0, _⟩ => rfl | ⟨1, _⟩ => rfl | ⟨2, _⟩ => rfl | ⟨3, _⟩ => rfl)
  have er : Read.ridx_main_v4 (ValueIdx.ix4 b h r c) k = ValueIdx.ix4 b h c k :=
    funext fun a => Fin.ext (by match a with | ⟨0, _⟩ => rfl | ⟨1, _⟩ => rfl | ⟨2, _⟩ => rfl | ⟨3, _⟩ => rfl)
  rw [el, er, Read.val_main_v2_apply, Read.val_main_v0_apply, Read.val_main_v1_apply, Read.val_main_cst_apply,
    Read.val_main_v3_apply, Ideal.mulf_def, Ideal.extf_def, Ideal.extf_def, Ideal.ofBits_def]
  rfl

/-- The causal weight. At (b, h, r, c) the masked polynomial is (1 + s) + (s/2 · s) of the score s where c ≤ r and the
    zero constant elsewhere; the score with q scaled first equals the score scaled after the sum. -/
theorem weight_apply (x0 x1 : (⟨S2x16x2048x64, .bf16⟩ : BufTy).Contents (Elt Ideal)) (b : Fin 2) (h : Fin 16) (r c : Fin 2048) :
    Read.val_main_v13 (F := Ideal) x0 x1 (ValueIdx.ix4 b h r c)
      = Cert.Spec.pm (Cert.Spec.head x0 b h) (Cert.Spec.head x1 b h) r c := by
  rw [Read.val_main_v13_apply, Read.val_main_call1_v1_apply, mask_apply, Read.val_main_v12_apply, Read.val_main_v8_apply,
    Read.val_main_v11_apply, Read.val_main_v10_apply, Read.val_main_v7_apply, Read.val_main_v9_apply,
    Read.val_main_cst_0_apply, Read.val_main_cst_1_apply, Read.val_main_call1_v2_apply, Read.val_main_call1_v0_apply,
    Read.val_main_cst_2_apply, score_apply, Cert.Spec.scr_eq_sck,
    Ideal.addf_def, Ideal.addf_def, Ideal.mulf_def, Ideal.mulf_def, Ideal.ofBits_def, Ideal.ofBits_def, Ideal.ofBits_def]
  unfold Cert.Spec.pm Cert.Spec.poly
  -- the mask of the [2048, 2048] triangle is read at (r, c)
  show Scalar.select (if c.val ≤ r.val then 1#1 else 0#1) _ _ = _
  by_cases hc : c.val ≤ r.val
  · rw [if_pos hc, if_pos hc, ValueIdx.select_one]; rfl
  · rw [if_neg hc, if_neg hc, ValueIdx.select_zero]; rfl

/-- The normalizer. At (b, h, r) the sum over the last axis starts from the zero constant, which is the real 0, and adds
    the 2048 weights of row r. -/
theorem z_apply (x0 x1 : (⟨S2x16x2048x64, .bf16⟩ : BufTy).Contents (Elt Ideal)) (b : Fin 2) (h : Fin 16) (r : Fin 2048) :
    Read.val_main_v14 (F := Ideal) x0 x1 (ValueIdx.ix3 b h r)
      = Cert.Spec.zrow (Cert.Spec.head x0 b h) (Cert.Spec.head x1 b h) r := by
  rw [Read.val_main_v14_apply, Read.val_main_cst_3_apply, Ideal.ofBits_def]
  change Cert.Spec.c0 + _ = _
  rw [Cert.Spec.c0_eq, zero_add]
  unfold Cert.Spec.zrow
  refine Finset.sum_congr rfl fun k _ => ?_
  have e : Read.idx_main_v14 (ValueIdx.ix3 b h r) k = ValueIdx.ix4 b h r k :=
    funext fun a => Fin.ext (by match a with | ⟨0, _⟩ => rfl | ⟨1, _⟩ => rfl | ⟨2, _⟩ => rfl | ⟨3, _⟩ => rfl)
  rw [e, weight_apply]

/-- The numerator. At (b, h, r, d) the second dot product is Σ_c w(r, c) · v(c, d): the weights pass through the narrow
    format and back unchanged, the contraction runs over the last axis of the weights and the row axis of v. -/
theorem o_apply (x0 x1 x2 : (⟨S2x16x2048x64, .bf16⟩ : BufTy).Contents (Elt Ideal)) (b : Fin 2) (h : Fin 16) (r : Fin 2048)
    (d : Fin 64) :
    Read.val_main_v18 (F := Ideal) x0 x1 x2 (ValueIdx.ix4 b h r d)
      = Cert.Spec.orow (Cert.Spec.head x0 b h) (Cert.Spec.head x1 b h) (Cert.Spec.head x2 b h) r d := by
  rw [Read.val_main_v18_apply]
  unfold Cert.Spec.orow
  refine Finset.sum_congr rfl fun k _ => ?_
  have el : Read.lidx_main_v18 (ValueIdx.ix4 b h r d) k = ValueIdx.ix4 b h r k :=
    funext fun a => Fin.ext (by match a with | ⟨0, _⟩ => rfl | ⟨1, _⟩ => rfl | ⟨2, _⟩ => rfl | ⟨3, _⟩ => rfl)
  have er : Read.ridx_main_v18 (ValueIdx.ix4 b h r d) k = ValueIdx.ix4 b h k d :=
    funext fun a => Fin.ext (by match a with | ⟨0, _⟩ => rfl | ⟨1, _⟩ => rfl | ⟨2, _⟩ => rfl | ⟨3, _⟩ => rfl)
  rw [el, er, Read.val_main_v16_apply, Read.val_main_v15_apply, Read.val_main_v17_apply, Ideal.extf_def, Ideal.truncf_def,
    Ideal.extf_def, weight_apply]
  rfl

/-- The reference's final value is the specification. -/
theorem val_main_v24_eq_G4 (x0 x1 x2 : (⟨S2x16x2048x64, .bf16⟩ : BufTy).Contents (Elt Ideal)) :
    Read.val_main_v24 (F := Ideal) x0 x1 x2 = Cert.Spec.G4 x0 x1 x2 := by
  funext i
  obtain ⟨b, h, r, d, rfl⟩ : ∃ b h r d, i = ValueIdx.ix4 b h r d := ⟨i 0, i 1, i 2, i 3, ValueIdx.eq_ix4 i⟩
  -- the last value is numerator / (normalizer + ε), the normalizer of row (b, h, r) copied along the last axis
  rw [Read.val_main_v24_apply, Read.val_main_v23_apply, Read.val_main_v22_apply, Read.val_main_v21_apply,
    Read.val_main_v19_apply, Read.val_main_v20_apply, Read.val_main_cst_4_apply, o_apply]
  have e : Read.idx_main_v19 (Read.idx_main_v22 (ValueIdx.ix4 b h r d)) = ValueIdx.ix3 b h r :=
    funext fun a => Fin.ext (by match a with | ⟨0, _⟩ => rfl | ⟨1, _⟩ => rfl | ⟨2, _⟩ => rfl)
  rw [e, z_apply, Ideal.truncf_def, Ideal.hostDivf_def, Ideal.addf_def, Ideal.ofBits_def]
  rfl

end Cert.ReferenceIdeal.RefValue

end
-- ==== Proof.lean ====
/-
  The certificate of the causal second-order Taylor attention kernel against its jnp reference.

  Both programs compute, for every head, O(r, d) / (Z(r) + ε) with Z the row sums and O the value-weighted row sums
  of the causal weights 1 + s + (s/2)·s of the scores s = q·kᵀ/8 (proof/Proof/Spec.lean). The kernel walks the causal
  triangle tile by tile under four small schedule tables and keeps Z and O in two accumulators
  (proof/Proof/KI/: the body run in its five control cases, the accumulators after every grid point, the blocks
  written back, the final reshape); the reference computes whole rows (proof/Proof/RefValue.lean over the
  generated run of the reference). The two differ in the order of summation, in where the factor 1/8 is applied
  (a nonnegative finite factor distributes over sums of extended reals) and in the tiles above the diagonal the kernel
  never visits, whose weights are zero. The frames: the kernel's two programs leave their arguments unchanged
  (proof/Proof/K/ and proof/Proof/KI/), the reference's run is generated. The ideal pass rewrote nothing, so
  the idealized kernel is the kernel's own text read on the extended reals.
-/
import proofs.«420449_j45973329936664_3_alg».proof.Defs
import proofs.«420449_j45973329936664_3_alg».proof.Proof.Gen.Kernel
import proofs.«420449_j45973329936664_3_alg».proof.Proof.Gen.KernelIdeal
import proofs.«420449_j45973329936664_3_alg».proof.Proof.Gen.ReferenceIdeal
import proofs.«420449_j45973329936664_3_alg».proof.Proof.Gen.ReferenceIdeal.Run
import proofs.«420449_j45973329936664_3_alg».proof.Proof.Gen.ReferenceIdeal.Read
import proofs.«420449_j45973329936664_3_alg».proof.Proof.Gen.Pre_finite_inputs
import proofs.«420449_j45973329936664_3_alg».proof.Proof.K.Claim
import proofs.«420449_j45973329936664_3_alg».proof.Proof.KI.Claim
import proofs.«420449_j45973329936664_3_alg».proof.Proof.KI.Final
import proofs.«420449_j45973329936664_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's final buffer and the reference's result are the specification of arguments that agree. -/
theorem algebraic : Cert.algebraic_KernelIdeal_ReferenceIdeal := by
  intro m ρ m' ρ' _ hagree
  refine ⟨fun c => Cert.Spec.G4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.val_main_v24_eq_G4, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
